-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x64 : Shape := ⟨3, ![2, 4096, 64]⟩
abbrev S2x4096x3 : Shape := ⟨3, ![2, 4096, 3]⟩
abbrev S_ : Shape := ⟨0, ![]⟩

class Facts : Prop where
  bcast_S_S2x4096x64 : S_.BroadcastsInDim S2x4096x64 (![] : Fin 0 → Fin S2x4096x64.rank)
  reducesTo_S2x4096x64_S_d0_1_2 : S2x4096x64.ReducesTo [0, 1, 2] S_
  h_S_ : 0 < S_.numel
  bcast_S_S2x4096x3 : S_.BroadcastsInDim S2x4096x3 (![] : Fin 0 → Fin S2x4096x3.rank)
  reducesTo_S2x4096x3_S_d0_1_2 : S2x4096x3.ReducesTo [0, 1, 2] S_
  reducesTo_S_S_d : S_.ReducesTo [] S_

variable [Facts]

def fn_part1 {F : FTy → Type} [FloatOps F] (main_arg4 : FVec F S_ .f32) (main_v13 : IVec S_ 1) (main_v16 : IVec S2x4096x3 1) : IVec S_ 1 :=
  let main_c_5 : IVec S_ 1 := constantI S_ 1 1#1
  let main_v17 : IVec S_ 1 := (fun x v => Host.reduce IntOp.andi x v reducesTo_S2x4096x3_S_d0_1_2 h_S_) main_v16 main_c_5
  let main_v18 : IVec S_ 1 := andi main_v13 main_v17
  let main_v19 : FVec F S_ .f32 := Host.absf main_arg4
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  main_v22

def fn {F : FTy → Type} [FloatOps F] (main_arg0 : FVec F S2x4096x64 .f32) (main_arg1 : FVec F S2x4096x64 .f32) (main_arg2 : FVec F S2x4096x3 .f32) (main_arg3 : FVec F S2x4096x3 .f32) (main_arg4 : FVec F S_ .f32) : IVec S_ 1 :=
  let main_v0 : FVec F S2x4096x64 .f32 := Host.absf main_arg0
  let main_cst : FVec F S_ .f32 := constant S_ .f32 0x7F800000#32
  let main_v1 : FVec F S2x4096x64 .f32 := broadcastInDim S2x4096x64 ![] bcast_S_S2x4096x64 main_cst
  let main_v2 : IVec S2x4096x64 1 := cmpf .olt main_v0 main_v1
  let main_c : IVec S_ 1 := constantI S_ 1 1#1
  let main_v3 : IVec S_ 1 := (fun x v => Host.reduce IntOp.andi x v reducesTo_S2x4096x64_S_d0_1_2 h_S_) main_v2 main_c
  let main_v4 : FVec F S2x4096x64 .f32 := Host.absf main_arg1
  let main_cst_0 : FVec F S_ .f32 := constant S_ .f32 0x7F800000#32
  let main_v5 : FVec F S2x4096x64 .f32 := broadcastInDim S2x4096x64 ![] bcast_S_S2x4096x64 main_cst_0
  let main_v6 : IVec S2x4096x64 1 := cmpf .olt main_v4 main_v5
  let main_c_1 : IVec S_ 1 := constantI S_ 1 1#1
  let main_v7 : IVec S_ 1 := (fun x v => Host.reduce IntOp.andi x v reducesTo_S2x4096x64_S_d0_1_2 h_S_) main_v6 main_c_1
  let main_v8 : IVec S_ 1 := andi main_v3 main_v7
  let main_v9 : FVec F S2x4096x3 .f32 := Host.absf main_arg2
  let main_cst_2 : FVec F S_ .f32 := constant S_ .f32 0x7F800000#32
  let main_v10 : FVec F S2x4096x3 .f32 := broadcastInDim S2x4096x3 ![] bcast_S_S2x4096x3 main_cst_2
  let main_v11 : IVec S2x4096x3 1 := cmpf .olt main_v9 main_v10
  let main_c_3 : IVec S_ 1 := constantI S_ 1 1#1
  let main_v12 : IVec S_ 1 := (fun x v => Host.reduce IntOp.andi x v reducesTo_S2x4096x3_S_d0_1_2 h_S_) main_v11 main_c_3
  let main_v13 : IVec S_ 1 := andi main_v8 main_v12
  let main_v14 : FVec F S2x4096x3 .f32 := Host.absf main_arg3
  let main_cst_4 : FVec F S_ .f32 := constant S_ .f32 0x7F800000#32
  let main_v15 : FVec F S2x4096x3 .f32 := broadcastInDim S2x4096x3 ![] bcast_S_S2x4096x3 main_cst_4
  let main_v16 : IVec S2x4096x3 1 := cmpf .olt main_v14 main_v15
  fn_part1 (F := F) main_arg4 main_v13 main_v16
-- ==== Kernel.lean ====
abbrev S2x4096x64 : Shape := ⟨3, ![2, 4096, 64]⟩
abbrev S2x4096x3 : Shape := ⟨3, ![2, 4096, 3]⟩
abbrev S_ : Shape := ⟨0, ![]⟩
abbrev S2x4096 : Shape := ⟨2, ![2, 4096]⟩
abbrev S2x4096x1 : Shape := ⟨3, ![2, 4096, 1]⟩
abbrev S2x4096x65 : Shape := ⟨3, ![2, 4096, 65]⟩
abbrev S2x4096x5 : Shape := ⟨3, ![2, 4096, 5]⟩
abbrev S2x4096x4 : Shape := ⟨3, ![2, 4096, 4]⟩
abbrev S1x1024x65 : Shape := ⟨3, ![1, 1024, 65]⟩
abbrev S1x1024x5 : Shape := ⟨3, ![1, 1024, 5]⟩
abbrev S1x1024x4 : Shape := ⟨3, ![1, 1024, 4]⟩
abbrev S1x1024x3 : Shape := ⟨3, ![1, 1024, 3]⟩
abbrev S1024x4 : Shape := ⟨2, ![1024, 4]⟩
abbrev S1024x65 : Shape := ⟨2, ![1024, 65]⟩
abbrev S1024x5 : Shape := ⟨2, ![1024, 5]⟩
abbrev S65x1024 : Shape := ⟨2, ![65, 1024]⟩
abbrev S1024x1024 : Shape := ⟨2, ![1024, 1024]⟩
abbrev S5x1024 : Shape := ⟨2, ![5, 1024]⟩
abbrev S1024x1 : Shape := ⟨2, ![1024, 1]⟩
abbrev S1024x3 : Shape := ⟨2, ![1024, 3]⟩

abbrev nBuf : Space → Nat
  | .hbm => 50
  | .vmem => 13
  | .smem => 0
  | _ => 0

abbrev bufTy : (tb : Table) → Fin (tcTables nBuf tb) → BufTy
  | .hbm, ⟨0, _⟩ => ⟨S2x4096x64, .f32⟩
  | .hbm, ⟨1, _⟩ => ⟨S2x4096x64, .f32⟩
  | .hbm, ⟨2, _⟩ => ⟨S2x4096x3, .f32⟩
  | .hbm, ⟨3, _⟩ => ⟨S2x4096x3, .f32⟩
  | .hbm, ⟨4, _⟩ => ⟨S_, .f32⟩
  | .hbm, ⟨5, _⟩ => ⟨S2x4096x64, .f32⟩
  | .hbm, ⟨6, _⟩ => ⟨S_, .f32⟩
  | .hbm, ⟨7, _⟩ => ⟨S2x4096, .f32⟩
  | .hbm, ⟨8, _⟩ => ⟨S2x4096x1, .f32⟩
  | .hbm, ⟨9, _⟩ => ⟨S2x4096x1, .f32⟩
  | .hbm, ⟨10, _⟩ => ⟨S2x4096x64, .f32⟩
  | .hbm, ⟨11, _⟩ => ⟨S2x4096x64, .f32⟩
  | .hbm, ⟨12, _⟩ => ⟨S2x4096x64, .f32⟩
  | .hbm, ⟨13, _⟩ => ⟨S_, .f32⟩
  | .hbm, ⟨14, _⟩ => ⟨S2x4096, .f32⟩
  | .hbm, ⟨15, _⟩ => ⟨S2x4096x1, .f32⟩
  | .hbm, ⟨16, _⟩ => ⟨S2x4096x1, .f32⟩
  | .hbm, ⟨17, _⟩ => ⟨S2x4096x64, .f32⟩
  | .hbm, ⟨18, _⟩ => ⟨S2x4096x64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S2x4096x1, .f32⟩
  | .hbm, ⟨26, _⟩ => ⟨S_, .f32⟩
  | .hbm, ⟨27, _⟩ => ⟨S2x4096x1, .f32⟩
  | .hbm, ⟨28, _⟩ => ⟨S2x4096x64, .f32⟩
  | .hbm, ⟨29, _⟩ => ⟨S2x4096x64, .f32⟩
  | .hbm, ⟨30, _⟩ => ⟨S_, .f32⟩
  | .hbm, ⟨31, _⟩ => ⟨S2x4096x1, .f32⟩
  | .hbm, ⟨32, _⟩ => ⟨S2x4096x1, .f32⟩
  | .hbm, ⟨33, _⟩ => ⟨S2x4096x65, .f32⟩
  | .hbm, ⟨34, _⟩ => ⟨S2x4096x65, .f32⟩
  | .hbm, ⟨35, _⟩ => ⟨S2x4096x3, .f32⟩
  | .hbm, ⟨36, _⟩ => ⟨S_, .f32⟩
  | .hbm, ⟨37, _⟩ => ⟨S2x4096, .f32⟩
  | .hbm, ⟨38, _⟩ => ⟨S2x4096x1, .f32⟩
  | .hbm, ⟨39, _⟩ => ⟨S2x4096x3, .f32⟩
  | .hbm, ⟨40, _⟩ => ⟨S_, .f32⟩
  | .hbm, ⟨41, _⟩ => ⟨S2x4096, .f32⟩
  | .hbm, ⟨42, _⟩ => ⟨S2x4096x1, .f32⟩
  | .hbm, ⟨43, _⟩ => ⟨S2x4096x5, .f32⟩
  | .hbm, ⟨44, _⟩ => ⟨S_, .f32⟩
  | .hbm, ⟨45, _⟩ => ⟨S2x4096x3, .f32⟩
  | .hbm, ⟨46, _⟩ => ⟨S2x4096x3, .f32⟩
  | .hbm, ⟨47, _⟩ => ⟨S2x4096x5, .f32⟩
  | .hbm, ⟨48, _⟩ => ⟨S2x4096x4, .f32⟩
  | .hbm, ⟨49, _⟩ => ⟨S2x4096x3, .f32⟩
  | .local _ .vmem, ⟨0, _⟩ => ⟨S1x1024x65, .f32⟩
  | .local _ .vmem, ⟨1, _⟩ => ⟨S1x1024x65, .f32⟩
  | .local _ .vmem, ⟨2, _⟩ => ⟨S1x1024x65, .f32⟩
  | .local _ .vmem, ⟨3, _⟩ => ⟨S1x1024x65, .f32⟩
  | .local _ .vmem, ⟨4, _⟩ => ⟨S1x1024x5, .f32⟩
  | .local _ .vmem, ⟨5, _⟩ => ⟨S1x1024x5, .f32⟩
  | .local _ .vmem, ⟨6, _⟩ => ⟨S1x1024x5, .f32⟩
  | .local _ .vmem, ⟨7, _⟩ => ⟨S1x1024x5, .f32⟩
  | .local _ .vmem, ⟨8, _⟩ => ⟨S1x1024x4, .f32⟩
  | .local _ .vmem, ⟨9, _⟩ => ⟨S1x1024x4, .f32⟩
  | .local _ .vmem, ⟨10, _⟩ => ⟨S1x1024x3, .f32⟩
  | .local _ .vmem, ⟨11, _⟩ => ⟨S1x1024x3, .f32⟩
  | .local _ .vmem, ⟨12, _⟩ => ⟨S1024x4, .f32⟩
  | _, _ => ⟨S2x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v28 : BitVec 1 := Scalar.cmpi .eq arg2 c3_i32
  let v29 : BitVec 32 := Scalar.extui v28
  let c0_i32_23 : BitVec 32 := 0#32
  let v30 : BitVec 1 := Scalar.cmpi .ne v29 c0_i32_23
  v30

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x65 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x65 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x5 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x1024x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  reducesTo_S2x4096x64_S2x4096_d2 : S2x4096x64.ReducesTo [2] S2x4096
  h_S_ : 0 < S_.numel
  bcast_S2x4096_S2x4096x1_0_1 : S2x4096.BroadcastsInDim S2x4096x1 (![0, 1] : Fin 2 → Fin S2x4096x1.rank)
  bcast_S2x4096x1_S2x4096x64_0_1_2 : S2x4096x1.BroadcastsInDim S2x4096x64 (![0, 1, 2] : Fin 3 → Fin S2x4096x64.rank)
  bcast_S_S2x4096x1 : S_.BroadcastsInDim S2x4096x1 (![] : Fin 0 → Fin S2x4096x1.rank)
  bcast_S_S2x4096x64 : S_.BroadcastsInDim S2x4096x64 (![] : Fin 0 → Fin S2x4096x64.rank)
  concatenates_S2x4096x64_S2x4096x1_S2x4096x65_d2 : Shape.Concatenates [S2x4096x64, S2x4096x1] S2x4096x65 2
  reducesTo_S2x4096x3_S2x4096_d2 : S2x4096x3.ReducesTo [2] S2x4096
  concatenates_S2x4096x3_S2x4096x1_S2x4096x1_S2x4096x5_d2 : Shape.Concatenates [S2x4096x3, S2x4096x1, S2x4096x1] S2x4096x5 2
  bcast_S_S2x4096x3 : S_.BroadcastsInDim S2x4096x3 (![] : Fin 0 → Fin S2x4096x3.rank)
  concatenates_S2x4096x3_S2x4096x1_S2x4096x4_d2 : Shape.Concatenates [S2x4096x3, S2x4096x1] S2x4096x4 2
  inb_S1024x4_S1024x4_0_0 : ∀ a, (![0, 0] : Fin 2 → Nat) a + S1024x4.size a ≤ S1024x4.size a
  h_S1024x4 : 0 < S1024x4.numel
  shapeCasts_S1024x4_S1024x4 : S1024x4.ShapeCasts S1024x4
  inb_S1x1024x65_S1x1024x65_0_0_0 : ∀ a, (![0, 0, 0] : Fin 3 → Nat) a + S1x1024x65.size a ≤ S1x1024x65.size a
  h_S1x1024x65 : 0 < S1x1024x65.numel
  shapeCasts_S1x1024x65_S1024x65 : S1x1024x65.ShapeCasts S1024x65
  inb_S1x1024x5_S1x1024x5_0_0_0 : ∀ a, (![0, 0, 0] : Fin 3 → Nat) a + S1x1024x5.size a ≤ S1x1024x5.size a
  h_S1x1024x5 : 0 < S1x1024x5.numel
  shapeCasts_S1x1024x5_S1024x5 : S1x1024x5.ShapeCasts S1024x5
  transposes_S1024x65_p1_0_S65x1024 : S1024x65.Transposes [1, 0] S65x1024
  transposes_S1024x5_p1_0_S5x1024 : S1024x5.Transposes [1, 0] S5x1024
  inb_S1x1024x4_S1x1024x4_0_0_0 : ∀ a, (![0, 0, 0] : Fin 3 → Nat) a + S1x1024x4.size a ≤ S1x1024x4.size a
  h_S1x1024x4 : 0 < S1x1024x4.numel
  shapeCasts_S1x1024x4_S1024x4 : S1x1024x4.ShapeCasts S1024x4
  slices_S1024x4_o0_3_S1024x1 : S1024x4.Slices ![0, 3] S1024x1
  slices_S1024x4_o0_0_S1024x3 : S1024x4.Slices ![0, 0] S1024x3
  broadcasts_S1024x1_S1024x3 : S1024x1.Broadcasts S1024x3
  slices_S1024x5_o0_0_S1024x3 : S1024x5.Slices ![0, 0] S1024x3
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  shapeCasts_S1024x3_S1x1024x3 : S1024x3.ShapeCasts S1x1024x3
  dot_S1024x65_S65x1024_S1024x1024_1_0_0_1_n_n_wf : DotDims.WF S1024x65 S65x1024 S1024x1024 [1] [0] [0] [1] [] []
  dot_S1024x5_S5x1024_S1024x1024_1_0_0_1_n_n_wf : DotDims.WF S1024x5 S5x1024 S1024x1024 [1] [0] [0] [1] [] []
  dot_S1024x1024_S1024x4_S1024x4_1_0_0_1_n_n_wf : DotDims.WF S1024x1024 S1024x4 S1024x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x65.size a ≤ S2x4096x65.size a
  hwx0_0 : ∀ i : grid0.Coords, EltTy.bits .f32 = 32 ∨ (Rect.block (s := S2x4096x65) S1x1024x65.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x65.size a ≤ S2x4096x65.size a
  hwx0_1 : ∀ i : grid0.Coords, EltTy.bits .f32 = 32 ∨ (Rect.block (s := S2x4096x65) S1x1024x65.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x5.size a ≤ S2x4096x5.size a
  hwx0_2 : ∀ i : grid0.Coords, EltTy.bits .f32 = 32 ∨ (Rect.block (s := S2x4096x5) S1x1024x5.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x5.size a ≤ S2x4096x5.size a
  hwx0_3 : ∀ i : grid0.Coords, EltTy.bits .f32 = 32 ∨ (Rect.block (s := S2x4096x5) S1x1024x5.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x4.size a ≤ S2x4096x4.size a
  hwx0_4 : ∀ i : grid0.Coords, EltTy.bits .f32 = 32 ∨ (Rect.block (s := S2x4096x4) S1x1024x4.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x3.size a ≤ S2x4096x3.size a
  hwx0_5 : ∀ i : grid0.Coords, EltTy.bits .f32 = 32 ∨ (Rect.block (s := S2x4096x3) S1x1024x3.size (cc0_transform_5 i) (hinb0_5 i)).WholeWords (EltTy.packing .f32)

variable [Facts₀]

def dot_S1024x65_S65x1024_S1024x1024_1_0_0_1_n_n : DotDims S1024x65 S65x1024 S1024x1024 where
  lhsContracting := [1]
  rhsContracting := [0]
  lhsNonContracting := [0]
  rhsNonContracting := [1]
  lhsBatch := []
  rhsBatch := []
  wf := dot_S1024x65_S65x1024_S1024x1024_1_0_0_1_n_n_wf
def dot_S1024x5_S5x1024_S1024x1024_1_0_0_1_n_n : DotDims S1024x5 S5x1024 S1024x1024 where
  lhsContracting := [1]
  rhsContracting := [0]
  lhsNonContracting := [0]
  rhsNonContracting := [1]
  lhsBatch := []
  rhsBatch := []
  wf := dot_S1024x5_S5x1024_S1024x1024_1_0_0_1_n_n_wf
def dot_S1024x1024_S1024x4_S1024x4_1_0_0_1_n_n : DotDims S1024x1024 S1024x4 S1024x4 where
  lhsContracting := [1]
  rhsContracting := [0]
  lhsNonContracting := [0]
  rhsNonContracting := [1]
  lhsBatch := []
  rhsBatch := []
  wf := dot_S1024x1024_S1024x4_S1024x4_1_0_0_1_n_n_wf

abbrev win0_0 : Pipeline.Window sig grid0 :=
  Pipeline.Window.ofSpec (Memref.whole main_v16) S1x1024x65.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1x1024x65.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x1024x5.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x1024x5.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x1024x4.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v29) S1x1024x3.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S2x4096x64 : Shape := ⟨3, ![2, 4096, 64]⟩
abbrev S2x4096x3 : Shape := ⟨3, ![2, 4096, 3]⟩
abbrev S_ : Shape := ⟨0, ![]⟩
abbrev S2x4096 : Shape := ⟨2, ![2, 4096]⟩
abbrev S2x4096x1 : Shape := ⟨3, ![2, 4096, 1]⟩
abbrev S2x4096x4096 : Shape := ⟨3, ![2, 4096, 4096]⟩
abbrev S2x1x4096 : Shape := ⟨3, ![2, 1, 4096]⟩

abbrev nBuf : Space → Nat
  | .hbm => 65
  | .vmem => 0
  | .smem => 0
  | _ => 0

abbrev bufTy : (tb : Table) → Fin (tcTables nBuf tb) → BufTy
  | .hbm, ⟨0, _⟩ => ⟨S2x4096x64, .f32⟩
  | .hbm, ⟨1, _⟩ => ⟨S2x4096x64, .f32⟩
  | .hbm, ⟨2, _⟩ => ⟨S2x4096x3, .f32⟩
  | .hbm, ⟨3, _⟩ => ⟨S2x4096x3, .f32⟩
  | .hbm, ⟨4, _⟩ => ⟨S_, .f32⟩
  | .hbm, ⟨5, _⟩ => ⟨S2x4096x64, .f32⟩
  | .hbm, ⟨6, _⟩ => ⟨S_, .f32⟩
  | .hbm, ⟨7, _⟩ => ⟨S2x4096, .f32⟩
  | .hbm, ⟨8, _⟩ => ⟨S2x4096x1, .f32⟩
  | .hbm, ⟨9, _⟩ => ⟨S2x4096x1, .f32⟩
  | .hbm, ⟨10, _⟩ => ⟨S2x4096x64, .f32⟩
  | .hbm, ⟨11, _⟩ => ⟨S2x4096x64, .f32⟩
  | .hbm, ⟨12, _⟩ => ⟨S2x4096x64, .f32⟩
  | .hbm, ⟨13, _⟩ => ⟨S_, .f32⟩
  | .hbm, ⟨14, _⟩ => ⟨S2x4096, .f32⟩
  | .hbm, ⟨15, _⟩ => ⟨S2x4096x1, .f32⟩
  | .hbm, ⟨16, _⟩ => ⟨S2x4096x1, .f32⟩
  | .hbm, ⟨17, _⟩ => ⟨S2x4096x64, .f32⟩
  | .hbm, ⟨18, _⟩ => ⟨S2x4096x64, .f32⟩
  | .hbm, ⟨19, _⟩ => ⟨S2x4096x3, .f32⟩
  | .hbm, ⟨20, _⟩ => ⟨S_, .f32⟩
  | .hbm, ⟨21, _⟩ => ⟨S2x4096, .f32⟩
  | .hbm, ⟨22, _⟩ => ⟨S2x4096x1, .f32⟩
  | .hbm, ⟨23, _⟩ => ⟨S2x4096x3, .f32⟩
  | .hbm, ⟨24, _⟩ => ⟨S_, .f32⟩
  | .hbm, ⟨25, _⟩ => ⟨S2x4096, .f32⟩
  | .hbm, ⟨26, _⟩ => ⟨S2x4096x1, .f32⟩
  | .hbm, ⟨27, _⟩ => ⟨S2x4096x4096, .f32⟩
  | .hbm, ⟨28, _⟩ => ⟨S2x1x4096, .f32⟩
  | .hbm, ⟨29, _⟩ => ⟨S2x4096x4096, .f32⟩
  | .hbm, ⟨30, _⟩ => ⟨S2x4096x4096, .f32⟩
  | .hbm, ⟨31, _⟩ => ⟨S2x4096x4096, .f32⟩
  | .hbm, ⟨32, _⟩ => ⟨S_, .f32⟩
  | .hbm, ⟨33, _⟩ => ⟨S2x4096x4096, .f32⟩
  | .hbm, ⟨34, _⟩ => ⟨S2x4096x4096, .f32⟩
  | .hbm, ⟨35, _⟩ => ⟨S2x4096x4096, .f32⟩
  | .hbm, ⟨36, _⟩ => ⟨S_, .f32⟩
  | .hbm, ⟨37, _⟩ => ⟨S2x4096x4096, .f32⟩
  | .hbm, ⟨38, _⟩ => ⟨S2x4096x4096, .i1⟩
  | .hbm, ⟨39, _⟩ => ⟨S2x4096x4096, .f32⟩
  | .hbm, ⟨40, _⟩ => ⟨S2x4096x4096, .f32⟩
  | .hbm, ⟨41, _⟩ => ⟨S_, .f32⟩
  | .hbm, ⟨42, _⟩ => ⟨S2x4096x4096, .f32⟩
  | .hbm, ⟨43, _⟩ => ⟨S2x4096x4096, .f32⟩
  | .hbm, ⟨44, _⟩ => ⟨S_, .f32⟩
  | .hbm, ⟨45, _⟩ => ⟨S2x4096x4096, .f32⟩
  | .hbm, ⟨46, _⟩ => ⟨S2x4096x4096, .f32⟩
  | .hbm, ⟨47, _⟩ => ⟨S2x4096x4096, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S2x4096x4096, .f32⟩
  | .hbm, ⟨52, _⟩ => ⟨S2x4096x4096, .f32⟩
  | .hbm, ⟨53, _⟩ => ⟨S2x4096x4096, .f32⟩
  | .hbm, ⟨54, _⟩ => ⟨S2x4096x4096, .f32⟩
  | .hbm, ⟨55, _⟩ => ⟨S_, .f32⟩
  | .hbm, ⟨56, _⟩ => ⟨S2x4096, .f32⟩
  | .hbm, ⟨57, _⟩ => ⟨S2x4096x1, .f32⟩
  | .hbm, ⟨58, _⟩ => ⟨S2x4096x3, .f32⟩
  | .hbm, ⟨59, _⟩ => ⟨S_, .f32⟩
  | .hbm, ⟨60, _⟩ => ⟨S2x4096x1, .f32⟩
  | .hbm, ⟨61, _⟩ => ⟨S2x4096x1, .f32⟩
  | .hbm, ⟨62, _⟩ => ⟨S2x4096x3, .f32⟩
  | .hbm, ⟨63, _⟩ => ⟨S2x4096x3, .f32⟩
  | .hbm, ⟨64, _⟩ => ⟨S2x4096x3, .f32⟩
  | _, _ => ⟨S2x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_6 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩

abbrev nD : Nat := 1
abbrev τ : Topo := Topo.v7x

variable {F : FTy → Type} [FloatOps F]

class Facts₀ : Prop where
  reducesTo_S2x4096x64_S2x4096_d2 : S2x4096x64.ReducesTo [2] S2x4096
  h_S_ : 0 < S_.numel
  bcast_S2x4096_S2x4096x1_0_1 : S2x4096.BroadcastsInDim S2x4096x1 (![0, 1] : Fin 2 → Fin S2x4096x1.rank)
  bcast_S2x4096x1_S2x4096x64_0_1_2 : S2x4096x1.BroadcastsInDim S2x4096x64 (![0, 1, 2] : Fin 3 → Fin S2x4096x64.rank)
  reducesTo_S2x4096x3_S2x4096_d2 : S2x4096x3.ReducesTo [2] S2x4096
  transposes_S2x4096x1_S2x1x4096_0_2_1 : S2x4096x1.Transposes [0, 2, 1] S2x1x4096
  bcast_S2x4096x1_S2x4096x4096_0_1_2 : S2x4096x1.BroadcastsInDim S2x4096x4096 (![0, 1, 2] : Fin 3 → Fin S2x4096x4096.rank)
  bcast_S2x1x4096_S2x4096x4096_0_1_2 : S2x1x4096.BroadcastsInDim S2x4096x4096 (![0, 1, 2] : Fin 3 → Fin S2x4096x4096.rank)
  bcast_S_S2x4096x4096 : S_.BroadcastsInDim S2x4096x4096 (![] : Fin 0 → Fin S2x4096x4096.rank)
  reducesTo_S2x4096x4096_S2x4096_d2 : S2x4096x4096.ReducesTo [2] S2x4096
  bcast_S_S2x4096x1 : S_.BroadcastsInDim S2x4096x1 (![] : Fin 0 → Fin S2x4096x1.rank)
  bcast_S2x4096x1_S2x4096x3_0_1_2 : S2x4096x1.BroadcastsInDim S2x4096x3 (![0, 1, 2] : Fin 3 → Fin S2x4096x3.rank)
  dot_S2x4096x3_S2x4096x3_S2x4096x4096_2_2_1_1_0_0_wf : DotDims.WF S2x4096x3 S2x4096x3 S2x4096x4096 [2] [2] [1] [1] [0] [0]
  dot_S2x4096x64_S2x4096x64_S2x4096x4096_2_2_1_1_0_0_wf : DotDims.WF S2x4096x64 S2x4096x64 S2x4096x4096 [2] [2] [1] [1] [0] [0]
  dot_S2x4096x4096_S2x4096x3_S2x4096x3_2_1_1_2_0_0_wf : DotDims.WF S2x4096x4096 S2x4096x3 S2x4096x3 [2] [1] [1] [2] [0] [0]

variable [Facts₀]

def dot_S2x4096x3_S2x4096x3_S2x4096x4096_2_2_1_1_0_0 : DotDims S2x4096x3 S2x4096x3 S2x4096x4096 where
  lhsContracting := [2]
  rhsContracting := [2]
  lhsNonContracting := [1]
  rhsNonContracting := [1]
  lhsBatch := [0]
  rhsBatch := [0]
  wf := dot_S2x4096x3_S2x4096x3_S2x4096x4096_2_2_1_1_0_0_wf
def dot_S2x4096x64_S2x4096x64_S2x4096x4096_2_2_1_1_0_0 : DotDims S2x4096x64 S2x4096x64 S2x4096x4096 where
  lhsContracting := [2]
  rhsContracting := [2]
  lhsNonContracting := [1]
  rhsNonContracting := [1]
  lhsBatch := [0]
  rhsBatch := [0]
  wf := dot_S2x4096x64_S2x4096x64_S2x4096x4096_2_2_1_1_0_0_wf
def dot_S2x4096x4096_S2x4096x3_S2x4096x3_2_1_1_2_0_0 : DotDims S2x4096x4096 S2x4096x3 S2x4096x3 where
  lhsContracting := [2]
  rhsContracting := [1]
  lhsNonContracting := [1]
  rhsNonContracting := [2]
  lhsBatch := [0]
  rhsBatch := [0]
  wf := dot_S2x4096x4096_S2x4096x3_S2x4096x3_2_1_1_2_0_0_wf

class Facts : Prop extends Facts₀ where

variable [Facts]
-- ==== Proof.FrameK.Runs.lean ====
/-
  What the three runs of the kernel body share, for the program `Kernel`.

  The program is four stretches of host operations (the two row normalizations, then the augmented operands) and
  ONE region over the grid 2 × 4 × 4, whose last axis walks the tiles of target points. `V` is what the region finds
  in each buffer: the launch contents after the host stretches; no stretch writes an argument. The body branches
  twice on the tile number: at the first tile it clears its accumulator, at the last it stores the output block; so
  a grid point is in one of three cases — first tile, middle tile, last tile — decided by `t % 4`. The output window
  is idle (and not written back) except at the last tile; the five input windows are never idle.
-/
import proofs.«429331_j45681272160506_3_alg».proof.Proof.Gen.Kernel.Launch
import proofs.«429331_j45681272160506_3_alg».proof.Proof.Gen.Kernel.Skeleton
import proofs.«429331_j45681272160506_3_alg».proof.Proof.Gen.Kernel.Points
import Idealize.ShloMosaic.Lib.Pipeline.FrameBody
import Idealize.ShloMosaic.Lib.Pipeline.Frame
import Idealize.ShloMosaic.Lib.StableHlo.Run
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the four host stretches. -/
abbrev V (c : Dev nD) (b : Ref sig .tc) : Buf (Elt F) ((c : Thread nD τ).loc b) :=
  StableHlo.after (List.flatten [hostOps0, hostOps0_1, hostOps0_2, hostOps0_3]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor

/-- @main reduces to the region entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3]
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- No host operation writes argument 0: each writes only its own result buffer. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 1: each writes only its own result buffer. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 2: each writes only its own result buffer. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 3: each writes only its own result buffer. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 4: each writes only its own result buffer. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof data
    whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof data
    whose array is the region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The five arguments are arrays of no window, so the frame run leaves each at its region-entry contents, which are the
    launch contents. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's two conditions, decided over the grid -/

/-- "This is the first tile": the body's first branch, from the grid coordinates. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last tile": the body's second branch. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- At a first tile the body stores nothing into the output window, and the pipeline does not write it back. -/
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
/-- The same at a middle tile. -/
theorem idleAt0_5_B : ∀ t : Fin cfg0.N, ¬cond0_0 (grid0.coords t) → ¬cond0_1 (grid0.coords t) → cfg0.idle 5 (grid0.coords t) = true := by decide +kernel
theorem noFlush0_5_B : ∀ t : Fin cfg0.N, ¬cond0_0 (grid0.coords t) → ¬cond0_1 (grid0.coords t) → (cfg0.win 5).flush t = false := by decide +kernel
/-- At a last tile the body stores the output block. -/
theorem liveAt0_5_C : ∀ t : Fin cfg0.N, ¬cond0_0 (grid0.coords t) → cond0_1 (grid0.coords t) → cfg0.idle 5 (grid0.coords t) = false := by decide +kernel

/-! ## The staging memrefs the body is called with -/

/-- One staging buffer of the output window, through which its contents are stated. -/
abbrev VO0_5 : View sig .tc .vmem S1x1024x3 .f32 := (Memref.whole cc0_stg5_0 : Memref sig .tc .vmem S1x1024x3 .f32).view
abbrev ms0_0 (t : Fin cfg0.N) : Memref sig .tc .vmem S1x1024x65 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x65 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x5 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x5 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x4 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024x3 .f32 := win0_5.stage (cfg0.slots t 5)
abbrev hs0_5 (t : Fin cfg0.N) : (ms0_5 t).IsWhole := hstage0_5 ((cfg0.slots t 5).cast nbuf0_5)
/-- The accumulator: a whole scoped buffer of the kernel's own. -/
abbrev scM0_0 : Memref sig .tc .vmem S1024x4 .f32 := Memref.whole cc0_scratch0
abbrev VS0_0 : View sig .tc .vmem S1024x4 .f32 := scM0_0.view

/-- The region invariant of the class with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.FrameK.RunA.lean ====
/-
  The body at a FIRST tile, on any whole staging memrefs: the inputs at their contents and the output block's buffer
  (untouched here) handed back as they were; the accumulator, found at anything, left with two stores written over
  it: the zero fill, then this tile's update.
-/
import proofs.«429331_j45681272160506_3_alg».proof.Proof.FrameK.Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave (last first) at a first tile, with the body's triple there. -/
noncomputable def kernelRun0_A (c : Dev nD) (i : grid0.Coords) (arg3 : Memref sig .tc .vmem S1x1024x65 .f32) (harg3 : arg3.IsWhole) (arg4 : Memref sig .tc .vmem S1x1024x65 .f32) (harg4 : arg4.IsWhole) (arg5 : Memref sig .tc .vmem S1x1024x5 .f32) (harg5 : arg5.IsWhole) (arg6 : Memref sig .tc .vmem S1x1024x5 .f32) (harg6 : arg6.IsWhole) (arg7 : Memref sig .tc .vmem S1x1024x4 .f32) (harg7 : arg7.IsWhole) (arg8 : Memref sig .tc .vmem S1x1024x3 .f32) (harg8 : arg8.IsWhole) (arg9 : Memref sig .tc .vmem S1024x4 .f32) (harg9 : arg9.IsWhole) (hc0 : cond0_0 i) (hc1 : ¬cond0_1 i)
    (x0 x1 : Vec F S1x1024x65 .f32) (x2 x3 : Vec F S1x1024x5 .f32) (x4 : Vec F S1x1024x4 .f32) :
    Σ' (L5 : List (View.Piece (Elt F) S1x1024x3 .f32)), { LS0 : List (View.Piece (Elt F) S1024x4 .f32) //
      ∀ (xi5 : Vec F S1x1024x3 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc0__mink_kernel i arg3 harg3 arg4 harg4 arg5 harg5 arg6 harg6 arg7 harg7 arg8 harg8 arg9 harg9) K } := by
  refine ⟨[], ?_, fun xi5 E K => ?run⟩
  case run =>
    simp only [cc0__mink_kernel_eq_skeleton]; unfold cc0__mink_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Fr

end
-- ==== Proof.FrameK.RunB.lean ====
/-
  The body at a MIDDLE tile: as at a first tile, the accumulator found at what the tile before left and left with
  one store written: this tile's update of it.
-/
import proofs.«429331_j45681272160506_3_alg».proof.Proof.FrameK.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave (last first) at a middle tile, with the body's triple there. -/
noncomputable def kernelRun0_B (c : Dev nD) (i : grid0.Coords) (arg3 : Memref sig .tc .vmem S1x1024x65 .f32) (harg3 : arg3.IsWhole) (arg4 : Memref sig .tc .vmem S1x1024x65 .f32) (harg4 : arg4.IsWhole) (arg5 : Memref sig .tc .vmem S1x1024x5 .f32) (harg5 : arg5.IsWhole) (arg6 : Memref sig .tc .vmem S1x1024x5 .f32) (harg6 : arg6.IsWhole) (arg7 : Memref sig .tc .vmem S1x1024x4 .f32) (harg7 : arg7.IsWhole) (arg8 : Memref sig .tc .vmem S1x1024x3 .f32) (harg8 : arg8.IsWhole) (arg9 : Memref sig .tc .vmem S1024x4 .f32) (harg9 : arg9.IsWhole) (hc0 : ¬cond0_0 i) (hc1 : ¬cond0_1 i)
    (x0 x1 : Vec F S1x1024x65 .f32) (x2 x3 : Vec F S1x1024x5 .f32) (x4 : Vec F S1x1024x4 .f32) (xs0 : Vec F S1024x4 .f32) :
    Σ' (L5 : List (View.Piece (Elt F) S1x1024x3 .f32)), { LS0 : List (View.Piece (Elt F) S1024x4 .f32) //
      ∀ (xi5 : Vec F S1x1024x3 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc0__mink_kernel i arg3 harg3 arg4 harg4 arg5 harg5 arg6 harg6 arg7 harg7 arg8 harg8 arg9 harg9) K } := by
  refine ⟨[], ?_, fun xi5 E K => ?run⟩
  case run =>
    simp only [cc0__mink_kernel_eq_skeleton]; unfold cc0__mink_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Fr

end
-- ==== Proof.FrameK.RunC.lean ====
/-
  The body at a LAST tile: the accumulator updated as at a middle tile, and the output block stored from it.
-/
import proofs.«429331_j45681272160506_3_alg».proof.Proof.FrameK.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave (last first) at a last tile, with the body's triple there. -/
noncomputable def kernelRun0_C (c : Dev nD) (i : grid0.Coords) (arg3 : Memref sig .tc .vmem S1x1024x65 .f32) (harg3 : arg3.IsWhole) (arg4 : Memref sig .tc .vmem S1x1024x65 .f32) (harg4 : arg4.IsWhole) (arg5 : Memref sig .tc .vmem S1x1024x5 .f32) (harg5 : arg5.IsWhole) (arg6 : Memref sig .tc .vmem S1x1024x5 .f32) (harg6 : arg6.IsWhole) (arg7 : Memref sig .tc .vmem S1x1024x4 .f32) (harg7 : arg7.IsWhole) (arg8 : Memref sig .tc .vmem S1x1024x3 .f32) (harg8 : arg8.IsWhole) (arg9 : Memref sig .tc .vmem S1024x4 .f32) (harg9 : arg9.IsWhole) (hc0 : ¬cond0_0 i) (hc1 : cond0_1 i)
    (x0 x1 : Vec F S1x1024x65 .f32) (x2 x3 : Vec F S1x1024x5 .f32) (x4 : Vec F S1x1024x4 .f32) (xs0 : Vec F S1024x4 .f32) :
    Σ' (L5 : List (View.Piece (Elt F) S1x1024x3 .f32)), { LS0 : List (View.Piece (Elt F) S1024x4 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc0__mink_kernel i arg3 harg3 arg4 harg4 arg5 harg5 arg6 harg6 arg7 harg7 arg8 harg8 arg9 harg9) K } := by
  refine ⟨?_, ?_, fun E K => ?run⟩
  case run =>
    simp only [cc0__mink_kernel_eq_skeleton]; unfold cc0__mink_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.Kernel.Fr

end
-- ==== Proof.FrameK.Frame.lean ====
/-
  The frame of the program `Kernel`: what the output block's buffer and the accumulator hold after each grid point, the
  proof data of the one pipeline, the body obligation at a generic point, the run and the frame claim's post.

  The accumulator is carried between grid points: a first tile overwrites it whole (zero fill, then the update), every
  later tile updates what the tile before left. The invariant of the region therefore names its contents after each
  point; before the first point and after the last it is "some contents".
-/
import proofs.«429331_j45681272160506_3_alg».proof.Proof.FrameK.RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- A first tile stores nothing into the output block's buffer: a placeholder that nothing consults. -/
def out0_A_5 (c : Dev nD) (i : grid0.Coords) (arg3 : Memref sig .tc .vmem S1x1024x65 .f32) (harg3 : arg3.IsWhole) (arg4 : Memref sig .tc .vmem S1x1024x65 .f32) (harg4 : arg4.IsWhole) (arg5 : Memref sig .tc .vmem S1x1024x5 .f32) (harg5 : arg5.IsWhole) (arg6 : Memref sig .tc .vmem S1x1024x5 .f32) (harg6 : arg6.IsWhole) (arg7 : Memref sig .tc .vmem S1x1024x4 .f32) (harg7 : arg7.IsWhole) (arg8 : Memref sig .tc .vmem S1x1024x3 .f32) (harg8 : arg8.IsWhole) (arg9 : Memref sig .tc .vmem S1024x4 .f32) (harg9 : arg9.IsWhole) (hc0 : cond0_0 i) (hc1 : ¬cond0_1 i) (x0 x1 : Vec F S1x1024x65 .f32) (x2 x3 : Vec F S1x1024x5 .f32) (x4 : Vec F S1x1024x4 .f32) : Vec F S1x1024x3 .f32 :=
  VO0_5.read (Elt F) (VO0_5.writes (Elt F) VO0_5.junk (kernelRun0_A c i arg3 harg3 arg4 harg4 arg5 harg5 arg6 harg6 arg7 harg7 arg8 harg8 arg9 harg9 hc0 hc1 x0 x1 x2 x3 x4).1)

/-- A first tile's stores cover the accumulator. -/
theorem scover0_A_0 (c : Dev nD) (i : grid0.Coords) (arg3 : Memref sig .tc .vmem S1x1024x65 .f32) (harg3 : arg3.IsWhole) (arg4 : Memref sig .tc .vmem S1x1024x65 .f32) (harg4 : arg4.IsWhole) (arg5 : Memref sig .tc .vmem S1x1024x5 .f32) (harg5 : arg5.IsWhole) (arg6 : Memref sig .tc .vmem S1x1024x5 .f32) (harg6 : arg6.IsWhole) (arg7 : Memref sig .tc .vmem S1x1024x4 .f32) (harg7 : arg7.IsWhole) (arg8 : Memref sig .tc .vmem S1x1024x3 .f32) (harg8 : arg8.IsWhole) (arg9 : Memref sig .tc .vmem S1024x4 .f32) (harg9 : arg9.IsWhole) (hc0 : cond0_0 i) (hc1 : ¬cond0_1 i) (x0 x1 : Vec F S1x1024x65 .f32) (x2 x3 : Vec F S1x1024x5 .f32) (x4 : Vec F S1x1024x4 .f32) (y : S1024x4.Idx) :
    ∃ pc ∈ (kernelRun0_A c i arg3 harg3 arg4 harg4 arg5 harg5 arg6 harg6 arg7 harg7 arg8 harg8 arg9 harg9 hc0 hc1 x0 x1 x2 x3 x4).2.1, y ∈ pc.1.set :=
  View.cover_of_tiledL (kernelRun0_A c i arg3 harg3 arg4 harg4 arg5 harg5 arg6 harg6 arg7 harg7 arg8 harg8 arg9 harg9 hc0 hc1 x0 x1 x2 x3 x4).2.1 S1024x4.size (by sl_kernel_rfl) y

/-- What a first tile leaves in the accumulator. -/
def sout0_A_0 (c : Dev nD) (i : grid0.Coords) (arg3 : Memref sig .tc .vmem S1x1024x65 .f32) (harg3 : arg3.IsWhole) (arg4 : Memref sig .tc .vmem S1x1024x65 .f32) (harg4 : arg4.IsWhole) (arg5 : Memref sig .tc .vmem S1x1024x5 .f32) (harg5 : arg5.IsWhole) (arg6 : Memref sig .tc .vmem S1x1024x5 .f32) (harg6 : arg6.IsWhole) (arg7 : Memref sig .tc .vmem S1x1024x4 .f32) (harg7 : arg7.IsWhole) (arg8 : Memref sig .tc .vmem S1x1024x3 .f32) (harg8 : arg8.IsWhole) (arg9 : Memref sig .tc .vmem S1024x4 .f32) (harg9 : arg9.IsWhole) (hc0 : cond0_0 i) (hc1 : ¬cond0_1 i) (x0 x1 : Vec F S1x1024x65 .f32) (x2 x3 : Vec F S1x1024x5 .f32) (x4 : Vec F S1x1024x4 .f32) : Vec F S1024x4 .f32 :=
  VS0_0.read (Elt F) (VS0_0.writes (Elt F) VS0_0.junk (kernelRun0_A c i arg3 harg3 arg4 harg4 arg5 harg5 arg6 harg6 arg7 harg7 arg8 harg8 arg9 harg9 hc0 hc1 x0 x1 x2 x3 x4).2.1)

/-- A middle tile stores nothing into the output block's buffer either. -/
def out0_B_5 (c : Dev nD) (i : grid0.Coords) (arg3 : Memref sig .tc .vmem S1x1024x65 .f32) (harg3 : arg3.IsWhole) (arg4 : Memref sig .tc .vmem S1x1024x65 .f32) (harg4 : arg4.IsWhole) (arg5 : Memref sig .tc .vmem S1x1024x5 .f32) (harg5 : arg5.IsWhole) (arg6 : Memref sig .tc .vmem S1x1024x5 .f32) (harg6 : arg6.IsWhole) (arg7 : Memref sig .tc .vmem S1x1024x4 .f32) (harg7 : arg7.IsWhole) (arg8 : Memref sig .tc .vmem S1x1024x3 .f32) (harg8 : arg8.IsWhole) (arg9 : Memref sig .tc .vmem S1024x4 .f32) (harg9 : arg9.IsWhole) (hc0 : ¬cond0_0 i) (hc1 : ¬cond0_1 i) (x0 x1 : Vec F S1x1024x65 .f32) (x2 x3 : Vec F S1x1024x5 .f32) (x4 : Vec F S1x1024x4 .f32) (xs0 : Vec F S1024x4 .f32) : Vec F S1x1024x3 .f32 :=
  VO0_5.read (Elt F) (VO0_5.writes (Elt F) VO0_5.junk (kernelRun0_B c i arg3 harg3 arg4 harg4 arg5 harg5 arg6 harg6 arg7 harg7 arg8 harg8 arg9 harg9 hc0 hc1 x0 x1 x2 x3 x4 xs0).1)

theorem scover0_B_0 (c : Dev nD) (i : grid0.Coords) (arg3 : Memref sig .tc .vmem S1x1024x65 .f32) (harg3 : arg3.IsWhole) (arg4 : Memref sig .tc .vmem S1x1024x65 .f32) (harg4 : arg4.IsWhole) (arg5 : Memref sig .tc .vmem S1x1024x5 .f32) (harg5 : arg5.IsWhole) (arg6 : Memref sig .tc .vmem S1x1024x5 .f32) (harg6 : arg6.IsWhole) (arg7 : Memref sig .tc .vmem S1x1024x4 .f32) (harg7 : arg7.IsWhole) (arg8 : Memref sig .tc .vmem S1x1024x3 .f32) (harg8 : arg8.IsWhole) (arg9 : Memref sig .tc .vmem S1024x4 .f32) (harg9 : arg9.IsWhole) (hc0 : ¬cond0_0 i) (hc1 : ¬cond0_1 i) (x0 x1 : Vec F S1x1024x65 .f32) (x2 x3 : Vec F S1x1024x5 .f32) (x4 : Vec F S1x1024x4 .f32) (xs0 : Vec F S1024x4 .f32) (y : S1024x4.Idx) :
    ∃ pc ∈ (kernelRun0_B c i arg3 harg3 arg4 harg4 arg5 harg5 arg6 harg6 arg7 harg7 arg8 harg8 arg9 harg9 hc0 hc1 x0 x1 x2 x3 x4 xs0).2.1, y ∈ pc.1.set :=
  View.cover_of_tiledL (kernelRun0_B c i arg3 harg3 arg4 harg4 arg5 harg5 arg6 harg6 arg7 harg7 arg8 harg8 arg9 harg9 hc0 hc1 x0 x1 x2 x3 x4 xs0).2.1 S1024x4.size (by sl_kernel_rfl) y

/-- What a middle tile leaves in the accumulator, over what the tile before left. -/
def sout0_B_0 (c : Dev nD) (i : grid0.Coords) (arg3 : Memref sig .tc .vmem S1x1024x65 .f32) (harg3 : arg3.IsWhole) (arg4 : Memref sig .tc .vmem S1x1024x65 .f32) (harg4 : arg4.IsWhole) (arg5 : Memref sig .tc .vmem S1x1024x5 .f32) (harg5 : arg5.IsWhole) (arg6 : Memref sig .tc .vmem S1x1024x5 .f32) (harg6 : arg6.IsWhole) (arg7 : Memref sig .tc .vmem S1x1024x4 .f32) (harg7 : arg7.IsWhole) (arg8 : Memref sig .tc .vmem S1x1024x3 .f32) (harg8 : arg8.IsWhole) (arg9 : Memref sig .tc .vmem S1024x4 .f32) (harg9 : arg9.IsWhole) (hc0 : ¬cond0_0 i) (hc1 : ¬cond0_1 i) (x0 x1 : Vec F S1x1024x65 .f32) (x2 x3 : Vec F S1x1024x5 .f32) (x4 : Vec F S1x1024x4 .f32) (xs0 : Vec F S1024x4 .f32) : Vec F S1024x4 .f32 :=
  VS0_0.read (Elt F) (VS0_0.writes (Elt F) VS0_0.junk (kernelRun0_B c i arg3 harg3 arg4 harg4 arg5 harg5 arg6 harg6 arg7 harg7 arg8 harg8 arg9 harg9 hc0 hc1 x0 x1 x2 x3 x4 xs0).2.1)

/-- A last tile's one store covers the output block. -/
theorem cover0_C_5 (c : Dev nD) (i : grid0.Coords) (arg3 : Memref sig .tc .vmem S1x1024x65 .f32) (harg3 : arg3.IsWhole) (arg4 : Memref sig .tc .vmem S1x1024x65 .f32) (harg4 : arg4.IsWhole) (arg5 : Memref sig .tc .vmem S1x1024x5 .f32) (harg5 : arg5.IsWhole) (arg6 : Memref sig .tc .vmem S1x1024x5 .f32) (harg6 : arg6.IsWhole) (arg7 : Memref sig .tc .vmem S1x1024x4 .f32) (harg7 : arg7.IsWhole) (arg8 : Memref sig .tc .vmem S1x1024x3 .f32) (harg8 : arg8.IsWhole) (arg9 : Memref sig .tc .vmem S1024x4 .f32) (harg9 : arg9.IsWhole) (hc0 : ¬cond0_0 i) (hc1 : cond0_1 i) (x0 x1 : Vec F S1x1024x65 .f32) (x2 x3 : Vec F S1x1024x5 .f32) (x4 : Vec F S1x1024x4 .f32) (xs0 : Vec F S1024x4 .f32) (y : S1x1024x3.Idx) :
    ∃ pc ∈ (kernelRun0_C c i arg3 harg3 arg4 harg4 arg5 harg5 arg6 harg6 arg7 harg7 arg8 harg8 arg9 harg9 hc0 hc1 x0 x1 x2 x3 x4 xs0).1, y ∈ pc.1.set :=
  View.cover_of_tiledL (kernelRun0_C c i arg3 harg3 arg4 harg4 arg5 harg5 arg6 harg6 arg7 harg7 arg8 harg8 arg9 harg9 hc0 hc1 x0 x1 x2 x3 x4 xs0).1 S1x1024x3.size (by sl_kernel_rfl) y

/-- What a last tile leaves in the output block's buffer. -/
def out0_C_5 (c : Dev nD) (i : grid0.Coords) (arg3 : Memref sig .tc .vmem S1x1024x65 .f32) (harg3 : arg3.IsWhole) (arg4 : Memref sig .tc .vmem S1x1024x65 .f32) (harg4 : arg4.IsWhole) (arg5 : Memref sig .tc .vmem S1x1024x5 .f32) (harg5 : arg5.IsWhole) (arg6 : Memref sig .tc .vmem S1x1024x5 .f32) (harg6 : arg6.IsWhole) (arg7 : Memref sig .tc .vmem S1x1024x4 .f32) (harg7 : arg7.IsWhole) (arg8 : Memref sig .tc .vmem S1x1024x3 .f32) (harg8 : arg8.IsWhole) (arg9 : Memref sig .tc .vmem S1024x4 .f32) (harg9 : arg9.IsWhole) (hc0 : ¬cond0_0 i) (hc1 : cond0_1 i) (x0 x1 : Vec F S1x1024x65 .f32) (x2 x3 : Vec F S1x1024x5 .f32) (x4 : Vec F S1x1024x4 .f32) (xs0 : Vec F S1024x4 .f32) : Vec F S1x1024x3 .f32 :=
  VO0_5.read (Elt F) (VO0_5.writes (Elt F) VO0_5.junk (kernelRun0_C c i arg3 harg3 arg4 harg4 arg5 harg5 arg6 harg6 arg7 harg7 arg8 harg8 arg9 harg9 hc0 hc1 x0 x1 x2 x3 x4 xs0).1)

theorem scover0_C_0 (c : Dev nD) (i : grid0.Coords) (arg3 : Memref sig .tc .vmem S1x1024x65 .f32) (harg3 : arg3.IsWhole) (arg4 : Memref sig .tc .vmem S1x1024x65 .f32) (harg4 : arg4.IsWhole) (arg5 : Memref sig .tc .vmem S1x1024x5 .f32) (harg5 : arg5.IsWhole) (arg6 : Memref sig .tc .vmem S1x1024x5 .f32) (harg6 : arg6.IsWhole) (arg7 : Memref sig .tc .vmem S1x1024x4 .f32) (harg7 : arg7.IsWhole) (arg8 : Memref sig .tc .vmem S1x1024x3 .f32) (harg8 : arg8.IsWhole) (arg9 : Memref sig .tc .vmem S1024x4 .f32) (harg9 : arg9.IsWhole) (hc0 : ¬cond0_0 i) (hc1 : cond0_1 i) (x0 x1 : Vec F S1x1024x65 .f32) (x2 x3 : Vec F S1x1024x5 .f32) (x4 : Vec F S1x1024x4 .f32) (xs0 : Vec F S1024x4 .f32) (y : S1024x4.Idx) :
    ∃ pc ∈ (kernelRun0_C c i arg3 harg3 arg4 harg4 arg5 harg5 arg6 harg6 arg7 harg7 arg8 harg8 arg9 harg9 hc0 hc1 x0 x1 x2 x3 x4 xs0).2.1, y ∈ pc.1.set :=
  View.cover_of_tiledL (kernelRun0_C c i arg3 harg3 arg4 harg4 arg5 harg5 arg6 harg6 arg7 harg7 arg8 harg8 arg9 harg9 hc0 hc1 x0 x1 x2 x3 x4 xs0).2.1 S1024x4.size (by sl_kernel_rfl) y

/-- What a last tile leaves in the accumulator. -/
def sout0_C_0 (c : Dev nD) (i : grid0.Coords) (arg3 : Memref sig .tc .vmem S1x1024x65 .f32) (harg3 : arg3.IsWhole) (arg4 : Memref sig .tc .vmem S1x1024x65 .f32) (harg4 : arg4.IsWhole) (arg5 : Memref sig .tc .vmem S1x1024x5 .f32) (harg5 : arg5.IsWhole) (arg6 : Memref sig .tc .vmem S1x1024x5 .f32) (harg6 : arg6.IsWhole) (arg7 : Memref sig .tc .vmem S1x1024x4 .f32) (harg7 : arg7.IsWhole) (arg8 : Memref sig .tc .vmem S1x1024x3 .f32) (harg8 : arg8.IsWhole) (arg9 : Memref sig .tc .vmem S1024x4 .f32) (harg9 : arg9.IsWhole) (hc0 : ¬cond0_0 i) (hc1 : cond0_1 i) (x0 x1 : Vec F S1x1024x65 .f32) (x2 x3 : Vec F S1x1024x5 .f32) (x4 : Vec F S1x1024x4 .f32) (xs0 : Vec F S1024x4 .f32) : Vec F S1024x4 .f32 :=
  VS0_0.read (Elt F) (VS0_0.writes (Elt F) VS0_0.junk (kernelRun0_C c i arg3 harg3 arg4 harg4 arg5 harg5 arg6 harg6 arg7 harg7 arg8 harg8 arg9 harg9 hc0 hc1 x0 x1 x2 x3 x4 xs0).2.1)

/-! ## What the output block's buffer and the accumulator hold after each point -/

/-- After the body at position `n`: the case `n % 4` selects, run at the point's memrefs and input blocks, the accumulator of
    a later tile read at what position `n - 1` left. (First component: the output block's buffer; second: the accumulator.) -/
def outsAt0 (c : Dev nD) : (n : ℕ) → n < cfg0.N → Vec F S1x1024x3 .f32 × Vec F S1024x4 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 4 = 0 then
      if h1 : (n + 1) % 4 = 3 then
        False.elim (by omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 4 = 3 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2)

/-- At a first tile. -/
theorem outsAt0_A (c : Dev nD) (t : Fin cfg0.N) (h0 : t.val % 4 = 0) (h1 : ¬t.val % 4 = 3) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

/-- At a middle tile, over what the point before left. -/
theorem outsAt0_B (c : Dev nD) (t : Fin cfg0.N) (h0 : ¬t.val % 4 = 0) (h1 : ¬t.val % 4 = 3) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last tile, over what the point before left. -/
theorem outsAt0_C (c : Dev nD) (t : Fin cfg0.N) (h0 : ¬t.val % 4 = 0) (h1 : t.val % 4 = 3) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the accumulator at anything; afterwards at what the
    point before left; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body each input's buffer at its block and the output's at
    `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 8000000 in
/-- The body at any point: the inputs' memrefs hold their blocks; `t % 4` says which case the point is in; that case's run
    applies; the invariant hands the body the accumulator at what the point before left (at anything at the very first
    point) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 4 = 0
  · by_cases h1 : t.val % 4 = 3
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5_C t (fun h => h0 ((hcond0_0 t).mp h)) ((hcond0_1 t).mpr h1)], after0_5]
      rw [outsAt0_C m c t h0 h1]
      unfold out0_C_5 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_C_5 c _ _ _ _ _ _ _ _ _ _ _ _ _ _ _ _ _ _ _ _ _ _ _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [Dat.leavesExact_idle (dats m 0 c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- Every weakly fair execution of @main terminates, with every array of the pipeline at what the library computes from
    the proof data and every other unscoped buffer at its region-entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- The program runs, faults nowhere, and leaves its five arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (run_main m ρ)

end Cert.Kernel.Fr

end
-- ==== Proof.FrameKI.Runs.lean ====
/-
  What the three runs of the kernel body share, for the program `KernelIdeal`.

  The program is four stretches of host operations (the two row normalizations, then the augmented operands) and
  ONE region over the grid 2 × 4 × 4, whose last axis walks the tiles of target points. `V` is what the region finds
  in each buffer: the launch contents after the host stretches; no stretch writes an argument. The body branches
  twice on the tile number: at the first tile it clears its accumulator, at the last it stores the output block; so
  a grid point is in one of three cases — first tile, middle tile, last tile — decided by `t % 4`. The output window
  is idle (and not written back) except at the last tile; the five input windows are never idle.
-/
import proofs.«429331_j45681272160506_3_alg».proof.Proof.Gen.KernelIdeal.Launch
import proofs.«429331_j45681272160506_3_alg».proof.Proof.Gen.KernelIdeal.Skeleton
import proofs.«429331_j45681272160506_3_alg».proof.Proof.Gen.KernelIdeal.Points
import Idealize.ShloMosaic.Lib.Pipeline.FrameBody
import Idealize.ShloMosaic.Lib.Pipeline.Frame
import Idealize.ShloMosaic.Lib.StableHlo.Run
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the four host stretches. -/
abbrev V (c : Dev nD) (b : Ref sig .tc) : Buf (Elt F) ((c : Thread nD τ).loc b) :=
  StableHlo.after (List.flatten [hostOps0, hostOps0_1, hostOps0_2, hostOps0_3]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor

/-- @main reduces to the region entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3]
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- No host operation writes argument 0: each writes only its own result buffer. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 1: each writes only its own result buffer. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 2: each writes only its own result buffer. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 3: each writes only its own result buffer. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 4: each writes only its own result buffer. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof data
    whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof data
    whose array is the region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The five arguments are arrays of no window, so the frame run leaves each at its region-entry contents, which are the
    launch contents. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's two conditions, decided over the grid -/

/-- "This is the first tile": the body's first branch, from the grid coordinates. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last tile": the body's second branch. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- At a first tile the body stores nothing into the output window, and the pipeline does not write it back. -/
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
/-- The same at a middle tile. -/
theorem idleAt0_5_B : ∀ t : Fin cfg0.N, ¬cond0_0 (grid0.coords t) → ¬cond0_1 (grid0.coords t) → cfg0.idle 5 (grid0.coords t) = true := by decide +kernel
theorem noFlush0_5_B : ∀ t : Fin cfg0.N, ¬cond0_0 (grid0.coords t) → ¬cond0_1 (grid0.coords t) → (cfg0.win 5).flush t = false := by decide +kernel
/-- At a last tile the body stores the output block. -/
theorem liveAt0_5_C : ∀ t : Fin cfg0.N, ¬cond0_0 (grid0.coords t) → cond0_1 (grid0.coords t) → cfg0.idle 5 (grid0.coords t) = false := by decide +kernel

/-! ## The staging memrefs the body is called with -/

/-- One staging buffer of the output window, through which its contents are stated. -/
abbrev VO0_5 : View sig .tc .vmem S1x1024x3 .f32 := (Memref.whole cc0_stg5_0 : Memref sig .tc .vmem S1x1024x3 .f32).view
abbrev ms0_0 (t : Fin cfg0.N) : Memref sig .tc .vmem S1x1024x65 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x65 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x5 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x5 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x4 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024x3 .f32 := win0_5.stage (cfg0.slots t 5)
abbrev hs0_5 (t : Fin cfg0.N) : (ms0_5 t).IsWhole := hstage0_5 ((cfg0.slots t 5).cast nbuf0_5)
/-- The accumulator: a whole scoped buffer of the kernel's own. -/
abbrev scM0_0 : Memref sig .tc .vmem S1024x4 .f32 := Memref.whole cc0_scratch0
abbrev VS0_0 : View sig .tc .vmem S1024x4 .f32 := scM0_0.view

/-- The region invariant of the class with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.FrameKI.RunA.lean ====
/-
  The body at a FIRST tile, on any whole staging memrefs: the inputs at their contents and the output block's buffer
  (untouched here) handed back as they were; the accumulator, found at anything, left with two stores written over
  it: the zero fill, then this tile's update.
-/
import proofs.«429331_j45681272160506_3_alg».proof.Proof.FrameKI.Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave (last first) at a first tile, with the body's triple there. -/
noncomputable def kernelRun0_A (c : Dev nD) (i : grid0.Coords) (arg3 : Memref sig .tc .vmem S1x1024x65 .f32) (harg3 : arg3.IsWhole) (arg4 : Memref sig .tc .vmem S1x1024x65 .f32) (harg4 : arg4.IsWhole) (arg5 : Memref sig .tc .vmem S1x1024x5 .f32) (harg5 : arg5.IsWhole) (arg6 : Memref sig .tc .vmem S1x1024x5 .f32) (harg6 : arg6.IsWhole) (arg7 : Memref sig .tc .vmem S1x1024x4 .f32) (harg7 : arg7.IsWhole) (arg8 : Memref sig .tc .vmem S1x1024x3 .f32) (harg8 : arg8.IsWhole) (arg9 : Memref sig .tc .vmem S1024x4 .f32) (harg9 : arg9.IsWhole) (hc0 : cond0_0 i) (hc1 : ¬cond0_1 i)
    (x0 x1 : Vec F S1x1024x65 .f32) (x2 x3 : Vec F S1x1024x5 .f32) (x4 : Vec F S1x1024x4 .f32) :
    Σ' (L5 : List (View.Piece (Elt F) S1x1024x3 .f32)), { LS0 : List (View.Piece (Elt F) S1024x4 .f32) //
      ∀ (xi5 : Vec F S1x1024x3 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc0__mink_kernel i arg3 harg3 arg4 harg4 arg5 harg5 arg6 harg6 arg7 harg7 arg8 harg8 arg9 harg9) K } := by
  refine ⟨[], ?_, fun xi5 E K => ?run⟩
  case run =>
    simp only [cc0__mink_kernel_eq_skeleton]; unfold cc0__mink_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Fr

end
-- ==== Proof.FrameKI.RunB.lean ====
/-
  The body at a MIDDLE tile: as at a first tile, the accumulator found at what the tile before left and left with
  one store written: this tile's update of it.
-/
import proofs.«429331_j45681272160506_3_alg».proof.Proof.FrameKI.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave (last first) at a middle tile, with the body's triple there. -/
noncomputable def kernelRun0_B (c : Dev nD) (i : grid0.Coords) (arg3 : Memref sig .tc .vmem S1x1024x65 .f32) (harg3 : arg3.IsWhole) (arg4 : Memref sig .tc .vmem S1x1024x65 .f32) (harg4 : arg4.IsWhole) (arg5 : Memref sig .tc .vmem S1x1024x5 .f32) (harg5 : arg5.IsWhole) (arg6 : Memref sig .tc .vmem S1x1024x5 .f32) (harg6 : arg6.IsWhole) (arg7 : Memref sig .tc .vmem S1x1024x4 .f32) (harg7 : arg7.IsWhole) (arg8 : Memref sig .tc .vmem S1x1024x3 .f32) (harg8 : arg8.IsWhole) (arg9 : Memref sig .tc .vmem S1024x4 .f32) (harg9 : arg9.IsWhole) (hc0 : ¬cond0_0 i) (hc1 : ¬cond0_1 i)
    (x0 x1 : Vec F S1x1024x65 .f32) (x2 x3 : Vec F S1x1024x5 .f32) (x4 : Vec F S1x1024x4 .f32) (xs0 : Vec F S1024x4 .f32) :
    Σ' (L5 : List (View.Piece (Elt F) S1x1024x3 .f32)), { LS0 : List (View.Piece (Elt F) S1024x4 .f32) //
      ∀ (xi5 : Vec F S1x1024x3 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc0__mink_kernel i arg3 harg3 arg4 harg4 arg5 harg5 arg6 harg6 arg7 harg7 arg8 harg8 arg9 harg9) K } := by
  refine ⟨[], ?_, fun xi5 E K => ?run⟩
  case run =>
    simp only [cc0__mink_kernel_eq_skeleton]; unfold cc0__mink_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Fr

end
-- ==== Proof.FrameKI.RunC.lean ====
/-
  The body at a LAST tile: the accumulator updated as at a middle tile, and the output block stored from it.
-/
import proofs.«429331_j45681272160506_3_alg».proof.Proof.FrameKI.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave (last first) at a last tile, with the body's triple there. -/
noncomputable def kernelRun0_C (c : Dev nD) (i : grid0.Coords) (arg3 : Memref sig .tc .vmem S1x1024x65 .f32) (harg3 : arg3.IsWhole) (arg4 : Memref sig .tc .vmem S1x1024x65 .f32) (harg4 : arg4.IsWhole) (arg5 : Memref sig .tc .vmem S1x1024x5 .f32) (harg5 : arg5.IsWhole) (arg6 : Memref sig .tc .vmem S1x1024x5 .f32) (harg6 : arg6.IsWhole) (arg7 : Memref sig .tc .vmem S1x1024x4 .f32) (harg7 : arg7.IsWhole) (arg8 : Memref sig .tc .vmem S1x1024x3 .f32) (harg8 : arg8.IsWhole) (arg9 : Memref sig .tc .vmem S1024x4 .f32) (harg9 : arg9.IsWhole) (hc0 : ¬cond0_0 i) (hc1 : cond0_1 i)
    (x0 x1 : Vec F S1x1024x65 .f32) (x2 x3 : Vec F S1x1024x5 .f32) (x4 : Vec F S1x1024x4 .f32) (xs0 : Vec F S1024x4 .f32) :
    Σ' (L5 : List (View.Piece (Elt F) S1x1024x3 .f32)), { LS0 : List (View.Piece (Elt F) S1024x4 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc0__mink_kernel i arg3 harg3 arg4 harg4 arg5 harg5 arg6 harg6 arg7 harg7 arg8 harg8 arg9 harg9) K } := by
  refine ⟨?_, ?_, fun E K => ?run⟩
  case run =>
    simp only [cc0__mink_kernel_eq_skeleton]; unfold cc0__mink_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.KernelIdeal.Fr

end
-- ==== Proof.FrameKI.Frame.lean ====
/-
  The frame of the program `KernelIdeal`: what the output block's buffer and the accumulator hold after each grid point, the
  proof data of the one pipeline, the body obligation at a generic point, the run and the frame claim's post.

  The accumulator is carried between grid points: a first tile overwrites it whole (zero fill, then the update), every
  later tile updates what the tile before left. The invariant of the region therefore names its contents after each
  point; before the first point and after the last it is "some contents".
-/
import proofs.«429331_j45681272160506_3_alg».proof.Proof.FrameKI.RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- A first tile stores nothing into the output block's buffer: a placeholder that nothing consults. -/
def out0_A_5 (c : Dev nD) (i : grid0.Coords) (arg3 : Memref sig .tc .vmem S1x1024x65 .f32) (harg3 : arg3.IsWhole) (arg4 : Memref sig .tc .vmem S1x1024x65 .f32) (harg4 : arg4.IsWhole) (arg5 : Memref sig .tc .vmem S1x1024x5 .f32) (harg5 : arg5.IsWhole) (arg6 : Memref sig .tc .vmem S1x1024x5 .f32) (harg6 : arg6.IsWhole) (arg7 : Memref sig .tc .vmem S1x1024x4 .f32) (harg7 : arg7.IsWhole) (arg8 : Memref sig .tc .vmem S1x1024x3 .f32) (harg8 : arg8.IsWhole) (arg9 : Memref sig .tc .vmem S1024x4 .f32) (harg9 : arg9.IsWhole) (hc0 : cond0_0 i) (hc1 : ¬cond0_1 i) (x0 x1 : Vec F S1x1024x65 .f32) (x2 x3 : Vec F S1x1024x5 .f32) (x4 : Vec F S1x1024x4 .f32) : Vec F S1x1024x3 .f32 :=
  VO0_5.read (Elt F) (VO0_5.writes (Elt F) VO0_5.junk (kernelRun0_A c i arg3 harg3 arg4 harg4 arg5 harg5 arg6 harg6 arg7 harg7 arg8 harg8 arg9 harg9 hc0 hc1 x0 x1 x2 x3 x4).1)

/-- A first tile's stores cover the accumulator. -/
theorem scover0_A_0 (c : Dev nD) (i : grid0.Coords) (arg3 : Memref sig .tc .vmem S1x1024x65 .f32) (harg3 : arg3.IsWhole) (arg4 : Memref sig .tc .vmem S1x1024x65 .f32) (harg4 : arg4.IsWhole) (arg5 : Memref sig .tc .vmem S1x1024x5 .f32) (harg5 : arg5.IsWhole) (arg6 : Memref sig .tc .vmem S1x1024x5 .f32) (harg6 : arg6.IsWhole) (arg7 : Memref sig .tc .vmem S1x1024x4 .f32) (harg7 : arg7.IsWhole) (arg8 : Memref sig .tc .vmem S1x1024x3 .f32) (harg8 : arg8.IsWhole) (arg9 : Memref sig .tc .vmem S1024x4 .f32) (harg9 : arg9.IsWhole) (hc0 : cond0_0 i) (hc1 : ¬cond0_1 i) (x0 x1 : Vec F S1x1024x65 .f32) (x2 x3 : Vec F S1x1024x5 .f32) (x4 : Vec F S1x1024x4 .f32) (y : S1024x4.Idx) :
    ∃ pc ∈ (kernelRun0_A c i arg3 harg3 arg4 harg4 arg5 harg5 arg6 harg6 arg7 harg7 arg8 harg8 arg9 harg9 hc0 hc1 x0 x1 x2 x3 x4).2.1, y ∈ pc.1.set :=
  View.cover_of_tiledL (kernelRun0_A c i arg3 harg3 arg4 harg4 arg5 harg5 arg6 harg6 arg7 harg7 arg8 harg8 arg9 harg9 hc0 hc1 x0 x1 x2 x3 x4).2.1 S1024x4.size (by sl_kernel_rfl) y

/-- What a first tile leaves in the accumulator. -/
def sout0_A_0 (c : Dev nD) (i : grid0.Coords) (arg3 : Memref sig .tc .vmem S1x1024x65 .f32) (harg3 : arg3.IsWhole) (arg4 : Memref sig .tc .vmem S1x1024x65 .f32) (harg4 : arg4.IsWhole) (arg5 : Memref sig .tc .vmem S1x1024x5 .f32) (harg5 : arg5.IsWhole) (arg6 : Memref sig .tc .vmem S1x1024x5 .f32) (harg6 : arg6.IsWhole) (arg7 : Memref sig .tc .vmem S1x1024x4 .f32) (harg7 : arg7.IsWhole) (arg8 : Memref sig .tc .vmem S1x1024x3 .f32) (harg8 : arg8.IsWhole) (arg9 : Memref sig .tc .vmem S1024x4 .f32) (harg9 : arg9.IsWhole) (hc0 : cond0_0 i) (hc1 : ¬cond0_1 i) (x0 x1 : Vec F S1x1024x65 .f32) (x2 x3 : Vec F S1x1024x5 .f32) (x4 : Vec F S1x1024x4 .f32) : Vec F S1024x4 .f32 :=
  VS0_0.read (Elt F) (VS0_0.writes (Elt F) VS0_0.junk (kernelRun0_A c i arg3 harg3 arg4 harg4 arg5 harg5 arg6 harg6 arg7 harg7 arg8 harg8 arg9 harg9 hc0 hc1 x0 x1 x2 x3 x4).2.1)

/-- A middle tile stores nothing into the output block's buffer either. -/
def out0_B_5 (c : Dev nD) (i : grid0.Coords) (arg3 : Memref sig .tc .vmem S1x1024x65 .f32) (harg3 : arg3.IsWhole) (arg4 : Memref sig .tc .vmem S1x1024x65 .f32) (harg4 : arg4.IsWhole) (arg5 : Memref sig .tc .vmem S1x1024x5 .f32) (harg5 : arg5.IsWhole) (arg6 : Memref sig .tc .vmem S1x1024x5 .f32) (harg6 : arg6.IsWhole) (arg7 : Memref sig .tc .vmem S1x1024x4 .f32) (harg7 : arg7.IsWhole) (arg8 : Memref sig .tc .vmem S1x1024x3 .f32) (harg8 : arg8.IsWhole) (arg9 : Memref sig .tc .vmem S1024x4 .f32) (harg9 : arg9.IsWhole) (hc0 : ¬cond0_0 i) (hc1 : ¬cond0_1 i) (x0 x1 : Vec F S1x1024x65 .f32) (x2 x3 : Vec F S1x1024x5 .f32) (x4 : Vec F S1x1024x4 .f32) (xs0 : Vec F S1024x4 .f32) : Vec F S1x1024x3 .f32 :=
  VO0_5.read (Elt F) (VO0_5.writes (Elt F) VO0_5.junk (kernelRun0_B c i arg3 harg3 arg4 harg4 arg5 harg5 arg6 harg6 arg7 harg7 arg8 harg8 arg9 harg9 hc0 hc1 x0 x1 x2 x3 x4 xs0).1)

theorem scover0_B_0 (c : Dev nD) (i : grid0.Coords) (arg3 : Memref sig .tc .vmem S1x1024x65 .f32) (harg3 : arg3.IsWhole) (arg4 : Memref sig .tc .vmem S1x1024x65 .f32) (harg4 : arg4.IsWhole) (arg5 : Memref sig .tc .vmem S1x1024x5 .f32) (harg5 : arg5.IsWhole) (arg6 : Memref sig .tc .vmem S1x1024x5 .f32) (harg6 : arg6.IsWhole) (arg7 : Memref sig .tc .vmem S1x1024x4 .f32) (harg7 : arg7.IsWhole) (arg8 : Memref sig .tc .vmem S1x1024x3 .f32) (harg8 : arg8.IsWhole) (arg9 : Memref sig .tc .vmem S1024x4 .f32) (harg9 : arg9.IsWhole) (hc0 : ¬cond0_0 i) (hc1 : ¬cond0_1 i) (x0 x1 : Vec F S1x1024x65 .f32) (x2 x3 : Vec F S1x1024x5 .f32) (x4 : Vec F S1x1024x4 .f32) (xs0 : Vec F S1024x4 .f32) (y : S1024x4.Idx) :
    ∃ pc ∈ (kernelRun0_B c i arg3 harg3 arg4 harg4 arg5 harg5 arg6 harg6 arg7 harg7 arg8 harg8 arg9 harg9 hc0 hc1 x0 x1 x2 x3 x4 xs0).2.1, y ∈ pc.1.set :=
  View.cover_of_tiledL (kernelRun0_B c i arg3 harg3 arg4 harg4 arg5 harg5 arg6 harg6 arg7 harg7 arg8 harg8 arg9 harg9 hc0 hc1 x0 x1 x2 x3 x4 xs0).2.1 S1024x4.size (by sl_kernel_rfl) y

/-- What a middle tile leaves in the accumulator, over what the tile before left. -/
def sout0_B_0 (c : Dev nD) (i : grid0.Coords) (arg3 : Memref sig .tc .vmem S1x1024x65 .f32) (harg3 : arg3.IsWhole) (arg4 : Memref sig .tc .vmem S1x1024x65 .f32) (harg4 : arg4.IsWhole) (arg5 : Memref sig .tc .vmem S1x1024x5 .f32) (harg5 : arg5.IsWhole) (arg6 : Memref sig .tc .vmem S1x1024x5 .f32) (harg6 : arg6.IsWhole) (arg7 : Memref sig .tc .vmem S1x1024x4 .f32) (harg7 : arg7.IsWhole) (arg8 : Memref sig .tc .vmem S1x1024x3 .f32) (harg8 : arg8.IsWhole) (arg9 : Memref sig .tc .vmem S1024x4 .f32) (harg9 : arg9.IsWhole) (hc0 : ¬cond0_0 i) (hc1 : ¬cond0_1 i) (x0 x1 : Vec F S1x1024x65 .f32) (x2 x3 : Vec F S1x1024x5 .f32) (x4 : Vec F S1x1024x4 .f32) (xs0 : Vec F S1024x4 .f32) : Vec F S1024x4 .f32 :=
  VS0_0.read (Elt F) (VS0_0.writes (Elt F) VS0_0.junk (kernelRun0_B c i arg3 harg3 arg4 harg4 arg5 harg5 arg6 harg6 arg7 harg7 arg8 harg8 arg9 harg9 hc0 hc1 x0 x1 x2 x3 x4 xs0).2.1)

/-- A last tile's one store covers the output block. -/
theorem cover0_C_5 (c : Dev nD) (i : grid0.Coords) (arg3 : Memref sig .tc .vmem S1x1024x65 .f32) (harg3 : arg3.IsWhole) (arg4 : Memref sig .tc .vmem S1x1024x65 .f32) (harg4 : arg4.IsWhole) (arg5 : Memref sig .tc .vmem S1x1024x5 .f32) (harg5 : arg5.IsWhole) (arg6 : Memref sig .tc .vmem S1x1024x5 .f32) (harg6 : arg6.IsWhole) (arg7 : Memref sig .tc .vmem S1x1024x4 .f32) (harg7 : arg7.IsWhole) (arg8 : Memref sig .tc .vmem S1x1024x3 .f32) (harg8 : arg8.IsWhole) (arg9 : Memref sig .tc .vmem S1024x4 .f32) (harg9 : arg9.IsWhole) (hc0 : ¬cond0_0 i) (hc1 : cond0_1 i) (x0 x1 : Vec F S1x1024x65 .f32) (x2 x3 : Vec F S1x1024x5 .f32) (x4 : Vec F S1x1024x4 .f32) (xs0 : Vec F S1024x4 .f32) (y : S1x1024x3.Idx) :
    ∃ pc ∈ (kernelRun0_C c i arg3 harg3 arg4 harg4 arg5 harg5 arg6 harg6 arg7 harg7 arg8 harg8 arg9 harg9 hc0 hc1 x0 x1 x2 x3 x4 xs0).1, y ∈ pc.1.set :=
  View.cover_of_tiledL (kernelRun0_C c i arg3 harg3 arg4 harg4 arg5 harg5 arg6 harg6 arg7 harg7 arg8 harg8 arg9 harg9 hc0 hc1 x0 x1 x2 x3 x4 xs0).1 S1x1024x3.size (by sl_kernel_rfl) y

/-- What a last tile leaves in the output block's buffer. -/
def out0_C_5 (c : Dev nD) (i : grid0.Coords) (arg3 : Memref sig .tc .vmem S1x1024x65 .f32) (harg3 : arg3.IsWhole) (arg4 : Memref sig .tc .vmem S1x1024x65 .f32) (harg4 : arg4.IsWhole) (arg5 : Memref sig .tc .vmem S1x1024x5 .f32) (harg5 : arg5.IsWhole) (arg6 : Memref sig .tc .vmem S1x1024x5 .f32) (harg6 : arg6.IsWhole) (arg7 : Memref sig .tc .vmem S1x1024x4 .f32) (harg7 : arg7.IsWhole) (arg8 : Memref sig .tc .vmem S1x1024x3 .f32) (harg8 : arg8.IsWhole) (arg9 : Memref sig .tc .vmem S1024x4 .f32) (harg9 : arg9.IsWhole) (hc0 : ¬cond0_0 i) (hc1 : cond0_1 i) (x0 x1 : Vec F S1x1024x65 .f32) (x2 x3 : Vec F S1x1024x5 .f32) (x4 : Vec F S1x1024x4 .f32) (xs0 : Vec F S1024x4 .f32) : Vec F S1x1024x3 .f32 :=
  VO0_5.read (Elt F) (VO0_5.writes (Elt F) VO0_5.junk (kernelRun0_C c i arg3 harg3 arg4 harg4 arg5 harg5 arg6 harg6 arg7 harg7 arg8 harg8 arg9 harg9 hc0 hc1 x0 x1 x2 x3 x4 xs0).1)

theorem scover0_C_0 (c : Dev nD) (i : grid0.Coords) (arg3 : Memref sig .tc .vmem S1x1024x65 .f32) (harg3 : arg3.IsWhole) (arg4 : Memref sig .tc .vmem S1x1024x65 .f32) (harg4 : arg4.IsWhole) (arg5 : Memref sig .tc .vmem S1x1024x5 .f32) (harg5 : arg5.IsWhole) (arg6 : Memref sig .tc .vmem S1x1024x5 .f32) (harg6 : arg6.IsWhole) (arg7 : Memref sig .tc .vmem S1x1024x4 .f32) (harg7 : arg7.IsWhole) (arg8 : Memref sig .tc .vmem S1x1024x3 .f32) (harg8 : arg8.IsWhole) (arg9 : Memref sig .tc .vmem S1024x4 .f32) (harg9 : arg9.IsWhole) (hc0 : ¬cond0_0 i) (hc1 : cond0_1 i) (x0 x1 : Vec F S1x1024x65 .f32) (x2 x3 : Vec F S1x1024x5 .f32) (x4 : Vec F S1x1024x4 .f32) (xs0 : Vec F S1024x4 .f32) (y : S1024x4.Idx) :
    ∃ pc ∈ (kernelRun0_C c i arg3 harg3 arg4 harg4 arg5 harg5 arg6 harg6 arg7 harg7 arg8 harg8 arg9 harg9 hc0 hc1 x0 x1 x2 x3 x4 xs0).2.1, y ∈ pc.1.set :=
  View.cover_of_tiledL (kernelRun0_C c i arg3 harg3 arg4 harg4 arg5 harg5 arg6 harg6 arg7 harg7 arg8 harg8 arg9 harg9 hc0 hc1 x0 x1 x2 x3 x4 xs0).2.1 S1024x4.size (by sl_kernel_rfl) y

/-- What a last tile leaves in the accumulator. -/
def sout0_C_0 (c : Dev nD) (i : grid0.Coords) (arg3 : Memref sig .tc .vmem S1x1024x65 .f32) (harg3 : arg3.IsWhole) (arg4 : Memref sig .tc .vmem S1x1024x65 .f32) (harg4 : arg4.IsWhole) (arg5 : Memref sig .tc .vmem S1x1024x5 .f32) (harg5 : arg5.IsWhole) (arg6 : Memref sig .tc .vmem S1x1024x5 .f32) (harg6 : arg6.IsWhole) (arg7 : Memref sig .tc .vmem S1x1024x4 .f32) (harg7 : arg7.IsWhole) (arg8 : Memref sig .tc .vmem S1x1024x3 .f32) (harg8 : arg8.IsWhole) (arg9 : Memref sig .tc .vmem S1024x4 .f32) (harg9 : arg9.IsWhole) (hc0 : ¬cond0_0 i) (hc1 : cond0_1 i) (x0 x1 : Vec F S1x1024x65 .f32) (x2 x3 : Vec F S1x1024x5 .f32) (x4 : Vec F S1x1024x4 .f32) (xs0 : Vec F S1024x4 .f32) : Vec F S1024x4 .f32 :=
  VS0_0.read (Elt F) (VS0_0.writes (Elt F) VS0_0.junk (kernelRun0_C c i arg3 harg3 arg4 harg4 arg5 harg5 arg6 harg6 arg7 harg7 arg8 harg8 arg9 harg9 hc0 hc1 x0 x1 x2 x3 x4 xs0).2.1)

/-! ## What the output block's buffer and the accumulator hold after each point -/

/-- After the body at position `n`: the case `n % 4` selects, run at the point's memrefs and input blocks, the accumulator of
    a later tile read at what position `n - 1` left. (First component: the output block's buffer; second: the accumulator.) -/
def outsAt0 (c : Dev nD) : (n : ℕ) → n < cfg0.N → Vec F S1x1024x3 .f32 × Vec F S1024x4 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 4 = 0 then
      if h1 : (n + 1) % 4 = 3 then
        False.elim (by omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 4 = 3 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2)

/-- At a first tile. -/
theorem outsAt0_A (c : Dev nD) (t : Fin cfg0.N) (h0 : t.val % 4 = 0) (h1 : ¬t.val % 4 = 3) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

/-- At a middle tile, over what the point before left. -/
theorem outsAt0_B (c : Dev nD) (t : Fin cfg0.N) (h0 : ¬t.val % 4 = 0) (h1 : ¬t.val % 4 = 3) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last tile, over what the point before left. -/
theorem outsAt0_C (c : Dev nD) (t : Fin cfg0.N) (h0 : ¬t.val % 4 = 0) (h1 : t.val % 4 = 3) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the accumulator at anything; afterwards at what the
    point before left; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body each input's buffer at its block and the output's at
    `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 8000000 in
/-- The body at any point: the inputs' memrefs hold their blocks; `t % 4` says which case the point is in; that case's run
    applies; the invariant hands the body the accumulator at what the point before left (at anything at the very first
    point) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 4 = 0
  · by_cases h1 : t.val % 4 = 3
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5_C t (fun h => h0 ((hcond0_0 t).mp h)) ((hcond0_1 t).mpr h1)], after0_5]
      rw [outsAt0_C m c t h0 h1]
      unfold out0_C_5 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_C_5 c _ _ _ _ _ _ _ _ _ _ _ _ _ _ _ _ _ _ _ _ _ _ _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [Dat.leavesExact_idle (dats m 0 c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- Every weakly fair execution of @main terminates, with every array of the pipeline at what the library computes from
    the proof data and every other unscoped buffer at its region-entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- The program runs, faults nowhere, and leaves its five arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (run_main m ρ)

end Cert.KernelIdeal.Fr

end
-- ==== Proof.KPieces.lean ====
/-
  What each case of the body leaves, as VALUES: the accumulator after a first tile is the update of the zero block, after
  a later tile the update of what the tile before left; the output block stored at a last tile is the final quotient of the
  accumulator just updated, minus the source coordinates.
-/
import proofs.«429331_j45681272160506_3_alg».proof.Proof.FrameKI.Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- A middle tile leaves the update of the accumulator it found. -/
theorem sout_B (c : Dev nD) (i : grid0.Coords) (arg3 : Memref sig .tc .vmem S1x1024x65 .f32) (harg3 : arg3.IsWhole) (arg4 : Memref sig .tc .vmem S1x1024x65 .f32) (harg4 : arg4.IsWhole) (arg5 : Memref sig .tc .vmem S1x1024x5 .f32) (harg5 : arg5.IsWhole) (arg6 : Memref sig .tc .vmem S1x1024x5 .f32) (harg6 : arg6.IsWhole) (arg7 : Memref sig .tc .vmem S1x1024x4 .f32) (harg7 : arg7.IsWhole) (arg8 : Memref sig .tc .vmem S1x1024x3 .f32) (harg8 : arg8.IsWhole) (arg9 : Memref sig .tc .vmem S1024x4 .f32) (harg9 : arg9.IsWhole) (hc0 : ¬cond0_0 i) (hc1 : ¬cond0_1 i) (x0 x1 : Vec F S1x1024x65 .f32) (x2 x3 : Vec F S1x1024x5 .f32) (x4 : Vec F S1x1024x4 .f32) (xs0 : Vec F S1024x4 .f32) :
    sout0_B_0 c i arg3 harg3 arg4 harg4 arg5 harg5 arg6 harg6 arg7 harg7 arg8 harg8 arg9 harg9 hc0 hc1 x0 x1 x2 x3 x4 xs0 = k0_pay4 x0 x1 x2 x3 xs0 x4 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  sl_unfold_words
  rw [View.canon_unit_zero hz2]
  simp only [View.readAt_eq_ld, harg3.read_unread, harg4.read_unread, harg5.read_unread, harg6.read_unread, harg7.read_unread, harg8.read_unread, harg9.read_unread, View.ld_unit_zero (S := S1x1024x65) hz3, View.ld_unit_zero (S := S1x1024x5) hz3, View.ld_unit_zero (S := S1x1024x4) hz3, View.ld_unit_zero (S := S1x1024x3) hz3, View.ld_unit_zero (S := S1024x4) hz2]

/-- A first tile leaves the update of the zero block. -/
theorem sout_A (c : Dev nD) (i : grid0.Coords) (arg3 : Memref sig .tc .vmem S1x1024x65 .f32) (harg3 : arg3.IsWhole) (arg4 : Memref sig .tc .vmem S1x1024x65 .f32) (harg4 : arg4.IsWhole) (arg5 : Memref sig .tc .vmem S1x1024x5 .f32) (harg5 : arg5.IsWhole) (arg6 : Memref sig .tc .vmem S1x1024x5 .f32) (harg6 : arg6.IsWhole) (arg7 : Memref sig .tc .vmem S1x1024x4 .f32) (harg7 : arg7.IsWhole) (arg8 : Memref sig .tc .vmem S1x1024x3 .f32) (harg8 : arg8.IsWhole) (arg9 : Memref sig .tc .vmem S1024x4 .f32) (harg9 : arg9.IsWhole) (hc0 : cond0_0 i) (hc1 : ¬cond0_1 i) (x0 x1 : Vec F S1x1024x65 .f32) (x2 x3 : Vec F S1x1024x5 .f32) (x4 : Vec F S1x1024x4 .f32) :
    sout0_A_0 c i arg3 harg3 arg4 harg4 arg5 harg5 arg6 harg6 arg7 harg7 arg8 harg8 arg9 harg9 hc0 hc1 x0 x1 x2 x3 x4 = k0_pay4 x0 x1 x2 x3 (k0_pay2 (F := F)) x4 := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x4) hz2, View.readCov_unit_zero (S := S1024x4) _ hz2]
  simp only [View.readAt_eq_ld, harg3.read_unread, harg4.read_unread, harg5.read_unread, harg6.read_unread, harg7.read_unread, harg8.read_unread, harg9.read_unread, View.ld_unit_zero (S := S1x1024x65) hz3, View.ld_unit_zero (S := S1x1024x5) hz3, View.ld_unit_zero (S := S1x1024x4) hz3, View.ld_unit_zero (S := S1x1024x3) hz3, View.ld_unit_zero (S := S1024x4) hz2]

/-- A last tile leaves the update of the accumulator it found, -/
theorem sout_C (c : Dev nD) (i : grid0.Coords) (arg3 : Memref sig .tc .vmem S1x1024x65 .f32) (harg3 : arg3.IsWhole) (arg4 : Memref sig .tc .vmem S1x1024x65 .f32) (harg4 : arg4.IsWhole) (arg5 : Memref sig .tc .vmem S1x1024x5 .f32) (harg5 : arg5.IsWhole) (arg6 : Memref sig .tc .vmem S1x1024x5 .f32) (harg6 : arg6.IsWhole) (arg7 : Memref sig .tc .vmem S1x1024x4 .f32) (harg7 : arg7.IsWhole) (arg8 : Memref sig .tc .vmem S1x1024x3 .f32) (harg8 : arg8.IsWhole) (arg9 : Memref sig .tc .vmem S1024x4 .f32) (harg9 : arg9.IsWhole) (hc0 : ¬cond0_0 i) (hc1 : cond0_1 i) (x0 x1 : Vec F S1x1024x65 .f32) (x2 x3 : Vec F S1x1024x5 .f32) (x4 : Vec F S1x1024x4 .f32) (xs0 : Vec F S1024x4 .f32) :
    sout0_C_0 c i arg3 harg3 arg4 harg4 arg5 harg5 arg6 harg6 arg7 harg7 arg8 harg8 arg9 harg9 hc0 hc1 x0 x1 x2 x3 x4 xs0 = k0_pay4 x0 x1 x2 x3 xs0 x4 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz2]
  simp only [View.readAt_eq_ld, harg3.read_unread, harg4.read_unread, harg5.read_unread, harg6.read_unread, harg7.read_unread, harg8.read_unread, harg9.read_unread, View.ld_unit_zero (S := S1x1024x65) hz3, View.ld_unit_zero (S := S1x1024x5) hz3, View.ld_unit_zero (S := S1x1024x4) hz3, View.ld_unit_zero (S := S1x1024x3) hz3, View.ld_unit_zero (S := S1024x4) hz2]

/-- and stores the output block from it. -/
theorem out_C (c : Dev nD) (i : grid0.Coords) (arg3 : Memref sig .tc .vmem S1x1024x65 .f32) (harg3 : arg3.IsWhole) (arg4 : Memref sig .tc .vmem S1x1024x65 .f32) (harg4 : arg4.IsWhole) (arg5 : Memref sig .tc .vmem S1x1024x5 .f32) (harg5 : arg5.IsWhole) (arg6 : Memref sig .tc .vmem S1x1024x5 .f32) (harg6 : arg6.IsWhole) (arg7 : Memref sig .tc .vmem S1x1024x4 .f32) (harg7 : arg7.IsWhole) (arg8 : Memref sig .tc .vmem S1x1024x3 .f32) (harg8 : arg8.IsWhole) (arg9 : Memref sig .tc .vmem S1024x4 .f32) (harg9 : arg9.IsWhole) (hc0 : ¬cond0_0 i) (hc1 : cond0_1 i) (x0 x1 : Vec F S1x1024x65 .f32) (x2 x3 : Vec F S1x1024x5 .f32) (x4 : Vec F S1x1024x4 .f32) (xs0 : Vec F S1024x4 .f32) :
    out0_C_5 c i arg3 harg3 arg4 harg4 arg5 harg5 arg6 harg6 arg7 harg7 arg8 harg8 arg9 harg9 hc0 hc1 x0 x1 x2 x3 x4 xs0 = k0_pay1 (k0_pay3 x2) (k0_pay4 x0 x1 x2 x3 xs0 x4) := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz3]
  simp only [View.readAt_eq_ld, harg3.read_unread, harg4.read_unread, harg5.read_unread, harg6.read_unread, harg7.read_unread, harg8.read_unread, harg9.read_unread, View.ld_unit_zero (S := S1x1024x65) hz3, View.ld_unit_zero (S := S1x1024x5) hz3, View.ld_unit_zero (S := S1x1024x4) hz3, View.ld_unit_zero (S := S1x1024x3) hz3, View.ld_unit_zero (S := S1024x4) hz2, View.readCov_unit_zero (S := S1024x4) _ hz2]

end Cert.KernelIdeal.Fr

end
-- ==== Proof.Payload.lean ====
/-
  The kernel body's arithmetic read at an index, on the extended reals.

  Each value the body stores is a function of the blocks it loaded. Read at one index:
  • the accumulator's initial fill is `0` everywhere;
  • the source-coordinate block with its leading unit axis dropped reads the block at `(0, p, k)`;
  • the accumulator update at `(p, j)` is the old accumulator plus the sum over the tile's target points `q` of the masked
    weight times column `j` of the augmented target coordinates, where the weight is `exp` of the inner product of the two
    augmented feature rows when the inner product of the two augmented coordinate rows is below the threshold, and `0` otherwise;
  • the final value at `(0, p, c)` is column `c` of the accumulator over (column `3` plus the regularizer), minus the source
    coordinate `c`.
  The pointwise operations read through definitionally; a shape cast, transpose, slice or broadcast reads its operand at the
  index with the matching coordinates; each matrix product into a zero accumulator is the sum over its one contracted
  coordinate.
-/
import proofs.«429331_j45681272160506_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option synthInstance.maxSize 4096

noncomputable section

namespace Cert.KernelIdeal.Pay

open Cert.KernelIdeal Cert.KernelIdeal.Gen Idealize.ShloMosaic Idealize.SL.Sem Idealize.ShloMosaic.ValueIdx

/-! ## The zero fill and the source-coordinate block -/

/-- The accumulator's initial fill is `0` at every index. -/
theorem pay2_apply (i : S1024x4.Idx) : k0_pay2 (F := Ideal) i = 0 := by
  unfold k0_pay2
  refine (congrFun (shapeCast_self _ _) i).trans ?_
  exact Ideal.ofBits_zero_f32

/-- The source-coordinate block viewed without its leading unit axis reads, at `(p, k)`, the block at `(0, p, k)`. -/
theorem pay3_apply (v7 : Vec Ideal S1x1024x5 .f32) (p : Fin 1024) (k : Fin 5) : k0_pay3 v7 (ix2 p k) = v7 (ix3 0 p k) := by
  unfold k0_pay3
  exact shapeCast_1ab_ab_apply v7 _ p k

/-! ## A column broadcast along its rows -/

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The final quotient at an index -/

/-- The stored result at `(0, p, c)`: accumulator column `c` over (accumulator column `3` plus the regularizer), minus source
    coordinate `c`. -/
theorem pay1_apply (v8 : FVec Ideal S1024x5 .f32) (v31 : Vec Ideal S1024x4 .f32) (p : Fin 1024) (c : Fin 3) :
    k0_pay1 v8 v31 (ix3 0 p c)
      = Ideal.div (v31 (ix2 p ⟨c.val, by omega⟩)) (v31 (ix2 p 3) + Ideal.ofBits .f32 0x322BCC77#32) - v8 (ix2 p ⟨c.val, by omega⟩) := by
  unfold k0_pay1
  refine (shapeCast_ab_1ab_apply _ _ 0 p c).trans ?_
  refine congrArg₂ (· - ·) (congrArg₂ Ideal.div ?_ ?_) ?_
  · exact slice2_axis1_apply 0 v31 _ p c ⟨c.val, by omega⟩ (Nat.zero_add _).symm
  · refine (broadcastTo_a1_ab_apply _ _ p c).trans ?_
    refine congrArg (· + Ideal.ofBits .f32 0x322BCC77#32) ?_
    exact slice2_axis1_apply 3 v31 _ p (0 : Fin 1) 3 rfl
  · exact slice2_axis1_apply 0 v8 _ p c ⟨c.val, by omega⟩ (Nat.zero_add _).symm

/-! ## The three matrix products at an index -/

/-! ### The exponent's product, `[1024, 65] × [65, 1024]`

The operand indices of the product at result index `i` and contraction position `q`, axis by axis: the left operand
reads `i`'s row and the contraction coordinate, the right operand the contraction coordinate and `i`'s column. -/

theorem lhs_arg_0 (i : S1024x1024.Idx) (q : dot_S1024x65_S65x1024_S1024x1024_1_0_0_1_n_n.contr.Idx) :
    (dot_S1024x65_S65x1024_S1024x1024_1_0_0_1_n_n.lhsIdx i q 0).val = (i 0).val := by
  unfold DotDims.lhsIdx
  rw [dif_neg (show ¬(0 : Fin S1024x65.rank) ∈ dot_S1024x65_S65x1024_S1024x1024_1_0_0_1_n_n.lhsBatch by decide), dif_pos (show (0 : Fin S1024x65.rank) ∈ dot_S1024x65_S65x1024_S1024x1024_1_0_0_1_n_n.lhsNonContracting by decide)]
  rfl
theorem lhs_arg_1 (i : S1024x1024.Idx) (q : dot_S1024x65_S65x1024_S1024x1024_1_0_0_1_n_n.contr.Idx) :
    (dot_S1024x65_S65x1024_S1024x1024_1_0_0_1_n_n.lhsIdx i q 1).val = (q ⟨0, by decide⟩).val :=
  dot_S1024x65_S65x1024_S1024x1024_1_0_0_1_n_n.lhsIdx_val_of_single rfl i q
theorem rhs_arg_0 (i : S1024x1024.Idx) (q : dot_S1024x65_S65x1024_S1024x1024_1_0_0_1_n_n.contr.Idx) :
    (dot_S1024x65_S65x1024_S1024x1024_1_0_0_1_n_n.rhsIdx i q 0).val = (q ⟨0, by decide⟩).val :=
  dot_S1024x65_S65x1024_S1024x1024_1_0_0_1_n_n.rhsIdx_val_of_single rfl i q
theorem rhs_arg_1 (i : S1024x1024.Idx) (q : dot_S1024x65_S65x1024_S1024x1024_1_0_0_1_n_n.contr.Idx) :
    (dot_S1024x65_S65x1024_S1024x1024_1_0_0_1_n_n.rhsIdx i q 1).val = (i 1).val := by
  unfold DotDims.rhsIdx
  rw [dif_neg (show ¬(1 : Fin S65x1024.rank) ∈ dot_S1024x65_S65x1024_S1024x1024_1_0_0_1_n_n.rhsBatch by decide), dif_pos (show (1 : Fin S65x1024.rank) ∈ dot_S1024x65_S65x1024_S1024x1024_1_0_0_1_n_n.rhsNonContracting by decide)]
  rfl

/-- Into the zero accumulator, the exponent's product, `[1024, 65] × [65, 1024]` read at `(p, q)` is the sum over the contracted coordinate of row `p` of the left operand times column `q` of the right. -/
theorem mm_arg_apply (A : FVec Ideal S1024x65 .f32) (B : FVec Ideal S65x1024 .f32) (p : Fin 1024) (q : Fin 1024) :
    matmul dot_S1024x65_S65x1024_S1024x1024_1_0_0_1_n_n (some .fp32) A B (constant (F := Ideal) S1024x1024 .f32 0x00000000#32) (ix2 p q)
      = ∑ k : Fin 65, A (ix2 p k) * B (ix2 k q) := by
  simp only [matmul]
  rw [Ideal.matmul_constant_zero_apply, ← Equiv.sum_comp (contrEquiv1 dot_S1024x65_S65x1024_S1024x1024_1_0_0_1_n_n 65 rfl rfl).symm]
  refine Finset.sum_congr rfl fun k _ => ?_
  have hk := contrEquiv1_symm_val dot_S1024x65_S65x1024_S1024x1024_1_0_0_1_n_n 65 rfl rfl k
  have el : dot_S1024x65_S65x1024_S1024x1024_1_0_0_1_n_n.lhsIdx (ix2 p q) ((contrEquiv1 dot_S1024x65_S65x1024_S1024x1024_1_0_0_1_n_n 65 rfl rfl).symm k) = ix2 p k := funext fun a => Fin.ext (by
    match a with
    | ⟨0, _⟩ => exact lhs_arg_0 _ _
    | ⟨1, _⟩ => exact (lhs_arg_1 _ _).trans hk)
  have er : dot_S1024x65_S65x1024_S1024x1024_1_0_0_1_n_n.rhsIdx (ix2 p q) ((contrEquiv1 dot_S1024x65_S65x1024_S1024x1024_1_0_0_1_n_n 65 rfl rfl).symm k) = ix2 k q := funext fun a => Fin.ext (by
    match a with
    | ⟨0, _⟩ => exact (rhs_arg_0 _ _).trans hk
    | ⟨1, _⟩ => exact rhs_arg_1 _ _)
  rw [el, er]

/-! ### The squared distance's product, `[1024, 5] × [5, 1024]`

The operand indices of the product at result index `i` and contraction position `q`, axis by axis: the left operand
reads `i`'s row and the contraction coordinate, the right operand the contraction coordinate and `i`'s column. -/

theorem lhs_sq_0 (i : S1024x1024.Idx) (q : dot_S1024x5_S5x1024_S1024x1024_1_0_0_1_n_n.contr.Idx) :
    (dot_S1024x5_S5x1024_S1024x1024_1_0_0_1_n_n.lhsIdx i q 0).val = (i 0).val := by
  unfold DotDims.lhsIdx
  rw [dif_neg (show ¬(0 : Fin S1024x5.rank) ∈ dot_S1024x5_S5x1024_S1024x1024_1_0_0_1_n_n.lhsBatch by decide), dif_pos (show (0 : Fin S1024x5.rank) ∈ dot_S1024x5_S5x1024_S1024x1024_1_0_0_1_n_n.lhsNonContracting by decide)]
  rfl
theorem lhs_sq_1 (i : S1024x1024.Idx) (q : dot_S1024x5_S5x1024_S1024x1024_1_0_0_1_n_n.contr.Idx) :
    (dot_S1024x5_S5x1024_S1024x1024_1_0_0_1_n_n.lhsIdx i q 1).val = (q ⟨0, by decide⟩).val :=
  dot_S1024x5_S5x1024_S1024x1024_1_0_0_1_n_n.lhsIdx_val_of_single rfl i q
theorem rhs_sq_0 (i : S1024x1024.Idx) (q : dot_S1024x5_S5x1024_S1024x1024_1_0_0_1_n_n.contr.Idx) :
    (dot_S1024x5_S5x1024_S1024x1024_1_0_0_1_n_n.rhsIdx i q 0).val = (q ⟨0, by decide⟩).val :=
  dot_S1024x5_S5x1024_S1024x1024_1_0_0_1_n_n.rhsIdx_val_of_single rfl i q
theorem rhs_sq_1 (i : S1024x1024.Idx) (q : dot_S1024x5_S5x1024_S1024x1024_1_0_0_1_n_n.contr.Idx) :
    (dot_S1024x5_S5x1024_S1024x1024_1_0_0_1_n_n.rhsIdx i q 1).val = (i 1).val := by
  unfold DotDims.rhsIdx
  rw [dif_neg (show ¬(1 : Fin S5x1024.rank) ∈ dot_S1024x5_S5x1024_S1024x1024_1_0_0_1_n_n.rhsBatch by decide), dif_pos (show (1 : Fin S5x1024.rank) ∈ dot_S1024x5_S5x1024_S1024x1024_1_0_0_1_n_n.rhsNonContracting by decide)]
  rfl

/-- Into the zero accumulator, the squared distance's product, `[1024, 5] × [5, 1024]` read at `(p, q)` is the sum over the contracted coordinate of row `p` of the left operand times column `q` of the right. -/
theorem mm_sq_apply (A : FVec Ideal S1024x5 .f32) (B : FVec Ideal S5x1024 .f32) (p : Fin 1024) (q : Fin 1024) :
    matmul dot_S1024x5_S5x1024_S1024x1024_1_0_0_1_n_n (some .fp32) A B (constant (F := Ideal) S1024x1024 .f32 0x00000000#32) (ix2 p q)
      = ∑ k : Fin 5, A (ix2 p k) * B (ix2 k q) := by
  simp only [matmul]
  rw [Ideal.matmul_constant_zero_apply, ← Equiv.sum_comp (contrEquiv1 dot_S1024x5_S5x1024_S1024x1024_1_0_0_1_n_n 5 rfl rfl).symm]
  refine Finset.sum_congr rfl fun k _ => ?_
  have hk := contrEquiv1_symm_val dot_S1024x5_S5x1024_S1024x1024_1_0_0_1_n_n 5 rfl rfl k
  have el : dot_S1024x5_S5x1024_S1024x1024_1_0_0_1_n_n.lhsIdx (ix2 p q) ((contrEquiv1 dot_S1024x5_S5x1024_S1024x1024_1_0_0_1_n_n 5 rfl rfl).symm k) = ix2 p k := funext fun a => Fin.ext (by
    match a with
    | ⟨0, _⟩ => exact lhs_sq_0 _ _
    | ⟨1, _⟩ => exact (lhs_sq_1 _ _).trans hk)
  have er : dot_S1024x5_S5x1024_S1024x1024_1_0_0_1_n_n.rhsIdx (ix2 p q) ((contrEquiv1 dot_S1024x5_S5x1024_S1024x1024_1_0_0_1_n_n 5 rfl rfl).symm k) = ix2 k q := funext fun a => Fin.ext (by
    match a with
    | ⟨0, _⟩ => exact (rhs_sq_0 _ _).trans hk
    | ⟨1, _⟩ => exact rhs_sq_1 _ _)
  rw [el, er]

/-! ### The accumulator's product, `[1024, 1024] × [1024, 4]`

The operand indices of the product at result index `i` and contraction position `q`, axis by axis: the left operand
reads `i`'s row and the contraction coordinate, the right operand the contraction coordinate and `i`'s column. -/

theorem lhs_acc_0 (i : S1024x4.Idx) (q : dot_S1024x1024_S1024x4_S1024x4_1_0_0_1_n_n.contr.Idx) :
    (dot_S1024x1024_S1024x4_S1024x4_1_0_0_1_n_n.lhsIdx i q 0).val = (i 0).val := by
  unfold DotDims.lhsIdx
  rw [dif_neg (show ¬(0 : Fin S1024x1024.rank) ∈ dot_S1024x1024_S1024x4_S1024x4_1_0_0_1_n_n.lhsBatch by decide), dif_pos (show (0 : Fin S1024x1024.rank) ∈ dot_S1024x1024_S1024x4_S1024x4_1_0_0_1_n_n.lhsNonContracting by decide)]
  rfl
theorem lhs_acc_1 (i : S1024x4.Idx) (q : dot_S1024x1024_S1024x4_S1024x4_1_0_0_1_n_n.contr.Idx) :
    (dot_S1024x1024_S1024x4_S1024x4_1_0_0_1_n_n.lhsIdx i q 1).val = (q ⟨0, by decide⟩).val :=
  dot_S1024x1024_S1024x4_S1024x4_1_0_0_1_n_n.lhsIdx_val_of_single rfl i q
theorem rhs_acc_0 (i : S1024x4.Idx) (q : dot_S1024x1024_S1024x4_S1024x4_1_0_0_1_n_n.contr.Idx) :
    (dot_S1024x1024_S1024x4_S1024x4_1_0_0_1_n_n.rhsIdx i q 0).val = (q ⟨0, by decide⟩).val :=
  dot_S1024x1024_S1024x4_S1024x4_1_0_0_1_n_n.rhsIdx_val_of_single rfl i q
theorem rhs_acc_1 (i : S1024x4.Idx) (q : dot_S1024x1024_S1024x4_S1024x4_1_0_0_1_n_n.contr.Idx) :
    (dot_S1024x1024_S1024x4_S1024x4_1_0_0_1_n_n.rhsIdx i q 1).val = (i 1).val := by
  unfold DotDims.rhsIdx
  rw [dif_neg (show ¬(1 : Fin S1024x4.rank) ∈ dot_S1024x1024_S1024x4_S1024x4_1_0_0_1_n_n.rhsBatch by decide), dif_pos (show (1 : Fin S1024x4.rank) ∈ dot_S1024x1024_S1024x4_S1024x4_1_0_0_1_n_n.rhsNonContracting by decide)]
  rfl

/-- Into the zero accumulator, the accumulator's product, `[1024, 1024] × [1024, 4]` read at `(p, q)` is the sum over the contracted coordinate of row `p` of the left operand times column `q` of the right. -/
theorem mm_acc_apply (A : FVec Ideal S1024x1024 .f32) (B : FVec Ideal S1024x4 .f32) (p : Fin 1024) (q : Fin 4) :
    matmul dot_S1024x1024_S1024x4_S1024x4_1_0_0_1_n_n (some .fp32) A B (constant (F := Ideal) S1024x4 .f32 0x00000000#32) (ix2 p q)
      = ∑ k : Fin 1024, A (ix2 p k) * B (ix2 k q) := by
  simp only [matmul]
  rw [Ideal.matmul_constant_zero_apply, ← Equiv.sum_comp (contrEquiv1 dot_S1024x1024_S1024x4_S1024x4_1_0_0_1_n_n 1024 rfl rfl).symm]
  refine Finset.sum_congr rfl fun k _ => ?_
  have hk := contrEquiv1_symm_val dot_S1024x1024_S1024x4_S1024x4_1_0_0_1_n_n 1024 rfl rfl k
  have el : dot_S1024x1024_S1024x4_S1024x4_1_0_0_1_n_n.lhsIdx (ix2 p q) ((contrEquiv1 dot_S1024x1024_S1024x4_S1024x4_1_0_0_1_n_n 1024 rfl rfl).symm k) = ix2 p k := funext fun a => Fin.ext (by
    match a with
    | ⟨0, _⟩ => exact lhs_acc_0 _ _
    | ⟨1, _⟩ => exact (lhs_acc_1 _ _).trans hk)
  have er : dot_S1024x1024_S1024x4_S1024x4_1_0_0_1_n_n.rhsIdx (ix2 p q) ((contrEquiv1 dot_S1024x1024_S1024x4_S1024x4_1_0_0_1_n_n 1024 rfl rfl).symm k) = ix2 k q := funext fun a => Fin.ext (by
    match a with
    | ⟨0, _⟩ => exact (rhs_acc_0 _ _).trans hk
    | ⟨1, _⟩ => exact rhs_acc_1 _ _)
  rw [el, er]

/-! ## The select on an ordered comparison -/

/-- A select on "less than" between extended reals is the `if`. -/
theorem select_olt (x y a b : EReal) : Scalar.select (Ideal.cmp .olt x y) a b = if x < y then a else b := by
  show Scalar.select (BitVec.ofBool (decide (x < y))) a b = _
  by_cases h : x < y
  · rw [decide_eq_true h, if_pos h]; exact select_one a b
  · rw [decide_eq_false h, if_neg h]; exact select_zero a b

/-- The masked exponential at an index: where the first array is below the splat threshold, the exponential of the second, else the splat default. -/
theorem sel_apply {s : Shape} (X Y : FVec Ideal s .f32) (c z : Ideal .f32) (i : s.Idx) :
    select (cmpf .olt X (broadcast s c)) (exp Y) (broadcast s z) i = if X i < c then Ideal.exp (Y i) else z :=
  select_olt (X i) c (Ideal.exp (Y i)) z

/-! ## The three products with their operands' layouts read through -/

/-- The exponent's product: row `p` of the first block against row `q` of the second. -/
theorem arg_apply (v3 v5 : Vec Ideal S1x1024x65 .f32) (h : S1x1024x65.ShapeCasts S1024x65) (ht : S1024x65.Transposes [1, 0] S65x1024)
    (p q : Fin 1024) :
    matmul (φ₁ := .f32) (φ₂ := .f32) dot_S1024x65_S65x1024_S1024x1024_1_0_0_1_n_n (some .fp32) (shapeCast S1024x65 v3 h) (transpose S65x1024 [1, 0] (shapeCast S1024x65 v5 h) ht)
        (constant (F := Ideal) S1024x1024 .f32 0x00000000#32) (ix2 p q)
      = ∑ d : Fin 65, v3 (ix3 0 p d) * v5 (ix3 0 q d) := by
  refine (mm_arg_apply _ _ p q).trans ?_
  refine Finset.sum_congr rfl fun d _ => ?_
  rw [shapeCast_1ab_ab_apply, transpose_ix2_apply, shapeCast_1ab_ab_apply]

/-- The squared distance's product: row `p` of the source block against row `q` of the target block. -/
theorem sq_apply (v7 v9 : Vec Ideal S1x1024x5 .f32) (h : S1x1024x5.ShapeCasts S1024x5) (ht : S1024x5.Transposes [1, 0] S5x1024)
    (p q : Fin 1024) :
    matmul (φ₁ := .f32) (φ₂ := .f32) dot_S1024x5_S5x1024_S1024x1024_1_0_0_1_n_n (some .fp32) (k0_pay3 v7) (transpose S5x1024 [1, 0] (shapeCast S1024x5 v9 h) ht)
        (constant (F := Ideal) S1024x1024 .f32 0x00000000#32) (ix2 p q)
      = ∑ k : Fin 5, v7 (ix3 0 p k) * v9 (ix3 0 q k) := by
  refine (mm_sq_apply _ _ p q).trans ?_
  refine Finset.sum_congr rfl fun k _ => ?_
  rw [pay3_apply, transpose_ix2_apply, shapeCast_1ab_ab_apply]

/-! ## The accumulator update at an index -/

/-- The accumulator update at `(p, j)`: the old accumulator plus the sum over the tile's target points `q` of the masked weight
    of `(p, q)` times column `j` of the augmented target coordinates. -/
theorem pay4_apply (v3 v5 : Vec Ideal S1x1024x65 .f32) (v7 v9 : Vec Ideal S1x1024x5 .f32) (v20 : Vec Ideal S1024x4 .f32)
    (v21 : Vec Ideal S1x1024x4 .f32) (p : Fin 1024) (j : Fin 4) :
    k0_pay4 v3 v5 v7 v9 v20 v21 (ix2 p j)
      = v20 (ix2 p j) + ∑ q : Fin 1024,
          (if (∑ k : Fin 5, v7 (ix3 0 p k) * v9 (ix3 0 q k)) < Ideal.ofBits .f32 0x42C80000#32
            then Ideal.exp (∑ d : Fin 65, v3 (ix3 0 p d) * v5 (ix3 0 q d)) else 0) * v21 (ix3 0 q j) := by
  unfold k0_pay4
  refine (congrFun (shapeCast_self _ _) _).trans ?_
  refine congrArg (v20 (ix2 p j) + ·) ?_
  refine (mm_acc_apply _ _ p j).trans ?_
  refine Finset.sum_congr rfl fun q _ => ?_
  refine congrArg₂ (· * ·) ?_ (shapeCast_1ab_ab_apply v21 _ q j)
  refine (sel_apply _ _ _ _ _).trans ?_
  rw [sq_apply, arg_apply]
  exact if_congr Iff.rfl rfl Ideal.ofBits_zero_f32

end Cert.KernelIdeal.Pay

end
-- ==== Proof.Blocks.lean ====
/-
  Where the windows' blocks sit in their arrays.

  The grid is 2 × 4 × 4: point `t` has batch `t / 16`, source tile `(t / 4) % 4` and target tile `t % 4`. Every
  window's block is one batch and 1024 consecutive rows of its array: rows `1024 i + p` of the source tile `i` for the
  windows that move with the source tile, rows `1024 k + q` of the target tile `k` for those that move with the target
  tile. So a block read at `(0, p, d)` is the array read at `(b, 1024 i + p, d)`.
-/
import proofs.«429331_j45681272160506_3_alg».proof.Proof.FrameKI.Runs
import Idealize.ShloMosaic.Lib.ValueIdx
import Idealize.ShloMosaic.Lib.Pipeline.Value

set_option maxRecDepth 16384

noncomputable section

namespace Cert.KernelIdeal.Blk

open Cert.KernelIdeal Cert.KernelIdeal.Gen Cert.KernelIdeal.Fr Idealize.ShloMosaic Idealize.ShloMosaic.TcCoe ValueIdx

variable {F : FTy → Type} [FloatOps F]
variable (m : (ℓ : Loc nD τ sig) → Buf (Elt F) ℓ)

/-! ## A grid point's coordinates -/

theorem lt32 (t : Fin cfg0.N) : t.val < 32 := lt_of_lt_of_eq t.isLt N_0

/-- The batch of point `t`. -/
def tb (t : Fin cfg0.N) : Fin 2 := ⟨t.val / 16, by have := lt32 t; omega⟩
/-- The source tile of point `t`. -/
def ti (t : Fin cfg0.N) : Fin 4 := ⟨(t.val / 4) % 4, by omega⟩
/-- The target tile of point `t`. -/
def tk (t : Fin cfg0.N) : Fin 4 := ⟨t.val % 4, by omega⟩
/-- Row `p` of tile `i`. -/
def row (i : Fin 4) (p : Fin 1024) : Fin 4096 := ⟨1024 * i.val + p.val, by omega⟩

/-! ## The index maps, decided over the grid

  Every window's block index is the batch on axis 0, a tile number on axis 1 (the source tile for windows 0, 2 and
  the output window 5, the target tile for windows 1, 3, 4) and 0 on axis 2. -/

theorem idx_facts0 : ∀ t : Fin cfg0.N, win0_0.index t (0 : Fin 3) = t.val / 16 ∧ win0_0.index t (1 : Fin 3) = (t.val / 4) % 4 ∧ win0_0.index t (2 : Fin 3) = 0 :=
  (by decide +kernel : ∀ t : Fin grid0.N, _)
theorem idx_facts1 : ∀ t : Fin cfg0.N, win0_1.index t (0 : Fin 3) = t.val / 16 ∧ win0_1.index t (1 : Fin 3) = t.val % 4 ∧ win0_1.index t (2 : Fin 3) = 0 :=
  (by decide +kernel : ∀ t : Fin grid0.N, _)
theorem idx_facts2 : ∀ t : Fin cfg0.N, win0_2.index t (0 : Fin 3) = t.val / 16 ∧ win0_2.index t (1 : Fin 3) = (t.val / 4) % 4 ∧ win0_2.index t (2 : Fin 3) = 0 :=
  (by decide +kernel : ∀ t : Fin grid0.N, _)
theorem idx_facts3 : ∀ t : Fin cfg0.N, win0_3.index t (0 : Fin 3) = t.val / 16 ∧ win0_3.index t (1 : Fin 3) = t.val % 4 ∧ win0_3.index t (2 : Fin 3) = 0 :=
  (by decide +kernel : ∀ t : Fin grid0.N, _)
theorem idx_facts4 : ∀ t : Fin cfg0.N, win0_4.index t (0 : Fin 3) = t.val / 16 ∧ win0_4.index t (1 : Fin 3) = t.val % 4 ∧ win0_4.index t (2 : Fin 3) = 0 :=
  (by decide +kernel : ∀ t : Fin grid0.N, _)
theorem idx_facts5 : ∀ t : Fin cfg0.N, win0_5.index t (0 : Fin 3) = t.val / 16 ∧ win0_5.index t (1 : Fin 3) = (t.val / 4) % 4 ∧ win0_5.index t (2 : Fin 3) = 0 :=
  (by decide +kernel : ∀ t : Fin grid0.N, _)

/-! ## The input blocks

  A block's coordinate in its array is the block index times the block's extent plus the coordinate inside the
  block, axis by axis. -/

theorem blk0_apply (c : Dev nD) (t : Fin cfg0.N) (p : Fin 1024) (d : Fin 65) :
    iblk m c 0 t (ix3 0 p d) = V m c main_v16 (ix3 (tb t) (row (ti t) p) d) := by
  obtain ⟨e0, e1, e2⟩ := idx_facts0 t
  show V m c main_v16 (((cfg0.win 0).blk t).view.emb (ix3 0 p d)) = V m c main_v16 _
  congr 1
  funext a; apply Fin.ext
  match a with
  | ⟨0, _⟩ => show win0_0.index t (0 : Fin 3) * 1 + 1 * 0 = t.val / 16; omega
  | ⟨1, _⟩ => show win0_0.index t (1 : Fin 3) * 1024 + 1 * p.val = 1024 * ((t.val / 4) % 4) + p.val; omega
  | ⟨2, _⟩ => show win0_0.index t (2 : Fin 3) * 65 + 1 * d.val = d.val; omega

theorem blk1_apply (c : Dev nD) (t : Fin cfg0.N) (q : Fin 1024) (d : Fin 65) :
    iblk m c 1 t (ix3 0 q d) = V m c main_v17 (ix3 (tb t) (row (tk t) q) d) := by
  obtain ⟨e0, e1, e2⟩ := idx_facts1 t
  show V m c main_v17 (((cfg0.win 1).blk t).view.emb (ix3 0 q d)) = V m c main_v17 _
  congr 1
  funext a; apply Fin.ext
  match a with
  | ⟨0, _⟩ => show win0_1.index t (0 : Fin 3) * 1 + 1 * 0 = t.val / 16; omega
  | ⟨1, _⟩ => show win0_1.index t (1 : Fin 3) * 1024 + 1 * q.val = 1024 * (t.val % 4) + q.val; omega
  | ⟨2, _⟩ => show win0_1.index t (2 : Fin 3) * 65 + 1 * d.val = d.val; omega

theorem blk2_apply (c : Dev nD) (t : Fin cfg0.N) (p : Fin 1024) (k : Fin 5) :
    iblk m c 2 t (ix3 0 p k) = V m c main_v24 (ix3 (tb t) (row (ti t) p) k) := by
  obtain ⟨e0, e1, e2⟩ := idx_facts2 t
  show V m c main_v24 (((cfg0.win 2).blk t).view.emb (ix3 0 p k)) = V m c main_v24 _
  congr 1
  funext a; apply Fin.ext
  match a with
  | ⟨0, _⟩ => show win0_2.index t (0 : Fin 3) * 1 + 1 * 0 = t.val / 16; omega
  | ⟨1, _⟩ => show win0_2.index t (1 : Fin 3) * 1024 + 1 * p.val = 1024 * ((t.val / 4) % 4) + p.val; omega
  | ⟨2, _⟩ => show win0_2.index t (2 : Fin 3) * 5 + 1 * k.val = k.val; omega

theorem blk3_apply (c : Dev nD) (t : Fin cfg0.N) (q : Fin 1024) (k : Fin 5) :
    iblk m c 3 t (ix3 0 q k) = V m c main_v27 (ix3 (tb t) (row (tk t) q) k) := by
  obtain ⟨e0, e1, e2⟩ := idx_facts3 t
  show V m c main_v27 (((cfg0.win 3).blk t).view.emb (ix3 0 q k)) = V m c main_v27 _
  congr 1
  funext a; apply Fin.ext
  match a with
  | ⟨0, _⟩ => show win0_3.index t (0 : Fin 3) * 1 + 1 * 0 = t.val / 16; omega
  | ⟨1, _⟩ => show win0_3.index t (1 : Fin 3) * 1024 + 1 * q.val = 1024 * (t.val % 4) + q.val; omega
  | ⟨2, _⟩ => show win0_3.index t (2 : Fin 3) * 5 + 1 * k.val = k.val; omega

theorem blk4_apply (c : Dev nD) (t : Fin cfg0.N) (q : Fin 1024) (j : Fin 4) :
    iblk m c 4 t (ix3 0 q j) = V m c main_v28 (ix3 (tb t) (row (tk t) q) j) := by
  obtain ⟨e0, e1, e2⟩ := idx_facts4 t
  show V m c main_v28 (((cfg0.win 4).blk t).view.emb (ix3 0 q j)) = V m c main_v28 _
  congr 1
  funext a; apply Fin.ext
  match a with
  | ⟨0, _⟩ => show win0_4.index t (0 : Fin 3) * 1 + 1 * 0 = t.val / 16; omega
  | ⟨1, _⟩ => show win0_4.index t (1 : Fin 3) * 1024 + 1 * q.val = 1024 * (t.val % 4) + q.val; omega
  | ⟨2, _⟩ => show win0_4.index t (2 : Fin 3) * 4 + 1 * j.val = j.val; omega

/-! ## The output blocks -/

/-- An index of the output array is in point `t`'s block iff its batch is `t`'s and its row lies in `t`'s source tile. -/
theorem mem_blk5 (t : Fin cfg0.N) (j : S2x4096x3.Idx) :
    j ∈ ((cfg0.win 5).blk t).view.set ↔ (j 0).val = t.val / 16 ∧ (j 1).val / 1024 = (t.val / 4) % 4 := by
  have h : j ∈ ((cfg0.win 5).blk t).view.set ↔ ∀ a : Fin 3, win0_5.index t a * S1x1024x3.size a ≤ (j a).val
      ∧ (j a).val < win0_5.index t a * S1x1024x3.size a + S1x1024x3.size a := by
    show j ∈ ((View.whole main_v29).slice (win0_5.rect t)).set ↔ _
    rw [View.set_slice_whole, Rect.mem_set_unit]
    exact Iff.rfl
  rw [h]
  obtain ⟨e0, e1, e2⟩ := idx_facts5 t
  have h2 : (j 2).val < 3 := (j 2).isLt
  constructor
  · intro hh
    have b0 : win0_5.index t (0 : Fin 3) * 1 ≤ (j 0).val ∧ (j 0).val < win0_5.index t (0 : Fin 3) * 1 + 1 := hh 0
    have b1 : win0_5.index t (1 : Fin 3) * 1024 ≤ (j 1).val ∧ (j 1).val < win0_5.index t (1 : Fin 3) * 1024 + 1024 := hh 1
    omega
  · rintro ⟨h0, h1⟩ a
    match a with
    | ⟨0, _⟩ => show win0_5.index t (0 : Fin 3) * 1 ≤ (j 0).val ∧ (j 0).val < win0_5.index t (0 : Fin 3) * 1 + 1; omega
    | ⟨1, _⟩ => show win0_5.index t (1 : Fin 3) * 1024 ≤ (j 1).val ∧ (j 1).val < win0_5.index t (1 : Fin 3) * 1024 + 1024; omega
    | ⟨2, _⟩ => show win0_5.index t (2 : Fin 3) * 3 ≤ (j 2).val ∧ (j 2).val < win0_5.index t (2 : Fin 3) * 3 + 3; omega

end Cert.KernelIdeal.Blk

end
-- ==== Proof.Spec.lean ====
/-
  The two programs as plain mathematics on the extended reals, index by index.

  Inputs: unit feature rows `fs`, `ft` (any extended reals: a zero row normalizes to a junk value, which
  both programs treat alike), point coordinates `cs`, `ct`, the temperature denominator `D`, the squared
  support radius `h100` and the regularizer `e8` of the final quotient.

  The reference weighs target point `m` for source point `n` by
  `exp (-(2 - 2 <fs n, ft m>) / D)` when `|cs n|² + |ct m|² - 2 <cs n, ct m> < h100` and by zero otherwise, and
  returns the weighted mean of the target coordinates minus the source coordinate.

  The kernel gets the same exponent and the same squared distance each as ONE inner product of augmented rows
  (`fsA`, `ftA` of length 65; `csA`, `ctA` of length 5), selects instead of multiplying by the mask, and sums
  the weights and the weighted coordinates together as the four columns of one product with the target
  coordinates augmented by a column of ones (`ct4`), tile by tile of 1024 target points.
-/
import Idealize.ShloMosaic.PureOps.Ideal

noncomputable section

namespace Cert.Spec

open Idealize.ShloMosaic

variable (fs ft : Fin 2 → Fin 4096 → Fin 64 → EReal) (cs ct : Fin 2 → Fin 4096 → Fin 3 → EReal) (D h100 e8 : EReal)

/-- The squared length of a coordinate row. -/
def sq3 (x : Fin 2 → Fin 4096 → Fin 3 → EReal) (b : Fin 2) (n : Fin 4096) : EReal := ∑ c : Fin 3, x b n c * x b n c

/-! ## The reference -/

/-- The squared distance, expanded. -/
def sqR (b : Fin 2) (n m : Fin 4096) : EReal := (sq3 cs b n + sq3 ct b m) - 2 * ∑ c : Fin 3, cs b n c * ct b m c

/-- The exponent: minus the feature distance `2 - 2 <fs n, ft m>` over `D`. -/
def argR (b : Fin 2) (n m : Fin 4096) : EReal := Ideal.div (-(2 - 2 * ∑ d : Fin 64, fs b n d * ft b m d)) D

/-- The masked weight. -/
def KR (b : Fin 2) (n m : Fin 4096) : EReal :=
  Ideal.exp (argR fs ft D b n m) * (if sqR cs ct b n m < h100 then 1 else 0)

/-- The reference's result. -/
def outR (b : Fin 2) (n : Fin 4096) (c : Fin 3) : EReal :=
  Ideal.div (∑ m : Fin 4096, KR fs ft cs ct D h100 b n m * ct b m c) ((∑ m : Fin 4096, KR fs ft cs ct D h100 b n m) + e8) - cs b n c

/-! ## The kernel -/

/-- The source feature row scaled by `2 / D`, with `-(2 / D)` appended. -/
def fsA (b : Fin 2) (n : Fin 4096) (d : Fin 65) : EReal :=
  if h : d.val < 64 then fs b n ⟨d.val, h⟩ * Ideal.div 2 D else (-(Ideal.div 2 D)) * 1

/-- The target feature row with `1` appended. -/
def ftA (b : Fin 2) (m : Fin 4096) (d : Fin 65) : EReal :=
  if h : d.val < 64 then ft b m ⟨d.val, h⟩ else 1

/-- The source coordinates, then `1`, then their squared length. -/
def csA (b : Fin 2) (n : Fin 4096) (k : Fin 5) : EReal :=
  if h : k.val < 3 then cs b n ⟨k.val, h⟩ else if k.val = 3 then 1 else sq3 cs b n

/-- Minus twice the target coordinates, then their squared length, then `1`. -/
def ctA (b : Fin 2) (m : Fin 4096) (k : Fin 5) : EReal :=
  if h : k.val < 3 then (-2) * ct b m ⟨k.val, h⟩ else if k.val = 3 then sq3 ct b m else 1

/-- The target coordinates with a column of ones appended. -/
def ct4 (b : Fin 2) (m : Fin 4096) (j : Fin 4) : EReal :=
  if h : j.val < 3 then ct b m ⟨j.val, h⟩ else 1

def argK (b : Fin 2) (n m : Fin 4096) : EReal := ∑ d : Fin 65, fsA fs D b n d * ftA ft b m d

def sqK (b : Fin 2) (n m : Fin 4096) : EReal := ∑ k : Fin 5, csA cs b n k * ctA ct b m k

def KK (b : Fin 2) (n m : Fin 4096) : EReal :=
  if sqK cs ct b n m < h100 then Ideal.exp (argK fs ft D b n m) else 0

/-- Target point `q` of tile `k`. -/
def tIdx (k : Fin 4) (q : Fin 1024) : Fin 4096 := ⟨1024 * k.val + q.val, by omega⟩

/-- One tile's contribution to column `j` of the accumulator. -/
def tile (b : Fin 2) (n : Fin 4096) (j : Fin 4) (k : Fin 4) : EReal :=
  ∑ q : Fin 1024, KK fs ft cs ct D h100 b n (tIdx k q) * ct4 ct b (tIdx k q) j

/-- The accumulator after the four tiles. -/
def accK (b : Fin 2) (n : Fin 4096) (j : Fin 4) : EReal :=
  ((tile fs ft cs ct D h100 b n j 0 + tile fs ft cs ct D h100 b n j 1) + tile fs ft cs ct D h100 b n j 2)
    + tile fs ft cs ct D h100 b n j 3

/-- The kernel's result. -/
def outK (b : Fin 2) (n : Fin 4096) (c : Fin 3) : EReal :=
  Ideal.div (accK fs ft cs ct D h100 b n ⟨c.val, by omega⟩) (accK fs ft cs ct D h100 b n 3 + e8) - cs b n c

end Cert.Spec

end
-- ==== Proof.HostK.lean ====
/-
  What the region finds in its five operand arrays, index by index.

  Before the region the program normalizes the two feature arrays row by row, forms the scale
  2 / (exp eps + c), and builds five augmented arrays by concatenation along the last axis:
    the source features times the scale, with minus the scale appended        (length 65),
    the target features with a one appended                                    (length 65),
    the source coordinates, a one, their squared length                        (length 5),
    minus twice the target coordinates, their squared length, a one            (length 5),
    the target coordinates with a one appended                                 (length 4).
  Read at an index these are the specification's augmented rows `fsA`, `ftA`, `csA`, `ctA`, `ct4`. Each
  normalization is carried as one function `nfeat` and never opened.
-/
import proofs.«429331_j45681272160506_3_alg».proof.Proof.FrameKI.Runs
import proofs.«429331_j45681272160506_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HostV

open Cert.KernelIdeal Cert.KernelIdeal.Gen Cert.KernelIdeal.Fr
open Idealize.ShloMosaic Idealize.ShloMosaic.TcCoe ValueIdx

/-! ## A three-operand host operation's result -/

section Nary3
open Idealize.ShloMosaic.StableHlo
variable {τ : Topo} {sig : RefSig} {Val : EltTy → Type} {x a b y : Ref sig .tc}

/-- A host operation over a literal family of three references leaves, at its result, its function applied to
    each operand's contents at that operand's own reference. -/
theorem nary3_result
    (f : ((k : Fin 3) → ((![x, a, b] : Fin 3 → Ref sig .tc) k).ty.Contents Val) → y.ty.Contents Val) (hxs hy)
    (G : Valuation τ sig Val) :
    (nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl

end Nary3

/-- The contents of one buffer after a literal line of host operations, operation by operation; a three-operand
    operation by the lemma above, so that its operands' contents are rewritten on. -/
macro "after_results3" : tactic =>
  `(tactic| (simp only [Idealize.ShloMosaic.StableHlo.after_cons, Idealize.ShloMosaic.StableHlo.after_nil]
             repeat (first
               | rw [Idealize.ShloMosaic.StableHlo.nullary_result] | rw [Idealize.ShloMosaic.StableHlo.unary_result]
               | rw [Idealize.ShloMosaic.StableHlo.binary_result] | rw [nary3_result]
               | (rw [Idealize.ShloMosaic.StableHlo.nullary_result_ne]; rotate_left; decide)
               | (rw [Idealize.ShloMosaic.StableHlo.unary_result_ne]; rotate_left; decide)
               | (rw [Idealize.ShloMosaic.StableHlo.binary_result_ne]; rotate_left; decide)
               | (rw [Idealize.ShloMosaic.StableHlo.nary_result_ne]; rotate_left; decide))))

/-! ## The operands as functions of the arguments -/

/-- A feature array with every row divided by the square root of the row's sum of squares. -/
def nfeat (x : FVec Ideal S2x4096x64 .f32) : FVec Ideal S2x4096x64 .f32 :=
  Host.divf x (broadcastInDim S2x4096x64 ![0, 1, 2] bcast_S2x4096x1_S2x4096x64_0_1_2
    (Host.sqrt (broadcastInDim S2x4096x1 ![0, 1] bcast_S2x4096_S2x4096x1_0_1
      (Host.reduceAdd (mulf x x) (constant (F := Ideal) S_ .f32 0x00000000#32) reducesTo_S2x4096x64_S2x4096_d2 h_S_))))

/-- The scale `2 / (exp eps + c)` as a scalar array; `c` is the program's literal `0x3CF5C28F`. -/
def scale (x4 : FVec Ideal S_ .f32) : FVec Ideal S_ .f32 :=
  Host.divf (constant (F := Ideal) S_ .f32 0x40000000#32)
    (addf (Host.exp x4) (constant (F := Ideal) S_ .f32 0x3CF5C28F#32))

/-- A column of ones. -/
def ones1 : FVec Ideal S2x4096x1 .f32 :=
  broadcastInDim S2x4096x1 ![] bcast_S_S2x4096x1 (constant (F := Ideal) S_ .f32 0x3F800000#32)

/-- The rows' squared lengths, as a column. -/
def rowsq (x : FVec Ideal S2x4096x3 .f32) : FVec Ideal S2x4096x1 .f32 :=
  broadcastInDim S2x4096x1 ![0, 1] bcast_S2x4096_S2x4096x1_0_1
    (Host.reduceAdd (mulf x x) (constant (F := Ideal) S_ .f32 0x00000000#32) reducesTo_S2x4096x3_S2x4096_d2 h_S_)

/-- The source features scaled, with minus the scale appended. -/
def t16 (x0 : FVec Ideal S2x4096x64 .f32) (x4 : FVec Ideal S_ .f32) : FVec Ideal S2x4096x65 .f32 :=
  concatenate S2x4096x65 2
    [⟨S2x4096x64, mulf (nfeat x0) (broadcastInDim S2x4096x64 ![] bcast_S_S2x4096x64 (scale x4))⟩,
     ⟨S2x4096x1, mulf (broadcastInDim S2x4096x1 ![] bcast_S_S2x4096x1 (Host.negf (scale x4))) ones1⟩]
    concatenates_S2x4096x64_S2x4096x1_S2x4096x65_d2

/-- The target features with a one appended. -/
def t17 (x1 : FVec Ideal S2x4096x64 .f32) : FVec Ideal S2x4096x65 .f32 :=
  concatenate S2x4096x65 2 [⟨S2x4096x64, nfeat x1⟩, ⟨S2x4096x1, ones1⟩]
    concatenates_S2x4096x64_S2x4096x1_S2x4096x65_d2

/-- The source coordinates, a one, their squared length. -/
def t24 (x2 : FVec Ideal S2x4096x3 .f32) : FVec Ideal S2x4096x5 .f32 :=
  concatenate S2x4096x5 2 [⟨S2x4096x3, x2⟩, ⟨S2x4096x1, ones1⟩, ⟨S2x4096x1, rowsq x2⟩]
    concatenates_S2x4096x3_S2x4096x1_S2x4096x1_S2x4096x5_d2

/-- Minus twice the target coordinates, their squared length, a one. -/
def t27 (x3 : FVec Ideal S2x4096x3 .f32) : FVec Ideal S2x4096x5 .f32 :=
  concatenate S2x4096x5 2
    [⟨S2x4096x3, mulf (broadcastInDim S2x4096x3 ![] bcast_S_S2x4096x3 (constant (F := Ideal) S_ .f32 0xC0000000#32)) x3⟩,
     ⟨S2x4096x1, rowsq x3⟩, ⟨S2x4096x1, ones1⟩]
    concatenates_S2x4096x3_S2x4096x1_S2x4096x1_S2x4096x5_d2

/-- The target coordinates with a one appended. -/
def t28 (x3 : FVec Ideal S2x4096x3 .f32) : FVec Ideal S2x4096x4 .f32 :=
  concatenate S2x4096x4 2 [⟨S2x4096x3, x3⟩, ⟨S2x4096x1, ones1⟩] concatenates_S2x4096x3_S2x4096x1_S2x4096x4_d2

/-! ## The literals as numbers -/

theorem ofBits_two : Ideal.ofBits .f32 0x40000000#32 = 2 := by
  simp [Ideal.ofBits, Ideal.ieee, -EReal.coe_mul]; norm_num; rfl
theorem ofBits_one : Ideal.ofBits .f32 0x3F800000#32 = 1 := by
  simp [Ideal.ofBits, Ideal.ieee, -EReal.coe_mul]; norm_num
theorem ofBits_neg_two : Ideal.ofBits .f32 0xC0000000#32 = -2 := by
  simp [Ideal.ofBits, Ideal.ieee, -EReal.coe_mul]; norm_num; rfl

/-! ## The pieces at an index -/

/-- A broadcast scalar reads the scalar everywhere. -/
theorem bcast0_apply {α : Type} {t : Shape} (h : S_.BroadcastsInDim t (![] : Fin 0 → Fin t.rank)) (y : S_.Idx → α) (j : t.Idx) :
    broadcastInDim t ![] h y j = y ix0 :=
  broadcastInDim_apply _ h y j ix0 (fun a => a.elim0)

/-- A column made from a matrix reads the matrix at the row. -/
theorem bcast01_apply {α : Type} (y : S2x4096.Idx → α) (b : Fin 2) (n : Fin 4096) (z : Fin 1) :
    broadcastInDim S2x4096x1 ![0, 1] bcast_S2x4096_S2x4096x1_0_1 y (ix3 b n z) = y (ix2 b n) :=
  broadcastInDim_apply _ _ y _ (ix2 b n) (fun a => by fin_cases a <;> rfl)

theorem ones1_apply (j : S2x4096x1.Idx) : ones1 j = 1 := by
  unfold ones1; rw [bcast0_apply]; exact ofBits_one

theorem scale_apply (x4 : FVec Ideal S_ .f32) :
    scale x4 ix0 = Ideal.div 2 (Ideal.exp (x4 ix0) + Ideal.ofBits .f32 0x3CF5C28F#32) := by
  show Ideal.div (Ideal.ofBits .f32 0x40000000#32) (Ideal.exp (x4 ix0) + Ideal.ofBits .f32 0x3CF5C28F#32) = _
  rw [ofBits_two]

/-- A row's squared length is the sum of its three squares. -/
theorem rowsq_apply (x : FVec Ideal S2x4096x3 .f32) (b : Fin 2) (n : Fin 4096) (z : Fin 1) :
    rowsq x (ix3 b n z) = Cert.Spec.sq3 (fun b n k => x (ix3 b n k)) b n := by
  unfold rowsq Cert.Spec.sq3
  rw [bcast01_apply]
  have hR : S2x4096x3.Reduces [2] S2x4096 := by decide
  show Ideal.hostReduceAdd reducesTo_S2x4096x3_S2x4096_d2 (mulf x x) (Ideal.ofBits .f32 0x00000000#32) (ix2 b n) = _
  rw [Ideal.hostReduceAdd_single _ hR, Ideal.ofBits_zero_f32, zero_add]
  show ∑ k : Fin 3, mulf x x (hR.lift (ix2 b n) k) = _
  refine Finset.sum_congr rfl fun k _ => ?_
  have e : hR.lift (ix2 b n) k = ix3 b n k := by
    funext a; fin_cases a <;> rfl
  rw [e]; rfl

/-! ## The operands at an index: the specification's augmented rows -/

/-- The scaled source features, then minus the scale. -/
theorem t16_apply (x0 : FVec Ideal S2x4096x64 .f32) (x4 : FVec Ideal S_ .f32) (b : Fin 2) (n : Fin 4096) (d : Fin 65) :
    t16 x0 x4 (ix3 b n d)
      = Cert.Spec.fsA (fun b n d => nfeat x0 (ix3 b n d)) (Ideal.exp (x4 ix0) + Ideal.ofBits .f32 0x3CF5C28F#32) b n d := by
  unfold t16 Cert.Spec.fsA
  by_cases h : d.val < 64
  · rw [dif_pos h]
    refine (concatenate_pair_apply_left (t := S2x4096x65) (s₁ := S2x4096x64) (s₂ := S2x4096x1) _ _ _ _ (ix3 b n d) rfl (ix3 b n (⟨d.val, h⟩ : Fin 64)) ?_).trans ?_
    · intro a; fin_cases a <;> rfl
    · show nfeat x0 (ix3 b n ⟨d.val, h⟩)
          * broadcastInDim S2x4096x64 ![] bcast_S_S2x4096x64 (scale x4) (ix3 b n ⟨d.val, h⟩) = _
      rw [bcast0_apply, scale_apply]
  · rw [dif_neg h]
    have := d.isLt
    refine (concatenate_pair_apply_right (t := S2x4096x65) (s₁ := S2x4096x64) (s₂ := S2x4096x1) _ _ _ _ (ix3 b n d) rfl rfl (ix3 b n (0 : Fin 1)) ?_ ?_).trans ?_
    · intro a ha; fin_cases a
      · rfl
      · rfl
      · exact absurd rfl ha
    · show 0 + 64 = d.val; omega
    · show broadcastInDim S2x4096x1 ![] bcast_S_S2x4096x1 (Host.negf (scale x4)) (ix3 b n 0) * ones1 (ix3 b n 0) = _
      rw [bcast0_apply, ones1_apply]
      show -(scale x4 ix0) * 1 = _
      rw [scale_apply]

/-- The target features, then a one. -/
theorem t17_apply (x1 : FVec Ideal S2x4096x64 .f32) (b : Fin 2) (n : Fin 4096) (d : Fin 65) :
    t17 x1 (ix3 b n d) = Cert.Spec.ftA (fun b n d => nfeat x1 (ix3 b n d)) b n d := by
  unfold t17 Cert.Spec.ftA
  by_cases h : d.val < 64
  · rw [dif_pos h]
    exact concatenate_pair_apply_left (t := S2x4096x65) (s₁ := S2x4096x64) (s₂ := S2x4096x1) _ _ _ _ (ix3 b n d) rfl (ix3 b n (⟨d.val, h⟩ : Fin 64))
      (by intro a; fin_cases a <;> rfl)
  · rw [dif_neg h]
    have := d.isLt
    refine (concatenate_pair_apply_right (t := S2x4096x65) (s₁ := S2x4096x64) (s₂ := S2x4096x1) _ _ _ _ (ix3 b n d) rfl rfl (ix3 b n (0 : Fin 1)) ?_ ?_).trans (ones1_apply _)
    · intro a ha; fin_cases a
      · rfl
      · rfl
      · exact absurd rfl ha
    · show 0 + 64 = d.val; omega

/-- The source coordinates, a one, their squared length. -/
theorem t24_apply (x2 : FVec Ideal S2x4096x3 .f32) (b : Fin 2) (n : Fin 4096) (k : Fin 5) :
    t24 x2 (ix3 b n k) = Cert.Spec.csA (fun b n k => x2 (ix3 b n k)) b n k := by
  unfold t24 Cert.Spec.csA
  have := k.isLt
  by_cases h : k.val < 3
  · rw [dif_pos h]
    refine concatenate_apply_piece (t := S2x4096x5) _ _ _ (ix3 b n k) 0 (by show (0 : ℕ) < 3; omega) S2x4096x3 x2 rfl rfl 0 rfl
      (ix3 b n (⟨k.val, h⟩ : Fin 3)) ?_ ?_
    · intro a ha; fin_cases a
      · rfl
      · rfl
      · exact absurd rfl ha
    · show 0 + k.val = k.val; omega
  · rw [dif_neg h]
    by_cases h3 : k.val = 3
    · rw [if_pos h3]
      refine (concatenate_apply_piece (t := S2x4096x5) _ _ _ (ix3 b n k) 1 (by show (1 : ℕ) < 3; omega) S2x4096x1 ones1 rfl rfl 3 rfl
        (ix3 b n (0 : Fin 1)) ?_ ?_).trans (ones1_apply _)
      · intro a ha; fin_cases a
        · rfl
        · rfl
        · exact absurd rfl ha
      · show 3 + 0 = k.val; omega
    · rw [if_neg h3]
      refine (concatenate_apply_piece (t := S2x4096x5) _ _ _ (ix3 b n k) 2 (by show (2 : ℕ) < 3; omega) S2x4096x1 (rowsq x2) rfl rfl 4 rfl
        (ix3 b n (0 : Fin 1)) ?_ ?_).trans (rowsq_apply x2 b n 0)
      · intro a ha; fin_cases a
        · rfl
        · rfl
        · exact absurd rfl ha
      · show 4 + 0 = k.val; omega

/-- Minus twice the target coordinates, their squared length, a one. -/
theorem t27_apply (x3 : FVec Ideal S2x4096x3 .f32) (b : Fin 2) (n : Fin 4096) (k : Fin 5) :
    t27 x3 (ix3 b n k) = Cert.Spec.ctA (fun b n k => x3 (ix3 b n k)) b n k := by
  unfold t27 Cert.Spec.ctA
  have := k.isLt
  by_cases h : k.val < 3
  · rw [dif_pos h]
    refine (concatenate_apply_piece (t := S2x4096x5) _ _ _ (ix3 b n k) 0 (by show (0 : ℕ) < 3; omega) S2x4096x3 _ rfl rfl 0 rfl
      (ix3 b n (⟨k.val, h⟩ : Fin 3)) ?_ ?_).trans ?_
    · intro a ha; fin_cases a
      · rfl
      · rfl
      · exact absurd rfl ha
    · show 0 + k.val = k.val; omega
    · show broadcastInDim S2x4096x3 ![] bcast_S_S2x4096x3 (constant (F := Ideal) S_ .f32 0xC0000000#32) (ix3 b n ⟨k.val, h⟩)
          * x3 (ix3 b n ⟨k.val, h⟩) = _
      rw [bcast0_apply]
      show Ideal.ofBits .f32 0xC0000000#32 * x3 (ix3 b n ⟨k.val, h⟩) = _
      rw [ofBits_neg_two]
  · rw [dif_neg h]
    by_cases h3 : k.val = 3
    · rw [if_pos h3]
      refine (concatenate_apply_piece (t := S2x4096x5) _ _ _ (ix3 b n k) 1 (by show (1 : ℕ) < 3; omega) S2x4096x1 (rowsq x3) rfl rfl 3 rfl
        (ix3 b n (0 : Fin 1)) ?_ ?_).trans (rowsq_apply x3 b n 0)
      · intro a ha; fin_cases a
        · rfl
        · rfl
        · exact absurd rfl ha
      · show 3 + 0 = k.val; omega
    · rw [if_neg h3]
      refine (concatenate_apply_piece (t := S2x4096x5) _ _ _ (ix3 b n k) 2 (by show (2 : ℕ) < 3; omega) S2x4096x1 ones1 rfl rfl 4 rfl
        (ix3 b n (0 : Fin 1)) ?_ ?_).trans (ones1_apply _)
      · intro a ha; fin_cases a
        · rfl
        · rfl
        · exact absurd rfl ha
      · show 4 + 0 = k.val; omega

/-- The target coordinates, then a one. -/
theorem t28_apply (x3 : FVec Ideal S2x4096x3 .f32) (b : Fin 2) (n : Fin 4096) (j : Fin 4) :
    t28 x3 (ix3 b n j) = Cert.Spec.ct4 (fun b n k => x3 (ix3 b n k)) b n j := by
  unfold t28 Cert.Spec.ct4
  have := j.isLt
  by_cases h : j.val < 3
  · rw [dif_pos h]
    exact concatenate_pair_apply_left (t := S2x4096x4) (s₁ := S2x4096x3) (s₂ := S2x4096x1) _ _ _ _ (ix3 b n j) rfl (ix3 b n (⟨j.val, h⟩ : Fin 3))
      (by intro a; fin_cases a <;> rfl)
  · rw [dif_neg h]
    refine (concatenate_pair_apply_right (t := S2x4096x4) (s₁ := S2x4096x3) (s₂ := S2x4096x1) _ _ _ _ (ix3 b n j) rfl rfl (ix3 b n (0 : Fin 1)) ?_ ?_).trans (ones1_apply _)
    · intro a ha; fin_cases a
      · rfl
      · rfl
      · exact absurd rfl ha
    · show 0 + 3 = j.val; omega

/-! ## What the region finds, as those functions of the arguments -/

section Found
variable (m : (ℓ : Loc nD τ sig) → Buf (Elt Ideal) ℓ) (c : Dev nD)

set_option maxHeartbeats 4000000 in
theorem v16_eq : (V m c main_v16 : S2x4096x65.Idx → EReal)
    = t16 (m ((c : Thread nD τ).loc main_arg0)) (m ((c : Thread nD τ).loc main_arg4)) := by
  dsimp only [V]
  simp only [hostOps0, hostOps0_1, hostOps0_2, hostOps0_3, List.flatten_cons, List.flatten_nil, List.append_nil, List.cons_append, List.nil_append]
  after_results3
  rfl

set_option maxHeartbeats 4000000 in
theorem v17_eq : (V m c main_v17 : S2x4096x65.Idx → EReal) = t17 (m ((c : Thread nD τ).loc main_arg1)) := by
  dsimp only [V]
  simp only [hostOps0, hostOps0_1, hostOps0_2, hostOps0_3, List.flatten_cons, List.flatten_nil, List.append_nil, List.cons_append, List.nil_append]
  after_results3
  rfl

set_option maxHeartbeats 4000000 in
theorem v24_eq : (V m c main_v24 : S2x4096x5.Idx → EReal) = t24 (m ((c : Thread nD τ).loc main_arg2)) := by
  dsimp only [V]
  simp only [hostOps0, hostOps0_1, hostOps0_2, hostOps0_3, List.flatten_cons, List.flatten_nil, List.append_nil, List.cons_append, List.nil_append]
  after_results3
  rfl

set_option maxHeartbeats 4000000 in
theorem v27_eq : (V m c main_v27 : S2x4096x5.Idx → EReal) = t27 (m ((c : Thread nD τ).loc main_arg3)) := by
  dsimp only [V]
  simp only [hostOps0, hostOps0_1, hostOps0_2, hostOps0_3, List.flatten_cons, List.flatten_nil, List.append_nil, List.cons_append, List.nil_append]
  after_results3
  rfl

set_option maxHeartbeats 4000000 in
theorem v28_eq : (V m c main_v28 : S2x4096x4.Idx → EReal) = t28 (m ((c : Thread nD τ).loc main_arg3)) := by
  dsimp only [V]
  simp only [hostOps0, hostOps0_1, hostOps0_2, hostOps0_3, List.flatten_cons, List.flatten_nil, List.append_nil, List.cons_append, List.nil_append]
  after_results3
  rfl

end Found

/-! ## What the region finds, at an index -/

section Final
variable (m : (ℓ : Loc nD τ sig) → Buf (Elt Ideal) ℓ) (c : Dev nD)

/-- The normalized source features by coordinates. -/
abbrev FS : Fin 2 → Fin 4096 → Fin 64 → EReal := fun b n d => nfeat (m ((c : Thread nD τ).loc main_arg0)) (ix3 b n d)
/-- The normalized target features by coordinates. -/
abbrev FT : Fin 2 → Fin 4096 → Fin 64 → EReal := fun b n d => nfeat (m ((c : Thread nD τ).loc main_arg1)) (ix3 b n d)
/-- The source coordinates by coordinates. -/
abbrev CS : Fin 2 → Fin 4096 → Fin 3 → EReal := fun b n k => m ((c : Thread nD τ).loc main_arg2) (ix3 b n k)
/-- The target coordinates by coordinates. -/
abbrev CT : Fin 2 → Fin 4096 → Fin 3 → EReal := fun b n k => m ((c : Thread nD τ).loc main_arg3) (ix3 b n k)
/-- The temperature denominator `exp eps + c`. -/
abbrev D : EReal := Ideal.exp (m ((c : Thread nD τ).loc main_arg4) ix0) + Ideal.ofBits .f32 0x3CF5C28F#32

theorem v16_apply (b : Fin 2) (n : Fin 4096) (d : Fin 65) :
    V m c main_v16 (ix3 b n d) = Cert.Spec.fsA (FS m c) (D m c) b n d :=
  (congrFun (v16_eq m c) (ix3 b n d)).trans (t16_apply _ _ b n d)

theorem v17_apply (b : Fin 2) (n : Fin 4096) (d : Fin 65) :
    V m c main_v17 (ix3 b n d) = Cert.Spec.ftA (FT m c) b n d :=
  (congrFun (v17_eq m c) (ix3 b n d)).trans (t17_apply _ b n d)

theorem v24_apply (b : Fin 2) (n : Fin 4096) (k : Fin 5) :
    V m c main_v24 (ix3 b n k) = Cert.Spec.csA (CS m c) b n k :=
  (congrFun (v24_eq m c) (ix3 b n k)).trans (t24_apply _ b n k)

theorem v27_apply (b : Fin 2) (n : Fin 4096) (k : Fin 5) :
    V m c main_v27 (ix3 b n k) = Cert.Spec.ctA (CT m c) b n k :=
  (congrFun (v27_eq m c) (ix3 b n k)).trans (t27_apply _ b n k)

theorem v28_apply (b : Fin 2) (n : Fin 4096) (j : Fin 4) :
    V m c main_v28 (ix3 b n j) = Cert.Spec.ct4 (CT m c) b n j :=
  (congrFun (v28_eq m c) (ix3 b n j)).trans (t28_apply _ b n j)

end Final

end Cert.KernelIdeal.HostV

end
-- ==== Proof.KTile.lean ====
/-
  The body's update and its final quotient at a grid point, as the specification's tile and quotient.

  At grid point `t` (batch `tb t`, source tile `ti t`, target tile `tk t`) the five input blocks are rows of the
  augmented operands: source rows `1024 (ti t) + p`, target rows `1024 (tk t) + q`. Those operands are, entry by entry, the
  specification's augmented rows of the normalized features and the coordinates. So the masked weighted sum the update adds
  at `(p, j)` is the specification's tile `tk t` for that source point, and the final quotient subtracts that source point's
  coordinate.
-/
import proofs.«429331_j45681272160506_3_alg».proof.Proof.Payload
import proofs.«429331_j45681272160506_3_alg».proof.Proof.Blocks
import proofs.«429331_j45681272160506_3_alg».proof.Proof.HostK
import proofs.«429331_j45681272160506_3_alg».proof.Proof.Spec
import proofs.«429331_j45681272160506_3_alg».proof.Proof.FrameKI.Runs

set_option maxRecDepth 16384

noncomputable section

namespace Cert.KernelIdeal.Val

open Cert.KernelIdeal Cert.KernelIdeal.Gen Cert.KernelIdeal.Fr Cert.KernelIdeal.Blk Cert.KernelIdeal.HostV Cert.KernelIdeal.Pay
open Idealize.ShloMosaic Idealize.ShloMosaic.TcCoe Idealize.ShloMosaic.ValueIdx

variable (m : (ℓ : Loc nD τ sig) → Buf (Elt Ideal) ℓ)

/-! ## The specification's inputs, read off the launch contents -/

/-- The normalized source feature rows. -/
abbrev FS (c : Dev nD) : Fin 2 → Fin 4096 → Fin 64 → EReal := fun b n d => nfeat (m ((c : Thread nD τ).loc main_arg0)) (ix3 b n d)
/-- The normalized target feature rows. -/
abbrev FT (c : Dev nD) : Fin 2 → Fin 4096 → Fin 64 → EReal := fun b n d => nfeat (m ((c : Thread nD τ).loc main_arg1)) (ix3 b n d)
/-- The source coordinates. -/
abbrev CS (c : Dev nD) : Fin 2 → Fin 4096 → Fin 3 → EReal := fun b n k => m ((c : Thread nD τ).loc main_arg2) (ix3 b n k)
/-- The target coordinates. -/
abbrev CT (c : Dev nD) : Fin 2 → Fin 4096 → Fin 3 → EReal := fun b n k => m ((c : Thread nD τ).loc main_arg3) (ix3 b n k)
/-- The temperature denominator. -/
abbrev DD (c : Dev nD) : EReal := Ideal.exp (m ((c : Thread nD τ).loc main_arg4) ix0) + Ideal.ofBits .f32 0x3CF5C28F#32
/-- The squared support radius. -/
abbrev H100 : EReal := Ideal.ofBits .f32 0x42C80000#32
/-- The regularizer of the final quotient. -/
abbrev E8 : EReal := Ideal.ofBits .f32 0x322BCC77#32

/-- Row `q` of tile `k` is the specification's target point `q` of tile `k`. -/
theorem row_eq_tIdx (k : Fin 4) (q : Fin 1024) : row k q = Cert.Spec.tIdx k q := rfl

/-! ## One tile's sum, from the rows it is made of -/

/-- The masked weighted sum over a tile's 1024 target points, when the source rows are the specification's augmented rows at
    source point `n` and the target rows are its augmented rows at the points of tile `k`, is the specification's tile. -/
theorem tile_of_rows (fs ft : Fin 2 → Fin 4096 → Fin 64 → EReal) (cs ct : Fin 2 → Fin 4096 → Fin 3 → EReal) (D h100 : EReal)
    (b : Fin 2) (n : Fin 4096) (k : Fin 4) (j : Fin 4)
    (a0 : Fin 65 → EReal) (a2 : Fin 5 → EReal) (x1 : Fin 1024 → Fin 65 → EReal) (x3 : Fin 1024 → Fin 5 → EReal)
    (x4 : Fin 1024 → EReal)
    (h0 : ∀ d, a0 d = Cert.Spec.fsA fs D b n d) (h2 : ∀ e, a2 e = Cert.Spec.csA cs b n e)
    (h1 : ∀ q d, x1 q d = Cert.Spec.ftA ft b (Cert.Spec.tIdx k q) d)
    (h3 : ∀ q e, x3 q e = Cert.Spec.ctA ct b (Cert.Spec.tIdx k q) e)
    (h4 : ∀ q, x4 q = Cert.Spec.ct4 ct b (Cert.Spec.tIdx k q) j) :
    (∑ q : Fin 1024, (if (∑ e : Fin 5, a2 e * x3 q e) < h100 then Ideal.exp (∑ d : Fin 65, a0 d * x1 q d) else 0) * x4 q)
      = Cert.Spec.tile fs ft cs ct D h100 b n j k := by
  unfold Cert.Spec.tile Cert.Spec.KK Cert.Spec.sqK Cert.Spec.argK
  refine Finset.sum_congr rfl fun q _ => ?_
  simp only [h0, h1, h2, h3, h4]

/-! ## The update and the final quotient at a grid point -/

/-- At grid point `t` the body's update adds to the accumulator, at `(p, j)`, the specification's tile `tk t` for source point
    `row (ti t) p` of batch `tb t`. -/
theorem upd_apply (c : Dev nD) (t : Fin cfg0.N) (xs : Vec Ideal S1024x4 .f32) (p : Fin 1024) (j : Fin 4) :
    k0_pay4 (iblk m c 0 t) (iblk m c 1 t) (iblk m c 2 t) (iblk m c 3 t) xs (iblk m c 4 t) (ix2 p j)
      = xs (ix2 p j) + Cert.Spec.tile (FS m c) (FT m c) (CS m c) (CT m c) (DD m c) H100 (tb t) (row (ti t) p) j (tk t) := by
  refine (pay4_apply (iblk m c 0 t) (iblk m c 1 t) (iblk m c 2 t) (iblk m c 3 t) xs (iblk m c 4 t) p j).trans ?_
  refine congrArg (xs (ix2 p j) + ·) ?_
  exact tile_of_rows (FS m c) (FT m c) (CS m c) (CT m c) (DD m c) H100 (tb t) (row (ti t) p) (tk t) j
    (fun d => iblk m c 0 t (ix3 0 p d)) (fun e => iblk m c 2 t (ix3 0 p e))
    (fun q d => iblk m c 1 t (ix3 0 q d)) (fun q e => iblk m c 3 t (ix3 0 q e)) (fun q => iblk m c 4 t (ix3 0 q j))
    (fun d => (blk0_apply m c t p d).trans (v16_apply m c (tb t) (row (ti t) p) d))
    (fun e => (blk2_apply m c t p e).trans (v24_apply m c (tb t) (row (ti t) p) e))
    (fun q d => (blk1_apply m c t q d).trans (v17_apply m c (tb t) (row (tk t) q) d))
    (fun q e => (blk3_apply m c t q e).trans (v27_apply m c (tb t) (row (tk t) q) e))
    (fun q => (blk4_apply m c t q j).trans (v28_apply m c (tb t) (row (tk t) q) j))

/-- At grid point `t` the stored result at `(0, p, k)` is accumulator column `k` over (column `3` plus the regularizer), minus
    coordinate `k` of source point `row (ti t) p` of batch `tb t`. -/
theorem quot_apply (c : Dev nD) (t : Fin cfg0.N) (acc : Vec Ideal S1024x4 .f32) (p : Fin 1024) (k : Fin 3) :
    k0_pay1 (k0_pay3 (iblk m c 2 t)) acc (ix3 0 p k)
      = Ideal.div (acc (ix2 p ⟨k.val, by omega⟩)) (acc (ix2 p 3) + E8) - CS m c (tb t) (row (ti t) p) k := by
  refine (pay1_apply (k0_pay3 (iblk m c 2 t)) acc p k).trans ?_
  refine congrArg (Ideal.div (acc (ix2 p ⟨k.val, by omega⟩)) (acc (ix2 p 3) + E8) - ·) ?_
  refine (pay3_apply (iblk m c 2 t) p ⟨k.val, by omega⟩).trans ?_
  refine (blk2_apply m c t p ⟨k.val, by omega⟩).trans ?_
  refine (v24_apply m c (tb t) (row (ti t) p) ⟨k.val, by omega⟩).trans ?_
  unfold Cert.Spec.csA
  exact dif_pos k.isLt

end Cert.KernelIdeal.Val

end
-- ==== Proof.KInv.lean ====
/-
  The accumulator after each grid point is the running sum of the tiles' contributions, and the block stored at a last
  tile is the kernel's result: by induction over the grid points, never by enumerating them.
-/
import proofs.«429331_j45681272160506_3_alg».proof.Proof.KPieces
import proofs.«429331_j45681272160506_3_alg».proof.Proof.KTile

set_option maxRecDepth 16384

noncomputable section

namespace Cert.KernelIdeal.Val

open Cert.KernelIdeal Cert.KernelIdeal.Gen Cert.KernelIdeal.Fr Cert.KernelIdeal.Blk Cert.KernelIdeal.Pay Idealize.ShloMosaic Idealize.ShloMosaic.TcCoe ValueIdx

variable (m : (ℓ : Loc nD τ sig) → Buf (Elt Ideal) ℓ)

/-! ## One point's step -/

/-- The accumulator update at point `t`, over the contents `xs` it finds. -/
abbrev upd (c : Dev nD) (t : Fin cfg0.N) (xs : Vec Ideal S1024x4 .f32) : FVec Ideal S1024x4 .f32 :=
  k0_pay4 (iblk m c 0 t) (iblk m c 1 t) (iblk m c 2 t) (iblk m c 3 t) xs (iblk m c 4 t)

theorem upd_at (c : Dev nD) (t : Fin cfg0.N) (xs : Vec Ideal S1024x4 .f32) (p : Fin 1024) (j : Fin 4) :
    upd m c t xs (ix2 p j)
      = xs (ix2 p j) + Cert.Spec.tile (FS m c) (FT m c) (CS m c) (CT m c) (DD m c) H100 (tb t) (row (ti t) p) j (tk t) :=
  upd_apply m c t xs p j

/-- After a first tile the accumulator is the update of the zero block. -/
theorem snd_first (c : Dev nD) (t : Fin cfg0.N) (h0 : t.val % 4 = 0) :
    (outsAt0 m c t.val t.isLt).2 = upd m c t (k0_pay2 (F := Ideal)) := by
  have h1 : ¬t.val % 4 = 3 := by omega
  rw [outsAt0_A m c t h0 h1]
  dsimp only
  exact sout_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)

/-- After a later tile it is the update of what the point before left. -/
theorem snd_later (c : Dev nD) (t : Fin cfg0.N) (h0 : ¬t.val % 4 = 0) :
    (outsAt0 m c t.val t.isLt).2 = upd m c t (outsAt0 m c (t.val - 1) (Nat.lt_of_le_of_lt (Nat.sub_le _ _) t.isLt)).2 := by
  by_cases h1 : t.val % 4 = 3
  · rw [outsAt0_C m c t h0 h1]
    dsimp only
    exact sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) _
  · rw [outsAt0_B m c t h0 h1]
    dsimp only
    exact sout_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) _

/-- After a last tile the output block's buffer holds the final quotient of the accumulator just updated. -/
theorem fst_last (c : Dev nD) (t : Fin cfg0.N) (h3 : t.val % 4 = 3) :
    (outsAt0 m c t.val t.isLt).1 = k0_pay1 (k0_pay3 (iblk m c 2 t)) (outsAt0 m c t.val t.isLt).2 := by
  have h0 : ¬t.val % 4 = 0 := by omega
  rw [outsAt0_C m c t h0 h3]
  dsimp only
  rw [sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h3) (iblk m c 0 t) (iblk m c 1 t) (iblk m c 2 t) (iblk m c 3 t) (iblk m c 4 t) _]
  exact out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h3) (iblk m c 0 t) (iblk m c 1 t) (iblk m c 2 t) (iblk m c 3 t) (iblk m c 4 t) _

/-! ## The accumulator after each point is the running sum of the tiles -/

/-- Tile `k`'s contribution to column `j` at source row `n` (zero past the fourth tile). -/
def tileN (c : Dev nD) (b : Fin 2) (n : Fin 4096) (j : Fin 4) (k : ℕ) : EReal :=
  if h : k < 4 then Cert.Spec.tile (FS m c) (FT m c) (CS m c) (CT m c) (DD m c) H100 b n j ⟨k, h⟩ else 0

/-- The running sum over the tiles `0 … k`, in the kernel's order. -/
def accN (c : Dev nD) (b : Fin 2) (n : Fin 4096) (j : Fin 4) : ℕ → EReal
  | 0 => tileN m c b n j 0
  | k + 1 => accN c b n j k + tileN m c b n j (k + 1)

theorem tileN_tk (c : Dev nD) (t : Fin cfg0.N) (b : Fin 2) (n : Fin 4096) (j : Fin 4) :
    Cert.Spec.tile (FS m c) (FT m c) (CS m c) (CT m c) (DD m c) H100 b n j (tk t) = tileN m c b n j (t.val % 4) := by
  unfold tileN
  rw [dif_pos (Nat.mod_lt _ (by decide))]
  rfl

theorem accN_three (c : Dev nD) (b : Fin 2) (n : Fin 4096) (j : Fin 4) :
    accN m c b n j 3 = Cert.Spec.accK (FS m c) (FT m c) (CS m c) (CT m c) (DD m c) H100 b n j := by
  show ((tileN m c b n j 0 + tileN m c b n j 1) + tileN m c b n j 2) + tileN m c b n j 3 = _
  unfold tileN Cert.Spec.accK
  rw [dif_pos (by decide), dif_pos (by decide), dif_pos (by decide), dif_pos (by decide)]
  rfl

/-- The invariant: after point `n`, whose target tile is `n % 4`, row `p` of the accumulator holds the running sum over
    the tiles `0 … n % 4` for the point's batch and source row. By induction on the point: a first tile starts the sum
    anew, a later tile adds to what the point before left, and the point before has the same batch and source tile. -/
theorem acc_inv (c : Dev nD) : ∀ (n : ℕ) (hn : n < cfg0.N) (p : Fin 1024) (j : Fin 4),
    (outsAt0 m c n hn).2 (ix2 p j) = accN m c (tb ⟨n, hn⟩) (row (ti ⟨n, hn⟩) p) j (n % 4) := by
  intro n
  induction n with
  | zero =>
    intro hn p j
    rw [snd_first m c ⟨0, hn⟩ rfl, upd_at, pay2_apply, zero_add, tileN_tk]
    rfl
  | succ n ih =>
    intro hn p j
    by_cases h0 : (n + 1) % 4 = 0
    · rw [snd_first m c ⟨n + 1, hn⟩ h0, upd_at, pay2_apply, zero_add, tileN_tk]
      show tileN m c _ _ j ((n + 1) % 4) = accN m c _ _ j ((n + 1) % 4)
      rw [h0]
      rfl
    · rw [snd_later m c ⟨n + 1, hn⟩ h0, upd_at, tileN_tk]
      have e : (n + 1) % 4 = n % 4 + 1 := by omega
      have hb : tb ⟨n + 1, hn⟩ = tb ⟨n, Nat.lt_of_succ_lt hn⟩ := Fin.ext (by show (n + 1) / 16 = n / 16; omega)
      have hi : ti ⟨n + 1, hn⟩ = ti ⟨n, Nat.lt_of_succ_lt hn⟩ := Fin.ext (by show ((n + 1) / 4) % 4 = (n / 4) % 4; omega)
      show (outsAt0 m c n _).2 (ix2 p j) + tileN m c _ _ j ((n + 1) % 4) = accN m c _ _ j ((n + 1) % 4)
      rw [e, hb, hi, ih (Nat.lt_of_succ_lt hn) p j]
      rfl

/-- So the output block stored at a last tile is the kernel's result for the point's batch and source rows. -/
theorem last_out (c : Dev nD) (t : Fin cfg0.N) (h3 : t.val % 4 = 3) (p : Fin 1024) (k : Fin 3) :
    (outsAt0 m c t.val t.isLt).1 (ix3 0 p k)
      = Cert.Spec.outK (FS m c) (FT m c) (CS m c) (CT m c) (DD m c) H100 E8 (tb t) (row (ti t) p) k := by
  rw [fst_last m c t h3, quot_apply, acc_inv m c t.val t.isLt p ⟨k.val, by omega⟩, acc_inv m c t.val t.isLt p 3, h3,
    accN_three, accN_three]
  rfl

end Cert.KernelIdeal.Val

end
-- ==== Proof.KFinal.lean ====
/-
  From the output block after each last tile to the result array after the run.

  The output window's block at grid point `t` (batch `t / 16`, source tile `(t / 4) % 4`, target tile `t % 4`) is
  batch `t / 16`, rows `1024 ((t / 4) % 4) + p` for `p < 1024`, all three coordinates, of the result array
  [2, 4096, 3]; it is written back exactly after the last target tile, `t % 4 = 3`. If what the block's buffer holds
  after every last tile is that block of ONE whole-array function `G`, then, since the eight written blocks (two
  batches, four source tiles) tile the array, the array ends holding `G`: index `(b, r, k)` is covered by the point
  `16 b + 4 (r / 1024) + 3`.
-/
import proofs.«429331_j45681272160506_3_alg».proof.Proof.FrameKI.Frame
import proofs.«429331_j45681272160506_3_alg».proof.Proof.Blocks
import Idealize.ShloMosaic.Lib.Pipeline.Value
import Idealize.ShloMosaic.Lib.ValueIdx

set_option maxRecDepth 16384

noncomputable section

namespace Cert.KernelIdeal.Fin

open Cert.KernelIdeal Cert.KernelIdeal.Gen Cert.KernelIdeal.Fr Cert.KernelIdeal.Blk
open Idealize.ShloMosaic Idealize.ShloMosaic.TcCoe ValueIdx
open Idealize.ShloMosaic.Pipeline (Dat)

variable {F : FTy → Type} [FloatOps F]
variable (m : (ℓ : Loc nD τ sig) → Buf (Elt F) ℓ)

/-- A function of three bounded coordinates takes equal values at coordinates equal as naturals. -/
theorem apply3_congr {α : Type} (G : Fin 2 → Fin 4096 → Fin 3 → α) {a a' : Fin 2} {b b' : Fin 4096} {k k' : Fin 3}
    (ha : a.val = a'.val) (hb : b.val = b'.val) (hk : k.val = k'.val) : G a b k = G a' b' k' := by
  rw [Fin.ext ha, Fin.ext hb, Fin.ext hk]

/-- The whole-array contents a function of the three coordinates names. -/
abbrev arrOf (G : Fin 2 → Fin 4096 → Fin 3 → Elt F .f32) : S2x4096x3.Idx → Elt F .f32 := fun j => G (j 0) (j 1) (j 2)

/-- WHAT A LAST TILE WRITES BACK is its block of `G`: entry `(0, p, k)` of the block sits at
    `(t / 16, 1024 ((t / 4) % 4) + p, k)` of the array. -/
theorem flushed_eq (c : Dev nD) (G : Fin 2 → Fin 4096 → Fin 3 → Elt F .f32)
    (hlast : ∀ (t : Fin cfg0.N), t.val % 4 = 3 → ∀ (p : Fin 1024) (k : Fin 3),
      (outsAt0 m c t.val t.isLt).1 (ix3 0 p k) = G (tb t) (row (ti t) p) k)
    (t : Fin cfg0.N) (hf : (cfg0.win 5).flush t = true) :
    (dats m 0 c).flushed 5 t = ((cfg0.win 5).blk t).view.read (Elt F) (arrOf G) := by
  have h3 : t.val % 4 = 3 := (flush0_5 t).mp hf
  obtain ⟨e0, e1, e2⟩ := idx_facts5 t
  show (cfg0.win 5).cut (grid0.coords t) ((dats m 0 c).after 5 t) = _
  rw [after0_5]
  funext y
  have hy0 : (y 0).val < 1 := (y 0).isLt
  have hy1 : (y 1).val < 1024 := (y 1).isLt
  have hy2 : (y 2).val < 3 := (y 2).isLt
  have e : (cfg0.win 5).xinj (grid0.coords t) y = ix3 (0 : Fin 1) (⟨(y 1).val, hy1⟩ : Fin 1024) (⟨(y 2).val, hy2⟩ : Fin 3) := by
    funext a; apply Fin.ext
    match a with
    | ⟨0, _⟩ => show (y 0).val = 0; omega
    | ⟨1, _⟩ => rfl
    | ⟨2, _⟩ => rfl
  show (outsAt0 m c t.val t.isLt).1 ((cfg0.win 5).xinj (grid0.coords t) y) = _
  rw [e, hlast t h3]
  refine apply3_congr G (a' := ((cfg0.win 5).blk t).view.emb y 0) (b' := ((cfg0.win 5).blk t).view.emb y 1)
    (k' := ((cfg0.win 5).blk t).view.emb y 2) ?_ ?_ ?_
  · show t.val / 16 = win0_5.index t (0 : Fin 3) * 1 + 1 * (y 0).val
    omega
  · show 1024 * ((t.val / 4) % 4) + (y 1).val = win0_5.index t (1 : Fin 3) * 1024 + 1 * (y 1).val
    omega
  · show (y 2).val = win0_5.index t (2 : Fin 3) * 3 + 1 * (y 2).val
    omega

/-- THE COVER: index `(b, r, k)` of the array lies in the block written back at the point `16 b + 4 (r / 1024) + 3`. -/
theorem cover (j : S2x4096x3.Idx) :
    ∃ t : Fin cfg0.N, (cfg0.win 5).flush t = true ∧ j ∈ ((cfg0.win 5).blk t).view.set := by
  have h0 : (j 0).val < 2 := (j 0).isLt
  have h1 : (j 1).val < 4096 := (j 1).isLt
  have hN : cfg0.N = 32 := N_0
  refine ⟨⟨16 * (j 0).val + 4 * ((j 1).val / 1024) + 3, by omega⟩, ?_, ?_⟩
  · rw [flush0_5]
    show (16 * (j 0).val + 4 * ((j 1).val / 1024) + 3) % 4 = 3
    omega
  · rw [mem_blk5]
    show (j 0).val = (16 * (j 0).val + 4 * ((j 1).val / 1024) + 3) / 16
      ∧ (j 1).val / 1024 = ((16 * (j 0).val + 4 * ((j 1).val / 1024) + 3) / 4) % 4
    omega

/-- THE ARRAY after the run is `G`, when the block's buffer after every last tile is that tile's block of `G`. -/
theorem final_of_last (c : Dev nD) (G : Fin 2 → Fin 4096 → Fin 3 → Elt F .f32)
    (hlast : ∀ (t : Fin cfg0.N), t.val % 4 = 3 → ∀ (p : Fin 1024) (k : Fin 3),
      (outsAt0 m c t.val t.isLt).1 (ix3 0 p k) = G (tb t) (row (ti t) p) k) :
    (dats m 0 c).arrAt 5 cfg0.N = fun j : S2x4096x3.Idx => G (j 0) (j 1) (j 2) :=
  (dats m 0 c).arrAt_eq_of_cover 5 (arrOf G) (flushed_eq m c G hlast) cover

end Cert.KernelIdeal.Fin

end
-- ==== Proof.KRun.lean ====
/-
  The idealized kernel's run, read: the result array ends holding the kernel's result as ONE function of the arguments —
  each of its blocks is written back once, after the last tile of its batch and source tile —, the arguments unchanged.
-/
import proofs.«429331_j45681272160506_3_alg».proof.Proof.KInv
import proofs.«429331_j45681272160506_3_alg».proof.Proof.KFinal

set_option maxRecDepth 16384

noncomputable section

namespace Cert.KernelIdeal.Val

open Cert.KernelIdeal Cert.KernelIdeal.Gen Cert.KernelIdeal.Fr Cert.KernelIdeal.Blk Idealize.ShloMosaic Idealize.ShloMosaic.TcCoe Idealize.SL.Sem ValueIdx

variable (m : (ℓ : Loc nD τ sig) → Buf (Elt Ideal) ℓ) (ρ : Dev nD → PrngReg)

/-- The result array as one function of the arguments. -/
abbrev Gout (c : Dev nD) : S2x4096x3.Idx → EReal :=
  fun j => Cert.Spec.outK (FS m c) (FT m c) (CS m c) (CT m c) (DD m c) H100 E8 (j 0) (j 1) (j 2)

/-- After the run the result array holds it: the last tiles' blocks cover the array. -/
theorem final (c : Dev nD) : (dats m 0 c).arrAt 5 cfg0.N = Gout m c :=
  Cert.KernelIdeal.Fin.final_of_last m c (Cert.Spec.outK (FS m c) (FT m c) (CS m c) (CT m c) (DD m c) H100 E8)
    (fun t h3 p k => last_out m c t h3 p k)

/-- The run, read. -/
theorem run : θ_run defs (onTc (τ := τ) (main (F := Ideal))) ⟨m, fun _ => 0, ρ⟩ (fun r => ∀ c : Dev nD,
      r.2.mem ((c.tc : Thread nD τ).loc main_v29) = Gout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 5).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main (F := Ideal) m ρ)

end Cert.KernelIdeal.Val

end
-- ==== Proof.RefValue.lean ====
import proofs.«429331_j45681272160506_3_alg».proof.Proof.Gen.ReferenceIdeal.Read
import proofs.«429331_j45681272160506_3_alg».proof.Proof.Spec

/-!
  The reference program's result, read at an index (b, n, k), is the specification's outR.

  The two feature arrays enter only through their row-normalized forms, which are carried as one function nfeat
  and never opened.  The rest is read stage by stage: the squared distance of source point n and target point m,
  the exponent (minus the feature distance over the temperature denominator), the masked weight, its sum over the
  target points, the weighted sum of the target coordinates, and last the quotient minus the source coordinate.
-/

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-- A feature array with every row divided by the square root of the sum of its squares. -/
def nfeat (x : FVec Ideal S2x4096x64 .f32) : FVec Ideal S2x4096x64 .f32 :=
  Host.divf x (broadcastInDim S2x4096x64 ![0, 1, 2] bcast_S2x4096x1_S2x4096x64_0_1_2 (Host.sqrt (broadcastInDim S2x4096x1 ![0, 1] bcast_S2x4096_S2x4096x1_0_1
    (Host.reduceAdd (mulf x x) (constant (F := Ideal) S_ .f32 0x00000000#32) reducesTo_S2x4096x64_S2x4096_d2 h_S_))))

/-- The normalized source features are the program's third stage. -/
theorem v2_eq (x0 : FVec Ideal S2x4096x64 .f32) : Read.val_main_v2 (F := Ideal) x0 = nfeat x0 := rfl

/-- The normalized target features are the program's sixth stage. -/
theorem v5_eq (x1 : FVec Ideal S2x4096x64 .f32) : Read.val_main_v5 (F := Ideal) x1 = nfeat x1 := rfl

/-- The word of the float 2.0 denotes the number two. -/
theorem two_eq : Ideal.ofBits .f32 0x40000000#32 = 2 := by
  have h : Ideal.ofBits .f32 0x40000000#32 = ((2 : ℝ) : EReal) := by
    simp [Ideal.ofBits, Ideal.ieee, -EReal.coe_mul]; norm_num
  rw [h]; norm_cast

/-- A strict comparison converted to a float is the indicator of the inequality. -/
theorem mask_eq (x y : Ideal .f32) :
    FloatOps.uitofp (F := Ideal) .f32 (FloatOps.cmpf (F := Ideal) .olt x y) = if x < y then (1 : EReal) else 0 := by
  show (((Ideal.cmp .olt x y).toNat : ℝ) : EReal) = _
  by_cases h : x < y
  · simp [Ideal.cmp, h]
  · simp [Ideal.cmp, h]

/-! ## Index equations: the composed index maps of the stages, at an index given by its coordinates -/

/-- The squared length of source row (b, n) sums over the coordinates of that row. -/
theorem idx_sqs (b : Fin 2) (n m : Fin 4096) (k : Fin 3) :
    Read.idx_main_v7 (Read.idx_main_v8 (Read.idx_main_v14 (ix3 b n m))) k = ix3 b n k :=
  funext fun a => Fin.ext (by match a with | ⟨0, _⟩ => rfl | ⟨1, _⟩ => rfl | ⟨2, _⟩ => rfl)

/-- The squared length of target row (b, m) sums over the coordinates of that row. -/
theorem idx_sqt (b : Fin 2) (n m : Fin 4096) (k : Fin 3) :
    Read.idx_main_v10 (Read.idx_main_v11 (Read.idx_main_v13 (Read.idx_main_v15 (ix3 b n m)))) k = ix3 b m k :=
  funext fun a => Fin.ext (by match a with | ⟨0, _⟩ => rfl | ⟨1, _⟩ => rfl | ⟨2, _⟩ => rfl)

theorem lidx_v12 (b : Fin 2) (n m : Fin 4096) (k : Fin 3) : Read.lidx_main_v12 (ix3 b n m) k = ix3 b n k :=
  funext fun a => Fin.ext (by match a with | ⟨0, _⟩ => rfl | ⟨1, _⟩ => rfl | ⟨2, _⟩ => rfl)

theorem ridx_v12 (b : Fin 2) (n m : Fin 4096) (k : Fin 3) : Read.ridx_main_v12 (ix3 b n m) k = ix3 b m k :=
  funext fun a => Fin.ext (by match a with | ⟨0, _⟩ => rfl | ⟨1, _⟩ => rfl | ⟨2, _⟩ => rfl)

theorem lidx_v23 (b : Fin 2) (n m : Fin 4096) (k : Fin 64) : Read.lidx_main_v23 (ix3 b n m) k = ix3 b n k :=
  funext fun a => Fin.ext (by match a with | ⟨0, _⟩ => rfl | ⟨1, _⟩ => rfl | ⟨2, _⟩ => rfl)

theorem ridx_v23 (b : Fin 2) (n m : Fin 4096) (k : Fin 64) : Read.ridx_main_v23 (ix3 b n m) k = ix3 b m k :=
  funext fun a => Fin.ext (by match a with | ⟨0, _⟩ => rfl | ⟨1, _⟩ => rfl | ⟨2, _⟩ => rfl)

theorem idx_v35 (b : Fin 2) (n : Fin 4096) (m : Fin 4096) : Read.idx_main_v35 (ix2 b n) m = ix3 b n m :=
  funext fun a => Fin.ext (by match a with | ⟨0, _⟩ => rfl | ⟨1, _⟩ => rfl | ⟨2, _⟩ => rfl)

theorem lidx_v37 (b : Fin 2) (n : Fin 4096) (k : Fin 3) (m : Fin 4096) : Read.lidx_main_v37 (ix3 b n k) m = ix3 b n m :=
  funext fun a => Fin.ext (by match a with | ⟨0, _⟩ => rfl | ⟨1, _⟩ => rfl | ⟨2, _⟩ => rfl)

theorem ridx_v37 (b : Fin 2) (n : Fin 4096) (k : Fin 3) (m : Fin 4096) : Read.ridx_main_v37 (ix3 b n k) m = ix3 b m k :=
  funext fun a => Fin.ext (by match a with | ⟨0, _⟩ => rfl | ⟨1, _⟩ => rfl | ⟨2, _⟩ => rfl)

/-- The row sum of the weights that the quotient at (b, n, k) divides by is the one of row (b, n). -/
theorem idx_den (b : Fin 2) (n : Fin 4096) (k : Fin 3) :
    Read.idx_main_v36 (Read.idx_main_v40 (ix3 b n k)) = ix2 b n :=
  funext fun a => Fin.ext (by match a with | ⟨0, _⟩ => rfl | ⟨1, _⟩ => rfl)

/-! ## The stages -/

/-- The squared distance of source point n and target point m. -/
theorem sq_apply (x2 x3 : FVec Ideal S2x4096x3 .f32) (b : Fin 2) (n m : Fin 4096) :
    Read.val_main_v19 (F := Ideal) x2 x3 (ix3 b n m)
      = Cert.Spec.sqR (fun b n c => x2 (ix3 b n c)) (fun b n c => x3 (ix3 b n c)) b n m := by
  rw [Read.val_main_v19_apply, Read.val_main_v16_apply, Read.val_main_v14_apply, Read.val_main_v8_apply, Read.val_main_v7_apply,
    Read.val_main_v15_apply, Read.val_main_v13_apply, Read.val_main_v11_apply, Read.val_main_v10_apply,
    Read.val_main_v18_apply, Read.val_main_v17_apply, Read.val_main_v12_apply]
  simp only [Read.val_main_v6_apply, Read.val_main_v9_apply, Read.val_main_cst_apply, Read.val_main_cst_0_apply, Read.val_main_cst_1_apply,
    idx_sqs, idx_sqt, lidx_v12, ridx_v12,
    Ideal.ofBits_def, Ideal.addf_def, Ideal.subf_def, Ideal.mulf_def, Ideal.ofBits_zero_f32, zero_add, two_eq]
  rfl

/-- The exponent: minus the feature distance of the normalized rows, over the temperature denominator. -/
theorem arg_apply (x0 x1 : FVec Ideal S2x4096x64 .f32) (x4 : FVec Ideal S_ .f32) (b : Fin 2) (n m : Fin 4096) :
    Read.val_main_v32 (F := Ideal) x0 x1 x4 (ix3 b n m)
      = Cert.Spec.argR (fun b n d => nfeat x0 (ix3 b n d)) (fun b n d => nfeat x1 (ix3 b n d))
          (Ideal.exp (x4 ix0) + Ideal.ofBits .f32 0x3CF5C28F#32) b n m := by
  rw [Read.val_main_v32_apply, Read.val_main_v28_apply, Read.val_main_v27_apply, Read.val_main_v26_apply, Read.val_main_v25_apply,
    Read.val_main_v24_apply, Read.val_main_v23_apply, Read.val_main_v31_apply, Read.val_main_v30_apply, Read.val_main_v29_apply]
  simp only [Read.val_main_cst_3_apply, Read.val_main_cst_4_apply, Read.val_main_cst_5_apply, v2_eq, v5_eq, lidx_v23, ridx_v23,
    Ideal.ofBits_def, Ideal.addf_def, Ideal.subf_def, Ideal.mulf_def, Ideal.hostDivf_def, Ideal.hostNegf_def, Ideal.negf_def,
    Ideal.hostUnary_exp_def, two_eq]
  rfl

/-- The masked weight of target point m for source point n. -/
theorem K_apply (x0 x1 : FVec Ideal S2x4096x64 .f32) (x2 x3 : FVec Ideal S2x4096x3 .f32) (x4 : FVec Ideal S_ .f32)
    (b : Fin 2) (n m : Fin 4096) :
    Read.val_main_v34 (F := Ideal) x0 x1 x2 x3 x4 (ix3 b n m)
      = Cert.Spec.KR (fun b n d => nfeat x0 (ix3 b n d)) (fun b n d => nfeat x1 (ix3 b n d))
          (fun b n c => x2 (ix3 b n c)) (fun b n c => x3 (ix3 b n c))
          (Ideal.exp (x4 ix0) + Ideal.ofBits .f32 0x3CF5C28F#32) (Ideal.ofBits .f32 0x42C80000#32) b n m := by
  rw [Read.val_main_v34_apply, Read.val_main_v33_apply, Read.val_main_v22_apply, Read.val_main_v21_apply, Read.val_main_v20_apply,
    arg_apply, sq_apply, mask_eq]
  simp only [Read.val_main_cst_2_apply, Ideal.ofBits_def, Ideal.mulf_def, Ideal.hostUnary_exp_def]
  rfl

/-- The sum of the weights of row (b, n). -/
theorem rowsum_apply (x0 x1 : FVec Ideal S2x4096x64 .f32) (x2 x3 : FVec Ideal S2x4096x3 .f32) (x4 : FVec Ideal S_ .f32)
    (b : Fin 2) (n : Fin 4096) :
    Read.val_main_v35 (F := Ideal) x0 x1 x2 x3 x4 (ix2 b n)
      = ∑ m : Fin 4096, Cert.Spec.KR (fun b n d => nfeat x0 (ix3 b n d)) (fun b n d => nfeat x1 (ix3 b n d))
          (fun b n c => x2 (ix3 b n c)) (fun b n c => x3 (ix3 b n c))
          (Ideal.exp (x4 ix0) + Ideal.ofBits .f32 0x3CF5C28F#32) (Ideal.ofBits .f32 0x42C80000#32) b n m := by
  rw [Read.val_main_v35_apply]
  simp only [Read.val_main_cst_6_apply, idx_v35, K_apply, Ideal.ofBits_def, Ideal.ofBits_zero_f32, zero_add]

/-- The weighted sum of coordinate k of the target points. -/
theorem wsum_apply (x0 x1 : FVec Ideal S2x4096x64 .f32) (x2 x3 : FVec Ideal S2x4096x3 .f32) (x4 : FVec Ideal S_ .f32)
    (b : Fin 2) (n : Fin 4096) (k : Fin 3) :
    Read.val_main_v37 (F := Ideal) x0 x1 x2 x3 x4 (ix3 b n k)
      = ∑ m : Fin 4096, Cert.Spec.KR (fun b n d => nfeat x0 (ix3 b n d)) (fun b n d => nfeat x1 (ix3 b n d))
          (fun b n c => x2 (ix3 b n c)) (fun b n c => x3 (ix3 b n c))
          (Ideal.exp (x4 ix0) + Ideal.ofBits .f32 0x3CF5C28F#32) (Ideal.ofBits .f32 0x42C80000#32) b n m * x3 (ix3 b m k) := by
  rw [Read.val_main_v37_apply]
  simp only [lidx_v37, ridx_v37, K_apply]

/-- The reference's result at (b, n, k): the weighted mean of the target coordinates minus the source coordinate. -/
theorem ref_apply (x0 x1 : FVec Ideal S2x4096x64 .f32) (x2 x3 : FVec Ideal S2x4096x3 .f32) (x4 : FVec Ideal S_ .f32)
    (b : Fin 2) (n : Fin 4096) (k : Fin 3) :
    Read.val_main_v42 (F := Ideal) x0 x1 x2 x3 x4 (ix3 b n k)
      = Cert.Spec.outR (fun b n d => nfeat x0 (ix3 b n d)) (fun b n d => nfeat x1 (ix3 b n d))
          (fun b n c => x2 (ix3 b n c)) (fun b n c => x3 (ix3 b n c))
          (Ideal.exp (x4 ix0) + Ideal.ofBits .f32 0x3CF5C28F#32) (Ideal.ofBits .f32 0x42C80000#32)
          (Ideal.ofBits .f32 0x322BCC77#32) b n k := by
  rw [Read.val_main_v42_apply, Read.val_main_v41_apply, Read.val_main_v40_apply, Read.val_main_v39_apply, Read.val_main_v36_apply,
    Read.val_main_v38_apply, idx_den, wsum_apply, rowsum_apply]
  simp only [Read.val_main_cst_7_apply, Ideal.ofBits_def, Ideal.addf_def, Ideal.subf_def, Ideal.hostDivf_def]
  rfl

/-- The same at the run's term, for a memory and a device. -/
theorem res_apply (m : (ℓ : Loc nD τ sig) → Buf (Elt Ideal) ℓ) (c : Dev nD) (b : Fin 2) (n : Fin 4096) (k : Fin 3) :
    Value.res_main_v42 (F := Ideal) m c (ix3 b n k)
      = Cert.Spec.outR (fun b n d => nfeat (m ((c.tc : Thread nD τ).loc main_arg0)) (ix3 b n d))
          (fun b n d => nfeat (m ((c.tc : Thread nD τ).loc main_arg1)) (ix3 b n d))
          (fun b n c' => m ((c.tc : Thread nD τ).loc main_arg2) (ix3 b n c')) (fun b n c' => m ((c.tc : Thread nD τ).loc main_arg3) (ix3 b n c'))
          (Ideal.exp (m ((c.tc : Thread nD τ).loc main_arg4) ix0) + Ideal.ofBits .f32 0x3CF5C28F#32) (Ideal.ofBits .f32 0x42C80000#32)
          (Ideal.ofBits .f32 0x322BCC77#32) b n k := by
  rw [Read.val_main_v42_eq]
  exact ref_apply _ _ _ _ _ b n k

end Cert.ReferenceIdeal.RefValue

end
-- ==== Proof.Algebra.lean ====
/-
  The kernel's function equals the reference's, as plain mathematics on the extended reals.

  The exponent identity `-(2 - 2 x) / D = (2 / D) x - 2 / D` holds at every extended real `x` for a positive real `D`
  (at the two infinities both sides are that infinity), and a nonnegative real factor distributes over any finite
  extended-real sum, so the augmented inner product of length 65 is the reference's exponent.  For real coordinates
  the augmented inner product of length 5 is the expanded squared distance.  Selecting on the mask is multiplying by
  its indicator.  The four tiles of 1024 target points partition the 4096 target points, so the accumulator's
  columns are the weighted coordinate sums and (last column) the sum of the weights.
-/
import proofs.«429331_j45681272160506_3_alg».proof.Proof.Spec
import Mathlib.Data.EReal.Operations
import Mathlib.Algebra.BigOperators.Fin

noncomputable section

namespace Cert.Spec

open Idealize.ShloMosaic

/-! ## Extended-real arithmetic with a nonnegative real factor -/

/-- A nonnegative real factor distributes over every finite sum of extended reals (the infinite terms
    included: the factor never turns a `⊤` into a `⊥`). -/
theorem coe_mul_sum_of_nonneg {ι : Type*} (s : Finset ι) {t : ℝ} (ht : 0 ≤ t) (f : ι → EReal) :
    (t : EReal) * ∑ i ∈ s, f i = ∑ i ∈ s, (t : EReal) * f i := by
  classical
  induction s using Finset.induction_on with
  | empty => simp
  | insert a s ha ih =>
    rw [Finset.sum_insert ha, Finset.sum_insert ha,
      EReal.left_distrib_of_nonneg_of_ne_top (by exact_mod_cast ht) (EReal.coe_ne_top t), ih]

/-- Two over a nonzero real is the real `2 * (1 / r)`. -/
theorem div_two_coe {r : ℝ} (hr : r ≠ 0) : Ideal.div 2 (r : EReal) = ((2 * (1 / r) : ℝ) : EReal) := by
  rw [Ideal.div_coe hr, EReal.coe_mul]
  norm_cast

/-- The exponent, at every extended real `x`: `-(2 - 2 x) / r = (2 / r) x + (-(2 / r)) 1` for a positive real `r`. -/
theorem div_neg_two_sub {r : ℝ} (hr : 0 < r) (x : EReal) :
    Ideal.div (-(2 - 2 * x)) (r : EReal) = Ideal.div 2 (r : EReal) * x + (-(Ideal.div 2 (r : EReal))) * 1 := by
  have hs : 0 < 1 / r := by positivity
  have ht : 0 < 2 * (1 / r) := by positivity
  have h2 : (2 : EReal) = ((2 : ℝ) : EReal) := by norm_cast
  rw [div_two_coe hr.ne', Ideal.div_coe hr.ne', h2, mul_one]
  induction x using EReal.rec with
  | bot =>
    rw [EReal.coe_mul_bot_of_pos two_pos, EReal.coe_sub_bot, EReal.neg_top, EReal.bot_mul_coe_of_pos hs,
      EReal.coe_mul_bot_of_pos ht, EReal.bot_add]
  | coe a =>
    norm_cast
    ring
  | top =>
    rw [EReal.coe_mul_top_of_pos two_pos, EReal.sub_top, EReal.neg_bot, EReal.top_mul_coe_of_pos hs,
      EReal.coe_mul_top_of_pos ht, ← EReal.coe_neg, EReal.top_add_coe]

/-! ## The exponent: one inner product of augmented rows -/

section
variable (fs ft : Fin 2 → Fin 4096 → Fin 64 → EReal) (cs ct : Fin 2 → Fin 4096 → Fin 3 → EReal) (D h100 e8 : EReal)

/-- The first 64 entries of the augmented rows multiply to `(2 / D)` times the feature product. -/
theorem fsA_mul_ftA_castSucc (b : Fin 2) (n m : Fin 4096) (d : Fin 64) :
    fsA fs D b n (Fin.castSucc d) * ftA ft b m (Fin.castSucc d) = Ideal.div 2 D * (fs b n d * ft b m d) := by
  have hd : (Fin.castSucc d).val < 64 := d.isLt
  have he : (⟨(Fin.castSucc d).val, hd⟩ : Fin 64) = d := Fin.ext rfl
  rw [fsA, ftA, dif_pos hd, dif_pos hd, he, mul_comm (fs b n d), mul_assoc]

/-- The last entries of the augmented rows multiply to `-(2 / D)`. -/
theorem fsA_mul_ftA_last (b : Fin 2) (n m : Fin 4096) :
    fsA fs D b n (Fin.last 64) * ftA ft b m (Fin.last 64) = (-(Ideal.div 2 D)) * 1 := by
  have hd : ¬ (Fin.last 64).val < 64 := by simp
  rw [fsA, ftA, dif_neg hd, dif_neg hd, mul_one]

/-- The kernel's exponent is the reference's. -/
theorem argK_eq_argR (hD : ∃ r : ℝ, 0 < r ∧ D = (r : EReal)) (b : Fin 2) (n m : Fin 4096) :
    argK fs ft D b n m = argR fs ft D b n m := by
  obtain ⟨r, hr, rfl⟩ := hD
  have ht : (0 : ℝ) ≤ 2 * (1 / r) := by positivity
  rw [argK, argR, div_neg_two_sub hr, Fin.sum_univ_castSucc, fsA_mul_ftA_last]
  simp only [fsA_mul_ftA_castSucc]
  rw [div_two_coe hr.ne', coe_mul_sum_of_nonneg _ ht]

/-! ## The squared distance: one inner product of augmented rows -/

theorem csA_zero (b : Fin 2) (n : Fin 4096) : csA cs b n 0 = cs b n 0 := by
  rw [csA, dif_pos (by decide)]; rfl
theorem csA_one (b : Fin 2) (n : Fin 4096) : csA cs b n 1 = cs b n 1 := by
  rw [csA, dif_pos (by decide)]; rfl
theorem csA_two (b : Fin 2) (n : Fin 4096) : csA cs b n 2 = cs b n 2 := by
  rw [csA, dif_pos (by decide)]; rfl
theorem csA_three (b : Fin 2) (n : Fin 4096) : csA cs b n 3 = 1 := by
  rw [csA, dif_neg (by decide), if_pos (by decide)]
theorem csA_four (b : Fin 2) (n : Fin 4096) : csA cs b n 4 = sq3 cs b n := by
  rw [csA, dif_neg (by decide), if_neg (by decide)]

theorem ctA_zero (b : Fin 2) (m : Fin 4096) : ctA ct b m 0 = (-2) * ct b m 0 := by
  rw [ctA, dif_pos (by decide)]; rfl
theorem ctA_one (b : Fin 2) (m : Fin 4096) : ctA ct b m 1 = (-2) * ct b m 1 := by
  rw [ctA, dif_pos (by decide)]; rfl
theorem ctA_two (b : Fin 2) (m : Fin 4096) : ctA ct b m 2 = (-2) * ct b m 2 := by
  rw [ctA, dif_pos (by decide)]; rfl
theorem ctA_three (b : Fin 2) (m : Fin 4096) : ctA ct b m 3 = sq3 ct b m := by
  rw [ctA, dif_neg (by decide), if_pos (by decide)]
theorem ctA_four (b : Fin 2) (m : Fin 4096) : ctA ct b m 4 = 1 := by
  rw [ctA, dif_neg (by decide), if_neg (by decide)]

/-- For real coordinates the kernel's squared distance is the reference's. -/
theorem sqK_eq_sqR (hcs : ∀ b n c, ∃ r : ℝ, cs b n c = (r : EReal)) (hct : ∀ b n c, ∃ r : ℝ, ct b n c = (r : EReal))
    (b : Fin 2) (n m : Fin 4096) : sqK cs ct b n m = sqR cs ct b n m := by
  obtain ⟨x0, hx0⟩ := hcs b n 0
  obtain ⟨x1, hx1⟩ := hcs b n 1
  obtain ⟨x2, hx2⟩ := hcs b n 2
  obtain ⟨y0, hy0⟩ := hct b m 0
  obtain ⟨y1, hy1⟩ := hct b m 1
  obtain ⟨y2, hy2⟩ := hct b m 2
  have h2 : (2 : EReal) = ((2 : ℝ) : EReal) := by norm_cast
  rw [sqK, sqR, Fin.sum_univ_five, csA_zero, csA_one, csA_two, csA_three, csA_four, ctA_zero, ctA_one, ctA_two,
    ctA_three, ctA_four, sq3, sq3, Fin.sum_univ_three, Fin.sum_univ_three, Fin.sum_univ_three,
    hx0, hx1, hx2, hy0, hy1, hy2, h2, one_mul, mul_one]
  simp only [← EReal.coe_neg, ← EReal.coe_mul, ← EReal.coe_add, ← EReal.coe_sub]
  congr 1
  ring

/-! ## The weight: a select instead of a product with the mask -/

theorem KK_eq_KR (hcs : ∀ b n c, ∃ r : ℝ, cs b n c = (r : EReal)) (hct : ∀ b n c, ∃ r : ℝ, ct b n c = (r : EReal))
    (hD : ∃ r : ℝ, 0 < r ∧ D = (r : EReal)) (b : Fin 2) (n m : Fin 4096) :
    KK fs ft cs ct D h100 b n m = KR fs ft cs ct D h100 b n m := by
  rw [KK, KR, sqK_eq_sqR cs ct hcs hct, argK_eq_argR fs ft D hD]
  by_cases h : sqR cs ct b n m < h100
  · rw [if_pos h, if_pos h, mul_one]
  · rw [if_neg h, if_neg h, mul_zero]

end

/-! ## The four tiles cover the target points once -/

/-- Tile and offset as one target index: `(k, q) ↦ 1024 k + q`, with quotient and remainder by `1024` as inverse. -/
def tileEquiv : Fin 4 × Fin 1024 ≃ Fin 4096 where
  toFun p := tIdx p.1 p.2
  invFun m := (⟨m.val / 1024, by omega⟩, ⟨m.val % 1024, by omega⟩)
  left_inv := by
    rintro ⟨k, q⟩
    have hq := q.isLt
    refine Prod.ext (Fin.ext ?_) (Fin.ext ?_)
    · show (1024 * k.val + q.val) / 1024 = k.val
      omega
    · show (1024 * k.val + q.val) % 1024 = q.val
      omega
  right_inv := by
    intro m
    refine Fin.ext ?_
    show 1024 * (m.val / 1024) + m.val % 1024 = m.val
    omega

/-- Summing tile by tile is summing over all target points, in any commutative monoid. -/
theorem sum_tiles {M : Type*} [AddCommMonoid M] (f : Fin 4096 → M) :
    ((∑ q, f (tIdx 0 q) + ∑ q, f (tIdx 1 q)) + ∑ q, f (tIdx 2 q)) + ∑ q, f (tIdx 3 q) = ∑ m, f m := by
  rw [← Equiv.sum_comp tileEquiv f, Fintype.sum_prod_type, Fin.sum_univ_four]
  rfl

/-! ## The accumulator's columns, and the result -/

section
variable (fs ft : Fin 2 → Fin 4096 → Fin 64 → EReal) (cs ct : Fin 2 → Fin 4096 → Fin 3 → EReal) (D h100 e8 : EReal)

/-- Each column of the accumulator is the reference's weights against that column of the augmented coordinates. -/
theorem accK_eq_sum (hcs : ∀ b n c, ∃ r : ℝ, cs b n c = (r : EReal)) (hct : ∀ b n c, ∃ r : ℝ, ct b n c = (r : EReal))
    (hD : ∃ r : ℝ, 0 < r ∧ D = (r : EReal)) (b : Fin 2) (n : Fin 4096) (j : Fin 4) :
    accK fs ft cs ct D h100 b n j = ∑ m : Fin 4096, KR fs ft cs ct D h100 b n m * ct4 ct b m j := by
  unfold accK tile
  rw [sum_tiles (fun m => KK fs ft cs ct D h100 b n m * ct4 ct b m j)]
  exact Finset.sum_congr rfl (fun m _ => by rw [KK_eq_KR fs ft cs ct D h100 hcs hct hD])

/-- The first three columns of the augmented coordinates are the coordinates. -/
theorem ct4_coord (b : Fin 2) (m : Fin 4096) (c : Fin 3) (h : c.val < 4) : ct4 ct b m ⟨c.val, h⟩ = ct b m c := by
  rw [ct4, dif_pos c.isLt]

/-- The fourth column is the ones. -/
theorem ct4_three (b : Fin 2) (m : Fin 4096) : ct4 ct b m 3 = 1 := by
  rw [ct4, dif_neg (by decide)]

/-- The kernel's result is the reference's. -/
theorem outK_eq_outR (hcs : ∀ b n c, ∃ r : ℝ, cs b n c = (r : EReal)) (hct : ∀ b n c, ∃ r : ℝ, ct b n c = (r : EReal))
    (hD : ∃ r : ℝ, 0 < r ∧ D = (r : EReal)) (b : Fin 2) (n : Fin 4096) (c : Fin 3) :
    outK fs ft cs ct D h100 e8 b n c = outR fs ft cs ct D h100 e8 b n c := by
  rw [outK, outR, accK_eq_sum fs ft cs ct D h100 hcs hct hD, accK_eq_sum fs ft cs ct D h100 hcs hct hD]
  simp only [ct4_coord, ct4_three, mul_one]

end

end Cert.Spec

end
-- ==== Proof.Finite.lean ====
/-
  From the printed finiteness predicate to real numbers.

  The predicate is a conjunction of five tests "every entry x of the array has |x| < +∞", one per argument,
  each an and-reduction of the comparison's bits. On the extended reals, |x| = max x (-x) lies strictly
  below +∞ exactly when x is neither +∞ nor -∞, that is, when x is a real number. Only the two coordinate
  arrays and the scalar are needed further on.
-/
import proofs.«429331_j45681272160506_3_alg».proof.Defs
import proofs.«429331_j45681272160506_3_alg».proof.Proof.Gen.Pre_finite_inputs
import Idealize.ShloMosaic.Lib.ReduceAll
import Idealize.ShloMosaic.Lib.ValueIdx

noncomputable section

namespace Cert.Finite

open Idealize.ShloMosaic

/-- The bit pattern of `+∞` denotes the top element. -/
theorem inf_eq_top : Ideal.ofBits .f32 0x7F800000#32 = (⊤ : EReal) := by simp [Ideal.ofBits, Ideal.ieee]

/-- An extended real whose absolute value lies strictly below `+∞` is a real number. -/
theorem real_of_abs_lt (x : EReal)
    (h : Ideal.cmp .olt (max x (-x)) (Ideal.ofBits .f32 0x7F800000#32) = 1#1) : ∃ r : ℝ, x = (r : EReal) := by
  rw [inf_eq_top] at h
  induction x using EReal.rec with
  | bot => simp [Ideal.cmp] at h
  | coe r => exact ⟨r, rfl⟩
  | top => simp [Ideal.cmp] at h

/-- The result shape of a full reduction has exactly one index. -/
instance : Subsingleton Cert.Pre_finite_inputs.S_.Idx := ⟨fun a b => funext fun d => d.elim0⟩

/-- The middle form, over plain arrays: where the printed predicate is all ones, every entry of the two
    coordinate arrays and the scalar are real numbers. -/
theorem real_of_fn [hP : Cert.Pre_finite_inputs.Facts]
    (x0 x1 : FVec Ideal Cert.KernelIdeal.S2x4096x64 .f32)
    (x2 x3 : FVec Ideal Cert.KernelIdeal.S2x4096x3 .f32) (x4 : FVec Ideal Cert.KernelIdeal.S_ .f32)
    (h : Cert.Pre_finite_inputs.fn (F := Ideal) x0 x1 x2 x3 x4 = (fun _ => 1#1)) :
    (∀ i, ∃ r : ℝ, x2 i = (r : EReal)) ∧ (∀ i, ∃ r : ℝ, x3 i = (r : EReal))
      ∧ (∃ r : ℝ, x4 ValueIdx.ix0 = (r : EReal)) := by
  -- the predicate's one bit, written out: a five-fold conjunction of and-reductions
  have h0 := congrFun h ValueIdx.ix0
  dsimp only [Cert.Pre_finite_inputs.fn, Cert.Pre_finite_inputs.fn_part1, andi] at h0
  obtain ⟨h1234, h4⟩ := IntOp.andi_eq_one.1 h0
  obtain ⟨h123, h3⟩ := IntOp.andi_eq_one.1 h1234
  obtain ⟨_, h2⟩ := IntOp.andi_eq_one.1 h123
  -- each and-reduction that is one had a one at every entry; an entry's bit is the test |x| < +∞
  refine ⟨fun i => ?_, fun i => ?_, ?_⟩
  · exact real_of_abs_lt _ (Host.reduce_andi_all _ _ _ _ _ h2 i)
  · exact real_of_abs_lt _ (Host.reduce_andi_all _ _ _ _ _ h3 i)
  · exact real_of_abs_lt _ (Host.reduce_andi_all _ _ _ _ _ h4 ValueIdx.ix0)

/-- At the kernel's argument arrays: under the printed precondition the source coordinates, the target
    coordinates and the scalar regularizer are real numbers, on every device. -/
theorem real_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∃ r : ℝ, m ((c.tc : Thread Cert.KernelIdeal.nD Cert.KernelIdeal.τ).loc Cert.KernelIdeal.main_arg4) ValueIdx.ix0 = (r : EReal)) :=
  real_of_fn _ _ _ _ _ (h c)

end Cert.Finite

end
-- ==== Proof.Consts.lean ====
/-
  The one literal the comparison of the two exponents needs as a NUMBER: the offset 0.03 added to exp(epsilon) denotes a
  positive real, so the temperature denominator is a positive real whenever epsilon is real.
-/
import Idealize.ShloMosaic.PureOps.Ideal

noncomputable section

namespace Cert.Consts

open Idealize.ShloMosaic

/-- The pattern of the offset denotes 16106127 · 2⁻²⁹. -/
theorem ofBits_offset : Ideal.ofBits .f32 0x3CF5C28F#32 = (((16106127 : ℝ) * (2 : ℝ) ^ (-29 : ℤ) : ℝ) : EReal) := by
  simp [Ideal.ofBits, Ideal.ieee, -EReal.coe_mul]

/-- The exponential of a real is a positive real. -/
theorem exp_coe (e : ℝ) : Ideal.exp (e : EReal) = ((Real.exp e : ℝ) : EReal) := rfl

/-- So is the denominator exp(epsilon) + 0.03. -/
theorem denom_pos (x : EReal) (hx : ∃ e : ℝ, x = (e : EReal)) :
    ∃ r : ℝ, 0 < r ∧ Ideal.exp x + Ideal.ofBits .f32 0x3CF5C28F#32 = (r : EReal) := by
  obtain ⟨e, rfl⟩ := hx
  refine ⟨Real.exp e + (16106127 : ℝ) * (2 : ℝ) ^ (-29 : ℤ), by positivity, ?_⟩
  rw [exp_coe, ofBits_offset, ← EReal.coe_add]

end Cert.Consts

end
-- ==== Proof.lean ====
/-
  The certificate's claims, assembled.

  The kernel program normalizes the two feature arrays row by row on the host, folds the exponent's affine map and the
  squared-distance expansion into augmented operands, and runs ONE region over the grid (batch, source tile, target
  tile) that accumulates, tile by tile, the masked exponential weights against the target coordinates with a column of
  ones appended; after the last target tile it divides the weighted coordinate sums by the weight sum (plus a small
  constant) and subtracts the source coordinate. The reference computes the same weights as a full plane.

  The three frames: both kernel programs by the body's triple in each of its three cases (first, middle, last target
  tile), the accumulator carried between grid points in the region's invariant; the reference by its run.
  The algebraic claim: at the extended reals the kernel's result array is `outK` of the arguments (the accumulator after
  each point is the running sum of the tiles, by induction over the grid points; each output block is written back once,
  after its last tile), the reference's is `outR` (one host operation at a time), and `outK = outR` whenever the
  coordinates and epsilon are real, which the precondition says: the exponent identity holds for ANY extended-real
  feature inner product because the temperature denominator is a positive real; the squared distances agree as real
  polynomials; selecting equals multiplying by the 0/1 mask; four tile sums make the whole sum.
  The ideal pass rewrote nothing, so the preservation claim is trivial.
-/
import proofs.«429331_j45681272160506_3_alg».proof.Defs
import proofs.«429331_j45681272160506_3_alg».proof.Proof.Gen.Kernel
import proofs.«429331_j45681272160506_3_alg».proof.Proof.Gen.KernelIdeal
import proofs.«429331_j45681272160506_3_alg».proof.Proof.Gen.ReferenceIdeal
import proofs.«429331_j45681272160506_3_alg».proof.Proof.Gen.Pre_finite_inputs
import proofs.«429331_j45681272160506_3_alg».proof.Proof.FrameK.Frame
import proofs.«429331_j45681272160506_3_alg».proof.Proof.KRun
import proofs.«429331_j45681272160506_3_alg».proof.Proof.RefValue
import proofs.«429331_j45681272160506_3_alg».proof.Proof.Algebra
import proofs.«429331_j45681272160506_3_alg».proof.Proof.Finite
import proofs.«429331_j45681272160506_3_alg».proof.Proof.Consts
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Fr.frame (F := Bits) m ρ

theorem frame_ki : Cert.frame_KernelIdeal := fun m ρ _ => Cert.KernelIdeal.Fr.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- The two row normalizations are one function: the same host operations in both programs. -/
theorem nfeat_eq (x : FVec Ideal Cert.KernelIdeal.S2x4096x64 .f32) :
    Cert.ReferenceIdeal.RefValue.nfeat x = Cert.KernelIdeal.HostV.nfeat x := rfl

theorem algebraic : Cert.algebraic_KernelIdeal_ReferenceIdeal := by
  intro m ρ m' ρ' hpre hagree
  refine ⟨fun c => Cert.KernelIdeal.Val.Gout m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  obtain ⟨hcs, hct, he⟩ := Cert.Finite.real_of_pre m hpre c
  funext j
  obtain ⟨b, n, k, rfl⟩ : ∃ (b : Fin 2) (n : Fin 4096) (k : Fin 3), j = ValueIdx.ix3 b n k := ⟨j 0, j 1, j 2, ValueIdx.eq_ix3 j⟩
  rw [Cert.ReferenceIdeal.RefValue.res_apply m' c b n k, (hagree c).1, (hagree c).2.1, (hagree c).2.2.1, (hagree c).2.2.2.1,
    (hagree c).2.2.2.2]
  exact (Cert.Spec.outK_eq_outR _ _ _ _ _ _ _ (fun b n k => hcs (ValueIdx.ix3 b n k)) (fun b n k => hct (ValueIdx.ix3 b n k))
    (Cert.Consts.denom_pos _ he) b n k).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
